-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x50x64 : Shape := ⟨4, ![4096, 2, 50, 64]⟩
abbrev S1024x50 : Shape := ⟨2, ![1024, 50]⟩
abbrev S_ : Shape := ⟨0, ![]⟩

class Facts : Prop where
  bcast_S_S4096x2x50x64 : S_.BroadcastsInDim S4096x2x50x64 (![] : Fin 0 → Fin S4096x2x50x64.rank)
  reducesTo_S4096x2x50x64_S_d0_1_2_3 : S4096x2x50x64.ReducesTo [0, 1, 2, 3] S_
  h_S_ : 0 < S_.numel
  bcast_S_S1024x50 : S_.BroadcastsInDim S1024x50 (![] : Fin 0 → Fin S1024x50.rank)
  reducesTo_S1024x50_S_d0_1 : S1024x50.ReducesTo [0, 1] S_

variable [Facts]

def fn {F : FTy → Type} [FloatOps F] (main_arg0 : FVec F S4096x2x50x64 .f32) (main_arg1 : FVec F S1024x50 .f32) : IVec S_ 1 :=
  let main_v0 : FVec F S4096x2x50x64 .f32 := Host.absf main_arg0
  let main_cst : FVec F S_ .f32 := constant S_ .f32 0x7F800000#32
  let main_v1 : FVec F S4096x2x50x64 .f32 := broadcastInDim S4096x2x50x64 ![] bcast_S_S4096x2x50x64 main_cst
  let main_v2 : IVec S4096x2x50x64 1 := cmpf .olt main_v0 main_v1
  let main_c : IVec S_ 1 := constantI S_ 1 1#1
  let main_v3 : IVec S_ 1 := (fun x v => Host.reduce IntOp.andi x v reducesTo_S4096x2x50x64_S_d0_1_2_3 h_S_) main_v2 main_c
  let main_v4 : FVec F S1024x50 .f32 := Host.absf main_arg1
  let main_cst_0 : FVec F S_ .f32 := constant S_ .f32 0x7F800000#32
  let main_v5 : FVec F S1024x50 .f32 := broadcastInDim S1024x50 ![] bcast_S_S1024x50 main_cst_0
  let main_v6 : IVec S1024x50 1 := cmpf .olt main_v4 main_v5
  let main_c_1 : IVec S_ 1 := constantI S_ 1 1#1
  let main_v7 : IVec S_ 1 := (fun x v => Host.reduce IntOp.andi x v reducesTo_S1024x50_S_d0_1 h_S_) main_v6 main_c_1
  let main_v8 : IVec S_ 1 := andi main_v3 main_v7
  main_v8
-- ==== Kernel.lean ====
abbrev S4096x2x50x64 : Shape := ⟨4, ![4096, 2, 50, 64]⟩
abbrev S1024x50 : Shape := ⟨2, ![1024, 50]⟩
abbrev S32x2x50x64 : Shape := ⟨4, ![32, 2, 50, 64]⟩
abbrev S256x50 : Shape := ⟨2, ![256, 50]⟩
abbrev S7x2048x128 : Shape := ⟨3, ![7, 2048, 128]⟩
abbrev S64x128 : Shape := ⟨2, ![64, 128]⟩
abbrev S32x1x8x64 : Shape := ⟨4, ![32, 1, 8, 64]⟩
abbrev S32x8x64 : Shape := ⟨3, ![32, 8, 64]⟩
abbrev S256x64 : Shape := ⟨2, ![256, 64]⟩
abbrev S256x128 : Shape := ⟨2, ![256, 128]⟩
abbrev S1x256x128 : Shape := ⟨3, ![1, 256, 128]⟩
abbrev S32x1x2x64 : Shape := ⟨4, ![32, 1, 2, 64]⟩
abbrev S32x2x64 : Shape := ⟨3, ![32, 2, 64]⟩
abbrev S64x64 : Shape := ⟨2, ![64, 64]⟩
abbrev S1x64x128 : Shape := ⟨3, ![1, 64, 128]⟩
abbrev S1x2048x128 : Shape := ⟨3, ![1, 2048, 128]⟩
abbrev S2048x128 : Shape := ⟨2, ![2048, 128]⟩
abbrev S256x8x128 : Shape := ⟨3, ![256, 8, 128]⟩
abbrev S256x8x1 : Shape := ⟨3, ![256, 8, 1]⟩
abbrev S256x8 : Shape := ⟨2, ![256, 8]⟩
abbrev S1x512x128 : Shape := ⟨3, ![1, 512, 128]⟩
abbrev S512x128 : Shape := ⟨2, ![512, 128]⟩
abbrev S256x2x128 : Shape := ⟨3, ![256, 2, 128]⟩
abbrev S256x2x1 : Shape := ⟨3, ![256, 2, 1]⟩
abbrev S256x2 : Shape := ⟨2, ![256, 2]⟩

abbrev nBuf : Space → Nat
  | .hbm => 3
  | .vmem => 21
  | .smem => 0
  | _ => 0

abbrev bufTy : (tb : Table) → Fin (tcTables nBuf tb) → BufTy
  | .hbm, ⟨0, _⟩ => ⟨S4096x2x50x64, .f32⟩
  | .hbm, ⟨1, _⟩ => ⟨S1024x50, .f32⟩
  | .hbm, ⟨2, _⟩ => ⟨S1024x50, .f32⟩
  | .local _ .vmem, ⟨0, _⟩ => ⟨S32x2x50x64, .f32⟩
  | .local _ .vmem, ⟨1, _⟩ => ⟨S32x2x50x64, .f32⟩
  | .local _ .vmem, ⟨2, _⟩ => ⟨S32x2x50x64, .f32⟩
  | .local _ .vmem, ⟨3, _⟩ => ⟨S32x2x50x64, .f32⟩
  | .local _ .vmem, ⟨4, _⟩ => ⟨S32x2x50x64, .f32⟩
  | .local _ .vmem, ⟨5, _⟩ => ⟨S32x2x50x64, .f32⟩
  | .local _ .vmem, ⟨6, _⟩ => ⟨S32x2x50x64, .f32⟩
  | .local _ .vmem, ⟨7, _⟩ => ⟨S32x2x50x64, .f32⟩
  | .local _ .vmem, ⟨8, _⟩ => ⟨S32x2x50x64, .f32⟩
  | .local _ .vmem, ⟨9, _⟩ => ⟨S32x2x50x64, .f32⟩
  | .local _ .vmem, ⟨10, _⟩ => ⟨S32x2x50x64, .f32⟩
  | .local _ .vmem, ⟨11, _⟩ => ⟨S32x2x50x64, .f32⟩
  | .local _ .vmem, ⟨12, _⟩ => ⟨S32x2x50x64, .f32⟩
  | .local _ .vmem, ⟨13, _⟩ => ⟨S32x2x50x64, .f32⟩
  | .local _ .vmem, ⟨14, _⟩ => ⟨S32x2x50x64, .f32⟩
  | .local _ .vmem, ⟨15, _⟩ => ⟨S32x2x50x64, .f32⟩
  | .local _ .vmem, ⟨16, _⟩ => ⟨S256x50, .f32⟩
  | .local _ .vmem, ⟨17, _⟩ => ⟨S256x50, .f32⟩
  | .local _ .vmem, ⟨18, _⟩ => ⟨S256x50, .f32⟩
  | .local _ .vmem, ⟨19, _⟩ => ⟨S256x50, .f32⟩
  | .local _ .vmem, ⟨20, _⟩ => ⟨S7x2048x128, .f32⟩
  | _, _ => ⟨S4096x2x50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_cond113 (i : grid0.Coords) : BitVec 1 :=
  let arg1 : BitVec 32 := BitVec.ofNat 32 (i 1).val
  let c3_i32 : BitVec 32 := 3#32
  let v841 : BitVec 1 := Scalar.cmpi .eq arg1 c3_i32
  let v842 : BitVec 32 := Scalar.extui v841
  let c0_i32_552 : BitVec 32 := 0#32
  let v843 : BitVec 1 := Scalar.cmpi .ne v842 c0_i32_552
  v843

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c0_i32 : BitVec 32 := 0#32
  let v3 : BitVec 32 := Scalar.addi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c2_i32 : BitVec 32 := 2#32
  let v3 : BitVec 32 := Scalar.addi v2 c2_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c3_i32 : BitVec 32 := 3#32
  let v3 : BitVec 32 := Scalar.addi v2 c3_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c4_i32_0 : BitVec 32 := 4#32
  let v3 : BitVec 32 := Scalar.addi v2 c4_i32_0
  let c0_i32 : BitVec 32 := 0#32
  let c0_i32_1 : BitVec 32 := 0#32
  let c0_i32_2 : BitVec 32 := 0#32
  let c0_i32_3 : BitVec 32 := 0#32
  ![v3.toNat, c0_i32.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c5_i32 : BitVec 32 := 5#32
  let v3 : BitVec 32 := Scalar.addi v2 c5_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c6_i32 : BitVec 32 := 6#32
  let v3 : BitVec 32 := Scalar.addi v2 c6_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c8_i32 : BitVec 32 := 8#32
  let v2 : BitVec 32 := Scalar.muli c8_i32 v1
  let c7_i32 : BitVec 32 := 7#32
  let v3 : BitVec 32 := Scalar.addi v2 c7_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x2x50x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2x50x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2x50x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2x50x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2x50x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2x50x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2x50x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2x50x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x50 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x50 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  inb_S32x2x50x64_S32x1x8x64_0_0_0_0 : ∀ a, (![0, 0, 0, 0] : Fin 4 → Nat) a + S32x1x8x64.size a ≤ S32x2x50x64.size a
  h_S32x1x8x64 : 0 < S32x1x8x64.numel
  shapeCasts_S32x1x8x64_S32x8x64 : S32x1x8x64.ShapeCasts S32x8x64
  shapeCasts_S32x8x64_S256x64 : S32x8x64.ShapeCasts S256x64
  natLt_1_32 : 1 < 32
  inb_S7x2048x128_S1x256x128_0_0_0 : ∀ a, (![0, 0, 0] : Fin 3 → Nat) a + S1x256x128.size a ≤ S7x2048x128.size a
  h_S1x256x128 : 0 < S1x256x128.numel
  shapeCasts_S1x256x128_S256x128 : S1x256x128.ShapeCasts S256x128
  shapeCasts_S256x128_S1x256x128 : S256x128.ShapeCasts S1x256x128
  inb_S32x2x50x64_S32x1x8x64_0_0_8_0 : ∀ a, (![0, 0, 8, 0] : Fin 4 → Nat) a + S32x1x8x64.size a ≤ S32x2x50x64.size a
  inb_S7x2048x128_S1x256x128_1_0_0 : ∀ a, (![1, 0, 0] : Fin 3 → Nat) a + S1x256x128.size a ≤ S7x2048x128.size a
  inb_S32x2x50x64_S32x1x8x64_0_0_16_0 : ∀ a, (![0, 0, 16, 0] : Fin 4 → Nat) a + S32x1x8x64.size a ≤ S32x2x50x64.size a
  inb_S7x2048x128_S1x256x128_2_0_0 : ∀ a, (![2, 0, 0] : Fin 3 → Nat) a + S1x256x128.size a ≤ S7x2048x128.size a
  inb_S32x2x50x64_S32x1x8x64_0_0_24_0 : ∀ a, (![0, 0, 24, 0] : Fin 4 → Nat) a + S32x1x8x64.size a ≤ S32x2x50x64.size a
  inb_S7x2048x128_S1x256x128_3_0_0 : ∀ a, (![3, 0, 0] : Fin 3 → Nat) a + S1x256x128.size a ≤ S7x2048x128.size a
  inb_S32x2x50x64_S32x1x8x64_0_0_32_0 : ∀ a, (![0, 0, 32, 0] : Fin 4 → Nat) a + S32x1x8x64.size a ≤ S32x2x50x64.size a
  inb_S7x2048x128_S1x256x128_4_0_0 : ∀ a, (![4, 0, 0] : Fin 3 → Nat) a + S1x256x128.size a ≤ S7x2048x128.size a
  inb_S32x2x50x64_S32x1x8x64_0_0_40_0 : ∀ a, (![0, 0, 40, 0] : Fin 4 → Nat) a + S32x1x8x64.size a ≤ S32x2x50x64.size a
  inb_S7x2048x128_S1x256x128_5_0_0 : ∀ a, (![5, 0, 0] : Fin 3 → Nat) a + S1x256x128.size a ≤ S7x2048x128.size a
  inb_S32x2x50x64_S32x1x2x64_0_0_48_0 : ∀ a, (![0, 0, 48, 0] : Fin 4 → Nat) a + S32x1x2x64.size a ≤ S32x2x50x64.size a
  h_S32x1x2x64 : 0 < S32x1x2x64.numel
  shapeCasts_S32x1x2x64_S32x2x64 : S32x1x2x64.ShapeCasts S32x2x64
  shapeCasts_S32x2x64_S64x64 : S32x2x64.ShapeCasts S64x64
  inb_S7x2048x128_S1x64x128_6_0_0 : ∀ a, (![6, 0, 0] : Fin 3 → Nat) a + S1x64x128.size a ≤ S7x2048x128.size a
  h_S1x64x128 : 0 < S1x64x128.numel
  shapeCasts_S1x64x128_S64x128 : S1x64x128.ShapeCasts S64x128
  shapeCasts_S64x128_S1x64x128 : S64x128.ShapeCasts S1x64x128
  inb_S7x2048x128_S1x256x128_0_256_0 : ∀ a, (![0, 256, 0] : Fin 3 → Nat) a + S1x256x128.size a ≤ S7x2048x128.size a
  inb_S7x2048x128_S1x256x128_1_256_0 : ∀ a, (![1, 256, 0] : Fin 3 → Nat) a + S1x256x128.size a ≤ S7x2048x128.size a
  inb_S7x2048x128_S1x256x128_2_256_0 : ∀ a, (![2, 256, 0] : Fin 3 → Nat) a + S1x256x128.size a ≤ S7x2048x128.size a
  inb_S7x2048x128_S1x256x128_3_256_0 : ∀ a, (![3, 256, 0] : Fin 3 → Nat) a + S1x256x128.size a ≤ S7x2048x128.size a
  inb_S7x2048x128_S1x256x128_4_256_0 : ∀ a, (![4, 256, 0] : Fin 3 → Nat) a + S1x256x128.size a ≤ S7x2048x128.size a
  inb_S7x2048x128_S1x256x128_5_256_0 : ∀ a, (![5, 256, 0] : Fin 3 → Nat) a + S1x256x128.size a ≤ S7x2048x128.size a
  inb_S7x2048x128_S1x64x128_6_64_0 : ∀ a, (![6, 64, 0] : Fin 3 → Nat) a + S1x64x128.size a ≤ S7x2048x128.size a
  inb_S7x2048x128_S1x256x128_0_512_0 : ∀ a, (![0, 512, 0] : Fin 3 → Nat) a + S1x256x128.size a ≤ S7x2048x128.size a
  inb_S7x2048x128_S1x256x128_1_512_0 : ∀ a, (![1, 512, 0] : Fin 3 → Nat) a + S1x256x128.size a ≤ S7x2048x128.size a
  inb_S7x2048x128_S1x256x128_2_512_0 : ∀ a, (![2, 512, 0] : Fin 3 → Nat) a + S1x256x128.size a ≤ S7x2048x128.size a
  inb_S7x2048x128_S1x256x128_3_512_0 : ∀ a, (![3, 512, 0] : Fin 3 → Nat) a + S1x256x128.size a ≤ S7x2048x128.size a
  inb_S7x2048x128_S1x256x128_4_512_0 : ∀ a, (![4, 512, 0] : Fin 3 → Nat) a + S1x256x128.size a ≤ S7x2048x128.size a
  inb_S7x2048x128_S1x256x128_5_512_0 : ∀ a, (![5, 512, 0] : Fin 3 → Nat) a + S1x256x128.size a ≤ S7x2048x128.size a
  inb_S7x2048x128_S1x64x128_6_128_0 : ∀ a, (![6, 128, 0] : Fin 3 → Nat) a + S1x64x128.size a ≤ S7x2048x128.size a
  inb_S7x2048x128_S1x256x128_0_768_0 : ∀ a, (![0, 768, 0] : Fin 3 → Nat) a + S1x256x128.size a ≤ S7x2048x128.size a
  inb_S7x2048x128_S1x256x128_1_768_0 : ∀ a, (![1, 768, 0] : Fin 3 → Nat) a + S1x256x128.size a ≤ S7x2048x128.size a
  inb_S7x2048x128_S1x256x128_2_768_0 : ∀ a, (![2, 768, 0] : Fin 3 → Nat) a + S1x256x128.size a ≤ S7x2048x128.size a
  inb_S7x2048x128_S1x256x128_3_768_0 : ∀ a, (![3, 768, 0] : Fin 3 → Nat) a + S1x256x128.size a ≤ S7x2048x128.size a
  inb_S7x2048x128_S1x256x128_4_768_0 : ∀ a, (![4, 768, 0] : Fin 3 → Nat) a + S1x256x128.size a ≤ S7x2048x128.size a
  inb_S7x2048x128_S1x256x128_5_768_0 : ∀ a, (![5, 768, 0] : Fin 3 → Nat) a + S1x256x128.size a ≤ S7x2048x128.size a
  inb_S7x2048x128_S1x64x128_6_192_0 : ∀ a, (![6, 192, 0] : Fin 3 → Nat) a + S1x64x128.size a ≤ S7x2048x128.size a
  inb_S7x2048x128_S1x256x128_0_1024_0 : ∀ a, (![0, 1024, 0] : Fin 3 → Nat) a + S1x256x128.size a ≤ S7x2048x128.size a
  inb_S7x2048x128_S1x256x128_1_1024_0 : ∀ a, (![1, 1024, 0] : Fin 3 → Nat) a + S1x256x128.size a ≤ S7x2048x128.size a
  inb_S7x2048x128_S1x256x128_2_1024_0 : ∀ a, (![2, 1024, 0] : Fin 3 → Nat) a + S1x256x128.size a ≤ S7x2048x128.size a
  inb_S7x2048x128_S1x256x128_3_1024_0 : ∀ a, (![3, 1024, 0] : Fin 3 → Nat) a + S1x256x128.size a ≤ S7x2048x128.size a
  inb_S7x2048x128_S1x256x128_4_1024_0 : ∀ a, (![4, 1024, 0] : Fin 3 → Nat) a + S1x256x128.size a ≤ S7x2048x128.size a
  inb_S7x2048x128_S1x256x128_5_1024_0 : ∀ a, (![5, 1024, 0] : Fin 3 → Nat) a + S1x256x128.size a ≤ S7x2048x128.size a
  inb_S7x2048x128_S1x64x128_6_256_0 : ∀ a, (![6, 256, 0] : Fin 3 → Nat) a + S1x64x128.size a ≤ S7x2048x128.size a
  inb_S7x2048x128_S1x256x128_0_1280_0 : ∀ a, (![0, 1280, 0] : Fin 3 → Nat) a + S1x256x128.size a ≤ S7x2048x128.size a
  inb_S7x2048x128_S1x256x128_1_1280_0 : ∀ a, (![1, 1280, 0] : Fin 3 → Nat) a + S1x256x128.size a ≤ S7x2048x128.size a
  inb_S7x2048x128_S1x256x128_2_1280_0 : ∀ a, (![2, 1280, 0] : Fin 3 → Nat) a + S1x256x128.size a ≤ S7x2048x128.size a
  inb_S7x2048x128_S1x256x128_3_1280_0 : ∀ a, (![3, 1280, 0] : Fin 3 → Nat) a + S1x256x128.size a ≤ S7x2048x128.size a
  inb_S7x2048x128_S1x256x128_4_1280_0 : ∀ a, (![4, 1280, 0] : Fin 3 → Nat) a + S1x256x128.size a ≤ S7x2048x128.size a
  inb_S7x2048x128_S1x256x128_5_1280_0 : ∀ a, (![5, 1280, 0] : Fin 3 → Nat) a + S1x256x128.size a ≤ S7x2048x128.size a
  inb_S7x2048x128_S1x64x128_6_320_0 : ∀ a, (![6, 320, 0] : Fin 3 → Nat) a + S1x64x128.size a ≤ S7x2048x128.size a
  inb_S7x2048x128_S1x256x128_0_1536_0 : ∀ a, (![0, 1536, 0] : Fin 3 → Nat) a + S1x256x128.size a ≤ S7x2048x128.size a
  inb_S7x2048x128_S1x256x128_1_1536_0 : ∀ a, (![1, 1536, 0] : Fin 3 → Nat) a + S1x256x128.size a ≤ S7x2048x128.size a
  inb_S7x2048x128_S1x256x128_2_1536_0 : ∀ a, (![2, 1536, 0] : Fin 3 → Nat) a + S1x256x128.size a ≤ S7x2048x128.size a
  inb_S7x2048x128_S1x256x128_3_1536_0 : ∀ a, (![3, 1536, 0] : Fin 3 → Nat) a + S1x256x128.size a ≤ S7x2048x128.size a
  inb_S7x2048x128_S1x256x128_4_1536_0 : ∀ a, (![4, 1536, 0] : Fin 3 → Nat) a + S1x256x128.size a ≤ S7x2048x128.size a
  inb_S7x2048x128_S1x256x128_5_1536_0 : ∀ a, (![5, 1536, 0] : Fin 3 → Nat) a + S1x256x128.size a ≤ S7x2048x128.size a
  inb_S7x2048x128_S1x64x128_6_384_0 : ∀ a, (![6, 384, 0] : Fin 3 → Nat) a + S1x64x128.size a ≤ S7x2048x128.size a
  inb_S7x2048x128_S1x256x128_0_1792_0 : ∀ a, (![0, 1792, 0] : Fin 3 → Nat) a + S1x256x128.size a ≤ S7x2048x128.size a
  inb_S7x2048x128_S1x256x128_1_1792_0 : ∀ a, (![1, 1792, 0] : Fin 3 → Nat) a + S1x256x128.size a ≤ S7x2048x128.size a
  inb_S7x2048x128_S1x256x128_2_1792_0 : ∀ a, (![2, 1792, 0] : Fin 3 → Nat) a + S1x256x128.size a ≤ S7x2048x128.size a
  inb_S7x2048x128_S1x256x128_3_1792_0 : ∀ a, (![3, 1792, 0] : Fin 3 → Nat) a + S1x256x128.size a ≤ S7x2048x128.size a
  inb_S7x2048x128_S1x256x128_4_1792_0 : ∀ a, (![4, 1792, 0] : Fin 3 → Nat) a + S1x256x128.size a ≤ S7x2048x128.size a
  inb_S7x2048x128_S1x256x128_5_1792_0 : ∀ a, (![5, 1792, 0] : Fin 3 → Nat) a + S1x256x128.size a ≤ S7x2048x128.size a
  inb_S7x2048x128_S1x64x128_6_448_0 : ∀ a, (![6, 448, 0] : Fin 3 → Nat) a + S1x64x128.size a ≤ S7x2048x128.size a
  inb_S7x2048x128_S1x2048x128_0_0_0 : ∀ a, (![0, 0, 0] : Fin 3 → Nat) a + S1x2048x128.size a ≤ S7x2048x128.size a
  h_S1x2048x128 : 0 < S1x2048x128.numel
  shapeCasts_S1x2048x128_S2048x128 : S1x2048x128.ShapeCasts S2048x128
  shapeCasts_S2048x128_S256x8x128 : S2048x128.ShapeCasts S256x8x128
  slices_S256x8x128_o0_0_0_S256x8x1 : S256x8x128.Slices ![0, 0, 0] S256x8x1
  shapeCasts_S256x8x1_S256x8 : S256x8x1.ShapeCasts S256x8
  inb_S7x2048x128_S1x2048x128_1_0_0 : ∀ a, (![1, 0, 0] : Fin 3 → Nat) a + S1x2048x128.size a ≤ S7x2048x128.size a
  inb_S7x2048x128_S1x2048x128_2_0_0 : ∀ a, (![2, 0, 0] : Fin 3 → Nat) a + S1x2048x128.size a ≤ S7x2048x128.size a
  inb_S7x2048x128_S1x2048x128_3_0_0 : ∀ a, (![3, 0, 0] : Fin 3 → Nat) a + S1x2048x128.size a ≤ S7x2048x128.size a
  inb_S7x2048x128_S1x2048x128_4_0_0 : ∀ a, (![4, 0, 0] : Fin 3 → Nat) a + S1x2048x128.size a ≤ S7x2048x128.size a
  inb_S7x2048x128_S1x2048x128_5_0_0 : ∀ a, (![5, 0, 0] : Fin 3 → Nat) a + S1x2048x128.size a ≤ S7x2048x128.size a
  inb_S7x2048x128_S1x512x128_6_0_0 : ∀ a, (![6, 0, 0] : Fin 3 → Nat) a + S1x512x128.size a ≤ S7x2048x128.size a
  h_S1x512x128 : 0 < S1x512x128.numel
  shapeCasts_S1x512x128_S512x128 : S1x512x128.ShapeCasts S512x128
  shapeCasts_S512x128_S256x2x128 : S512x128.ShapeCasts S256x2x128
  slices_S256x2x128_o0_0_0_S256x2x1 : S256x2x128.Slices ![0, 0, 0] S256x2x1
  shapeCasts_S256x2x1_S256x2 : S256x2x1.ShapeCasts S256x2
  inb_S256x50_S256x50_0_0 : ∀ a, (![0, 0] : Fin 2 → Nat) a + S256x50.size a ≤ S256x50.size a
  h_S256x50 : 0 < S256x50.numel
  concatenates_S256x8_S256x8_S256x8_S256x8_S256x8_S256x8_S256x2_S256x50_d1 : Shape.Concatenates [S256x8, S256x8, S256x8, S256x8, S256x8, S256x8, S256x2] S256x50 1
  dot_S256x64_S64x128_S256x128_1_0_0_1_n_n_wf : DotDims.WF S256x64 S64x128 S256x128 [1] [0] [0] [1] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x50x64.size a ≤ S4096x2x50x64.size a
  hwx0_0 : ∀ i : grid0.Coords, EltTy.bits .f32 = 32 ∨ (Rect.block (s := S4096x2x50x64) S32x2x50x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2x50x64.size a ≤ S4096x2x50x64.size a
  hwx0_1 : ∀ i : grid0.Coords, EltTy.bits .f32 = 32 ∨ (Rect.block (s := S4096x2x50x64) S32x2x50x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2x50x64.size a ≤ S4096x2x50x64.size a
  hwx0_2 : ∀ i : grid0.Coords, EltTy.bits .f32 = 32 ∨ (Rect.block (s := S4096x2x50x64) S32x2x50x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x2x50x64.size a ≤ S4096x2x50x64.size a
  hwx0_3 : ∀ i : grid0.Coords, EltTy.bits .f32 = 32 ∨ (Rect.block (s := S4096x2x50x64) S32x2x50x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x2x50x64.size a ≤ S4096x2x50x64.size a
  hwx0_4 : ∀ i : grid0.Coords, EltTy.bits .f32 = 32 ∨ (Rect.block (s := S4096x2x50x64) S32x2x50x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x2x50x64.size a ≤ S4096x2x50x64.size a
  hwx0_5 : ∀ i : grid0.Coords, EltTy.bits .f32 = 32 ∨ (Rect.block (s := S4096x2x50x64) S32x2x50x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x2x50x64.size a ≤ S4096x2x50x64.size a
  hwx0_6 : ∀ i : grid0.Coords, EltTy.bits .f32 = 32 ∨ (Rect.block (s := S4096x2x50x64) S32x2x50x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x2x50x64.size a ≤ S4096x2x50x64.size a
  hwx0_7 : ∀ i : grid0.Coords, EltTy.bits .f32 = 32 ∨ (Rect.block (s := S4096x2x50x64) S32x2x50x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x50.size a ≤ S1024x50.size a
  hwx0_8 : ∀ i : grid0.Coords, EltTy.bits .f32 = 32 ∨ (Rect.block (s := S1024x50) S256x50.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x50.size a ≤ S1024x50.size a
  hwx0_9 : ∀ i : grid0.Coords, EltTy.bits .f32 = 32 ∨ (Rect.block (s := S1024x50) S256x50.size (cc0_transform_9 i) (hinb0_9 i)).WholeWords (EltTy.packing .f32)

variable [Facts₀]

def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg0) S32x2x50x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x2x50x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S32x2x50x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S32x2x50x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S32x2x50x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S32x2x50x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S32x2x50x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S32x2x50x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S256x50.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S256x50.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond113 i == 1#1) | ⟨_ + 10, h⟩ => absurd h (Nat.not_lt.2 (Nat.le_add_left _ _))

class Facts : Prop extends Facts₀ where

variable [Facts]
-- ==== ReferenceIdeal.lean ====
abbrev S4096x2x50x64 : Shape := ⟨4, ![4096, 2, 50, 64]⟩
abbrev S1024x50 : Shape := ⟨2, ![1024, 50]⟩
abbrev S4096x1x50x64 : Shape := ⟨4, ![4096, 1, 50, 64]⟩
abbrev S4096x50x64 : Shape := ⟨3, ![4096, 50, 64]⟩
abbrev S_ : Shape := ⟨0, ![]⟩
abbrev S4096x50 : Shape := ⟨2, ![4096, 50]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x2x50x64, .f32⟩
  | .hbm, ⟨1, _⟩ => ⟨S1024x50, .f32⟩
  | .hbm, ⟨2, _⟩ => ⟨S4096x1x50x64, .f32⟩
  | .hbm, ⟨3, _⟩ => ⟨S4096x50x64, .f32⟩
  | .hbm, ⟨4, _⟩ => ⟨S4096x50x64, .f32⟩
  | .hbm, ⟨5, _⟩ => ⟨S_, .f32⟩
  | .hbm, ⟨6, _⟩ => ⟨S4096x50, .f32⟩
  | .hbm, ⟨7, _⟩ => ⟨S_, .f32⟩
  | .hbm, ⟨8, _⟩ => ⟨S4096x50, .f32⟩
  | .hbm, ⟨9, _⟩ => ⟨S4096x50, .i1⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S_, .i1⟩
  | .hbm, ⟨27, _⟩ => ⟨S4096, .i1⟩
  | .hbm, ⟨28, _⟩ => ⟨S4096, .i1⟩
  | .hbm, ⟨29, _⟩ => ⟨S4096, .i1⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x50, .f32⟩
  | .hbm, ⟨34, _⟩ => ⟨S_, .f32⟩
  | .hbm, ⟨35, _⟩ => ⟨S1024x50, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S1024x50, .f32⟩
  | .hbm, ⟨45, _⟩ => ⟨S1024x50, .f32⟩
  | _, _ => ⟨S4096x2x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩

abbrev nD : Nat := 1
abbrev τ : Topo := Topo.v7x

variable {F : FTy → Type} [FloatOps F]

class Facts₀ : Prop where
  slices_S4096x2x50x64_S4096x1x50x64_0_0_0_0 : S4096x2x50x64.Slices ![0, 0, 0, 0] S4096x1x50x64
  shapeCasts_S4096x1x50x64_S4096x50x64 : S4096x1x50x64.ShapeCasts S4096x50x64
  reducesTo_S4096x50x64_S4096x50_d2 : S4096x50x64.ReducesTo [2] S4096x50
  h_S_ : 0 < S_.numel
  bcast_S_S4096x50 : S_.BroadcastsInDim S4096x50 (![] : Fin 0 → Fin S4096x50.rank)
  bcast_S_S4096 : S_.BroadcastsInDim S4096 (![] : Fin 0 → Fin S4096.rank)
  bcast_S_S1024x50 : S_.BroadcastsInDim S1024x50 (![] : Fin 0 → Fin S1024x50.rank)
  bcast_S4096_S4096x1_0 : S4096.BroadcastsInDim S4096x1 (![0] : Fin 1 → Fin S4096x1.rank)
  scatter_S1024x50_S4096x1_S4096x50_1_0_0_1_wf : ScatterDims.WF S1024x50 S4096x1 S4096x50 [1] [0] [0] 1

variable [Facts₀]

def scatter_S1024x50_S4096x1_S4096x50_1_0_0_1 : ScatterDims S1024x50 S4096x1 S4096x50 where
  updateWindowDims := [1]
  insertedWindowDims := [0]
  scatterDimsToOperandDims := [0]
  indexVectorDim := 1
  wf := scatter_S1024x50_S4096x1_S4096x50_1_0_0_1_wf

class Facts : Prop extends Facts₀ where

variable [Facts]
-- ==== Proof.KBBase.lean ====
/-
  The grid of this kernel is 4 × 4: point t = 4 r + q visits output row block r for the q-th time (q = 0, 1, 2, 3).
  The body branches only on q: at q = 0 every tile of the accumulator is overwritten, at q > 0 every tile is added
  to, and at q = 3 the output block is stored. This module names the three conditions as the body computes them,
  decides each over the grid in closed form, and records where the output window is idle and where it is written back.
-/
import proofs.«168630_g34205119545578_cont_sun_m_983_19_alg».proof.Proof.Gen.Kernel.Launch
import proofs.«168630_g34205119545578_cont_sun_m_983_19_alg».proof.Proof.Gen.Kernel.Skeleton
import proofs.«168630_g34205119545578_cont_sun_m_983_19_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test "q = 0", as its scalar chain over the second grid coordinate. -/
abbrev isFirst (i : grid0.Coords) : Prop :=
  Scalar.cmpi .ne (Scalar.extui (Scalar.cmpi .eq (BitVec.ofNat 32 (i 1).val) 0#32)) 0#32 = 1#1
/-- The body's test "q > 0". -/
abbrev isLater (i : grid0.Coords) : Prop :=
  Scalar.cmpi .ne (Scalar.extui (Scalar.cmpi .sgt (BitVec.ofNat 32 (i 1).val) 0#32)) 0#32 = 1#1
/-- The body's test "q = 3". -/
abbrev isLast (i : grid0.Coords) : Prop := k0_cond113 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLater_iff : ∀ t : Fin cfg0.N, isLater (grid0.coords t) ↔ t.val % 4 ≠ 0 :=
  (by decide +kernel : ∀ t : Fin grid0.N, isLater (grid0.coords t) ↔ t.val % 4 ≠ 0)
theorem isLast_iff : ∀ t : Fin cfg0.N, isLast (grid0.coords t) ↔ t.val % 4 = 3 :=
  (by decide +kernel : ∀ t : Fin grid0.N, isLast (grid0.coords t) ↔ t.val % 4 = 3)

/-- The inputs are never idle. -/
theorem live_in : ∀ (w : Fin 9) (t : Fin cfg0.N), cfg0.idle (w.castSucc) (grid0.coords t) = false := by decide +kernel
/-- The output window is idle exactly off the last visit, -/
theorem idle_out_iff : ∀ t : Fin cfg0.N, cfg0.idle 9 (grid0.coords t) = true ↔ t.val % 4 ≠ 3 := by decide +kernel
/-- and is written back exactly at the last visit (`flush0_9`). -/
theorem flush_out_iff : ∀ t : Fin cfg0.N, (cfg0.win 9).flush t = true ↔ t.val % 4 = 3 := flush0_9

/-- The scratch accumulator as the body receives it. -/
abbrev accM : Memref sig .tc .vmem S7x2048x128 .f32 := Memref.whole cc0_scratch0
abbrev accV : View sig .tc .vmem S7x2048x128 .f32 := (accM).view
/-- One staging buffer of the output window, through which its contents are stated. -/
abbrev outV : View sig .tc .vmem S256x50 .f32 := (Memref.whole cc0_stg9_0 : Memref sig .tc .vmem S256x50 .f32).view

end Cert.Kernel.Hand

end
-- ==== Proof.KBRunFirst.lean ====
/-
  The whole body at a FIRST visit (q = 0): every tile of the accumulator is overwritten with that tile's zero-row
  indicator, nothing is added, the output block is not touched. The stores the body makes into the accumulator are
  found by running it; what is proved is that from the input blocks at any contents, the seen block, the output
  buffer and the accumulator at any contents, the body ends with the inputs as they were, the output buffer as it
  was, and the accumulator overwritten by those stores.
-/
import proofs.«168630_g34205119545578_cont_sun_m_983_19_alg».proof.Proof.KBBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : isFirst i) (hq1 : ¬isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    { LA : List (View.Piece (Elt F) S7x2048x128 .f32) //
      ∀ (xo : Vec F S256x50 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) aS fullShare xs ∗ owns (c : Thread nD τ) aO fullShare xo ∗ owns (c : Thread nD τ) aA fullShare acc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ owns (c : Thread nD τ) aS fullShare xs ∗ owns (c : Thread nD τ) aO fullShare xo
                ∗ (∃ f, aA.view.loc (c : Thread nD τ) ↦[aA.view.set]{fullShare} aA.view.writes (Elt F) f LA)) -∗ K ⟨⟩))
          ⊢ wp frame (wpE (defs₀ (F := F)) Variants.none c none) E (cc0__probe_body i a0 h0 a1 h1 a2 h2 a3 h3 a4 h4 a5 h5 a6 h6 a7 h7 aS hS aO hO aA hA) K } := by
  refine ⟨?_, fun xo E K => ?run⟩
  case run =>
    simp only [cc0__probe_body_eq_skeleton]; unfold cc0__probe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fS, %hfS, HS⟩, ⟨%fO, %hfO, HO⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    obtain rfl := hS.eq_unread hfS; obtain rfl := hO.eq_unread hfO; obtain rfl := hA.eq_unread hfA
    sl_exec (disch := first | exact hq0 | exact hq1 | exact hq3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [HS]
    · iexists _; isplitr; · ipureintro; exact hS.read_unread _
      iexact HS
    isplitl [HO]
    · iexists _; isplitr; · ipureintro; exact hO.read_unread _
      iexact HO
    iexists _; iexact HA

end Cert.Kernel.Hand

end
-- ==== Proof.KBRunMid.lean ====
/-
  The whole body at a MIDDLE visit (q = 1 or 2): every tile of the accumulator is read and has that tile's zero-row
  indicator added to it; nothing is overwritten afresh and the output block is not touched. From the input blocks,
  the seen block and the output buffer at any contents and the accumulator at `acc`, the body ends with the inputs
  and the output buffer as they were and the accumulator overwritten by the stores the run finds (each the sum of
  what was loaded from `acc` and the tile's indicator).
-/
import proofs.«168630_g34205119545578_cont_sun_m_983_19_alg».proof.Proof.KBRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMid (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    { LA : List (View.Piece (Elt F) S7x2048x128 .f32) //
      ∀ (xo : Vec F S256x50 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) aS fullShare xs ∗ owns (c : Thread nD τ) aO fullShare xo ∗ owns (c : Thread nD τ) aA fullShare acc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ owns (c : Thread nD τ) aS fullShare xs ∗ owns (c : Thread nD τ) aO fullShare xo
                ∗ (∃ f, aA.view.loc (c : Thread nD τ) ↦[aA.view.set]{fullShare} aA.view.writes (Elt F) f LA)) -∗ K ⟨⟩))
          ⊢ wp frame (wpE (defs₀ (F := F)) Variants.none c none) E (cc0__probe_body i a0 h0 a1 h1 a2 h2 a3 h3 a4 h4 a5 h5 a6 h6 a7 h7 aS hS aO hO aA hA) K } := by
  refine ⟨?_, fun xo E K => ?run⟩
  case run =>
    simp only [cc0__probe_body_eq_skeleton]; unfold cc0__probe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fS, %hfS, HS⟩, ⟨%fO, %hfO, HO⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    obtain rfl := hS.eq_unread hfS; obtain rfl := hO.eq_unread hfO; obtain rfl := hA.eq_unread hfA
    sl_exec (disch := first | exact hq0 | exact hq1 | exact hq3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [HS]
    · iexists _; isplitr; · ipureintro; exact hS.read_unread _
      iexact HS
    isplitl [HO]
    · iexists _; isplitr; · ipureintro; exact hO.read_unread _
      iexact HO
    iexists _; iexact HA

end Cert.Kernel.Hand

end
-- ==== Proof.KBRunLast.lean ====
/-
  The whole body at the LAST visit (q = 3): every tile of the accumulator has that tile's indicator added, and then the
  output block is stored whole: the seen block plus, column by column, lane 0 of the accumulator's rows. From the
  inputs and the seen block at any contents, the output buffer at any contents and the accumulator at `acc`, the
  body ends with the inputs as they were, the accumulator overwritten by the stores the run finds, and the output
  buffer overwritten by the one store the run finds.
-/
import proofs.«168630_g34205119545578_cont_sun_m_983_19_alg».proof.Proof.KBRunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    Σ' (LO : List (View.Piece (Elt F) S256x50 .f32)), { LA : List (View.Piece (Elt F) S7x2048x128 .f32) //
      ∀ (xo : Vec F S256x50 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) aS fullShare xs ∗ owns (c : Thread nD τ) aO fullShare xo ∗ owns (c : Thread nD τ) aA fullShare acc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ owns (c : Thread nD τ) aS fullShare xs
                ∗ (∃ f, aO.view.loc (c : Thread nD τ) ↦[aO.view.set]{fullShare} aO.view.writes (Elt F) f LO)
                ∗ (∃ f, aA.view.loc (c : Thread nD τ) ↦[aA.view.set]{fullShare} aA.view.writes (Elt F) f LA)) -∗ K ⟨⟩))
          ⊢ wp frame (wpE (defs₀ (F := F)) Variants.none c none) E (cc0__probe_body i a0 h0 a1 h1 a2 h2 a3 h3 a4 h4 a5 h5 a6 h6 a7 h7 aS hS aO hO aA hA) K } := by
  refine ⟨?_, ?_, fun xo E K => ?run⟩
  case run =>
    simp only [cc0__probe_body_eq_skeleton]; unfold cc0__probe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fS, %hfS, HS⟩, ⟨%fO, %hfO, HO⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    obtain rfl := hS.eq_unread hfS; obtain rfl := hO.eq_unread hfO; obtain rfl := hA.eq_unread hfA
    sl_exec (disch := first | exact hq0 | exact hq1 | exact hq3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [HS]
    · iexists _; isplitr; · ipureintro; exact hS.read_unread _
      iexact HS
    isplitl [HO]
    · iexists _; iexact HO
    iexists _; iexact HA

end Cert.Kernel.Hand

end
-- ==== Proof.KBCanon.lean ====
/-
  The vocabulary the accumulator's contents are stated in.

  The accumulator is an array [7, 2048, 128]. Tile (j, t), for input stream j = 0..7 and row group t = 0..5, is the
  box [t, 256 j .. 256 j + 255, 0..127]: its row 8 c + r, every lane, belongs to row c of stream j's block and to
  column h = 8 t + r. The last row group (columns 48, 49) has two rows per block row: tile (j, 6) is the box
  [6, 64 j .. 64 j + 63, 0..127], row 2 c + r. Slab 6's rows 512..2047 are never touched. At a first visit every
  tile is overwritten with its indicator tile (1 where the row's absolute sum is zero); at a later visit every tile
  is replaced by itself plus its indicator tile. `rzAll` is the indicator of all tiles as ONE function of the
  accumulator's index, so that every store of a visit is a block of one function of the index.
-/
import proofs.«168630_g34205119545578_cont_sun_m_983_19_alg».proof.Proof.KBBase
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The rows of channel 0 of an input block that row group `t` reads: columns 8 t .. 8 t + 7. -/
abbrev inRect8 (t : Fin 6) : Rect S32x2x50x64 :=
  Rect.unit ![0, 0, 8 * t.val, 0] S32x1x8x64.size (by intro a; have := t.isLt; fin_cases a <;> simp [Shape.size] <;> omega)
/-- The last row group reads columns 48, 49. -/
abbrev inRect2 : Rect S32x2x50x64 := Rect.unit ![0, 0, 48, 0] S32x1x2x64.size inb_S32x2x50x64_S32x1x2x64_0_0_48_0

/-- Those rows of a block. -/
abbrev in8 (xj : Vec F S32x2x50x64 .f32) (t : Fin 6) : Vec F S32x1x8x64 .f32 := View.ld xj (inRect8 t)
abbrev in2 (xj : Vec F S32x2x50x64 .f32) : Vec F S32x1x2x64 .f32 := View.ld xj inRect2

/-- Tile (j, t) of the accumulator, t < 6. -/
abbrev accRect8 (j : Fin 8) (t : Fin 6) : Rect S7x2048x128 :=
  Rect.unit ![t.val, 256 * j.val, 0] S1x256x128.size (by intro a; have := t.isLt; have := j.isLt; fin_cases a <;> simp [Shape.size] <;> omega)
/-- Tile (j, 6). -/
abbrev accRect2 (j : Fin 8) : Rect S7x2048x128 :=
  Rect.unit ![6, 64 * j.val, 0] S1x64x128.size (by intro a; have := j.isLt; fin_cases a <;> simp [Shape.size] <;> omega)

/-- The stores of a first visit into stream j's tiles, last first. -/
def colFirst (xj : Vec F S32x2x50x64 .f32) (j : Fin 8) : List (View.Piece (Elt F) S7x2048x128 .f32) :=
  [⟨accRect2 j, k0_pay49 (k0_pay6 (F := F)) (in2 xj)⟩, ⟨accRect8 j 5, k0_pay8 (in8 xj 5)⟩, ⟨accRect8 j 4, k0_pay8 (in8 xj 4)⟩, ⟨accRect8 j 3, k0_pay8 (in8 xj 3)⟩, ⟨accRect8 j 2, k0_pay8 (in8 xj 2)⟩, ⟨accRect8 j 1, k0_pay8 (in8 xj 1)⟩, ⟨accRect8 j 0, k0_pay8 (in8 xj 0)⟩]

/-- The stores of a later visit into stream j's tiles over the accumulator `A`, last first. -/
def colUpd (A : Vec F S7x2048x128 .f32) (xj : Vec F S32x2x50x64 .f32) (j : Fin 8) : List (View.Piece (Elt F) S7x2048x128 .f32) :=
  [⟨accRect2 j, k0_pay50 (k0_pay6 (F := F)) (in2 xj) (View.ld A (accRect2 j))⟩, ⟨accRect8 j 5, k0_pay9 (in8 xj 5) (View.ld A (accRect8 j 5))⟩, ⟨accRect8 j 4, k0_pay9 (in8 xj 4) (View.ld A (accRect8 j 4))⟩, ⟨accRect8 j 3, k0_pay9 (in8 xj 3) (View.ld A (accRect8 j 3))⟩, ⟨accRect8 j 2, k0_pay9 (in8 xj 2) (View.ld A (accRect8 j 2))⟩, ⟨accRect8 j 1, k0_pay9 (in8 xj 1) (View.ld A (accRect8 j 1))⟩, ⟨accRect8 j 0, k0_pay9 (in8 xj 0) (View.ld A (accRect8 j 0))⟩]

/-- All stores of a first visit, last first. -/
def firstList (X : Fin 8 → Vec F S32x2x50x64 .f32) : List (View.Piece (Elt F) S7x2048x128 .f32) :=
  colFirst (X 7) 7 ++ colFirst (X 6) 6 ++ colFirst (X 5) 5 ++ colFirst (X 4) 4 ++ colFirst (X 3) 3 ++ colFirst (X 2) 2 ++ colFirst (X 1) 1 ++ colFirst (X 0) 0

/-- All stores of a later visit over `A`, last first. -/
def updList (A : Vec F S7x2048x128 .f32) (X : Fin 8 → Vec F S32x2x50x64 .f32) : List (View.Piece (Elt F) S7x2048x128 .f32) :=
  colUpd A (X 7) 7 ++ colUpd A (X 6) 6 ++ colUpd A (X 5) 5 ++ colUpd A (X 4) 4 ++ colUpd A (X 3) 3 ++ colUpd A (X 2) 2 ++ colUpd A (X 1) 1 ++ colUpd A (X 0) 0

/-- The part of the accumulator the body ever touches: slabs 0..5 whole, rows 0..511 of slab 6. -/
def Cov (y : S7x2048x128.Idx) : Prop := (y 0).val < 6 ∨ (y 1).val < 512

/-- Two accumulators agree on that part. -/
def AgreeCov (A B : Vec F S7x2048x128 .f32) : Prop := ∀ y, Cov y → A y = B y

/-- The indicator of all tiles as one function of the accumulator's index (t, R, l): for t < 6 the indicator tile of
    stream R / 256, row group t, at row R % 256, lane l; for slab 6, of stream R / 64 (modulo 8 off the covered part,
    where the value is not used), at row R % 64. -/
def rzAll (X : Fin 8 → Vec F S32x2x50x64 .f32) (y : S7x2048x128.Idx) : F .f32 :=
  if h : (y 0).val < 6 then
    k0_pay7 (in8 (X ⟨(y 1).val / 256, by have := (y 1).isLt; simp [Shape.size] at this; omega⟩) ⟨(y 0).val, h⟩)
      (Idealize.ShloMosaic.ValueIdx.ix2 (⟨(y 1).val % 256, by omega⟩ : Fin 256) (⟨(y 2).val, (y 2).isLt⟩ : Fin 128))
  else
    k0_pay48 (k0_pay6 (F := F)) (in2 (X ⟨(y 1).val / 64 % 8, by omega⟩))
      (Idealize.ShloMosaic.ValueIdx.ix2 (⟨(y 1).val % 64, by omega⟩ : Fin 64) (⟨(y 2).val, (y 2).isLt⟩ : Fin 128))

/-- What a later visit leaves at an index: what was there plus the indicator. -/
def updAll (A : Vec F S7x2048x128 .f32) (X : Fin 8 → Vec F S32x2x50x64 .f32) (y : S7x2048x128.Idx) : F .f32 :=
  FloatOps.addf (A y) (rzAll X y)

/-- The seven boxes the last visit reads the accumulator through: slabs 0..5 whole and rows 0..511 of slab 6. -/
abbrev slabRect (s : Fin 6) : Rect S7x2048x128 :=
  Rect.unit ![s.val, 0, 0] S1x2048x128.size (by intro a; have := s.isLt; fin_cases a <;> simp [Shape.size] <;> omega)
abbrev slabRect6 : Rect S7x2048x128 := Rect.unit ![6, 0, 0] S1x512x128.size inb_S7x2048x128_S1x512x128_6_0_0

/-- The output block of a last visit from the seen block and the accumulator as the visit leaves it. -/
def emitOf (xs : Vec F S256x50 .f32) (A : Vec F S7x2048x128 .f32) : Vec F S256x50 .f32 :=
  k0_pay4 xs (k0_pay5 (View.ld A (slabRect 0)) (View.ld A (slabRect 1)) (View.ld A (slabRect 2)) (View.ld A (slabRect 3))
    (View.ld A (slabRect 4)) (View.ld A (slabRect 5)) (View.ld A slabRect6))

end Cert.Kernel.Hand

end
-- ==== Proof.KBWitness.lean ====
/-
  The stores each whole-body run finds ARE the canonical lists: a first visit's stores into the accumulator are
  `firstList` of the eight input blocks, a later visit's `updList` of the accumulator it started from and the blocks,
  and the last visit's stores into the accumulator likewise. Each by opening the run's names and unfolding definitions.
-/
import proofs.«168630_g34205119545578_cont_sun_m_983_19_alg».proof.Proof.KBRunLast
import proofs.«168630_g34205119545578_cont_sun_m_983_19_alg».proof.Proof.KBCanon
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The eight input blocks as one family. -/
abbrev X8 (x0 x1 x2 x3 x4 x5 x6 x7 : Vec F S32x2x50x64 .f32) : Fin 8 → Vec F S32x2x50x64 .f32 := ![x0, x1, x2, x3, x4, x5, x6, x7]

set_option maxHeartbeats 2000000 in
theorem first_eq (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : isFirst i) (hq1 : ¬isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runFirst c i a0 h0 a1 h1 a2 h2 a3 h3 a4 h4 a5 h5 a6 h6 a7 h7 aS hS aO hO aA hA hq0 hq1 hq3 x0 x1 x2 x3 x4 x5 x6 x7 xs acc).1 = firstList (X8 x0 x1 x2 x3 x4 x5 x6 x7) := by
  unfold runFirst
  dsimp only
  sl_unfold_words
  simp only [View.readAt_eq_ld, h0.read_unread, h1.read_unread, h2.read_unread, h3.read_unread, h4.read_unread, h5.read_unread, h6.read_unread, h7.read_unread]
  rfl

set_option maxHeartbeats 2000000 in
theorem mid_eq (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runMid c i a0 h0 a1 h1 a2 h2 a3 h3 a4 h4 a5 h5 a6 h6 a7 h7 aS hS aO hO aA hA hq0 hq1 hq3 x0 x1 x2 x3 x4 x5 x6 x7 xs acc).1 = updList acc (X8 x0 x1 x2 x3 x4 x5 x6 x7) := by
  unfold runMid
  dsimp only
  sl_unfold_words
  simp only [View.readAt_eq_ld, h0.read_unread, h1.read_unread, h2.read_unread, h3.read_unread, h4.read_unread, h5.read_unread, h6.read_unread, h7.read_unread, hA.read_unread]
  rfl

set_option maxHeartbeats 2000000 in
theorem last_eqA (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runLast c i a0 h0 a1 h1 a2 h2 a3 h3 a4 h4 a5 h5 a6 h6 a7 h7 aS hS aO hO aA hA hq0 hq1 hq3 x0 x1 x2 x3 x4 x5 x6 x7 xs acc).2.1 = updList acc (X8 x0 x1 x2 x3 x4 x5 x6 x7) := by
  unfold runLast
  dsimp only
  sl_unfold_words
  simp only [View.readAt_eq_ld, h0.read_unread, h1.read_unread, h2.read_unread, h3.read_unread, h4.read_unread, h5.read_unread, h6.read_unread, h7.read_unread, hA.read_unread]
  rfl

theorem zero2 : (![0, 0] : Fin 2 → Nat) = fun _ => 0 := by funext a; fin_cases a <;> rfl

end Cert.Kernel.Hand

end
-- ==== Proof.KBState.lean ====
/-
  What the accumulator holds after each grid point, and the region's invariant.

  At point t the eight input streams' blocks are `XB t` and the seen block `SB t`. After a first visit (t ≡ 0 mod 4)
  the accumulator is, on the part the kernel uses, the indicator of all tiles of that point's blocks; after any other
  point it is what the point before left plus that point's indicator. Between points the invariant holds the
  accumulator at SOME contents that agree with this on the used part (slab 6's rows 512.. are never written, so
  their contents are never named).
-/
import proofs.«168630_g34205119545578_cont_sun_m_983_19_alg».proof.Proof.KBWitness
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers as the region finds them: @main has no operation before the region. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The eight input streams' blocks at point `t`. -/
abbrev XB (c : Dev nD) (t : Fin cfg0.N) : Fin 8 → Vec F S32x2x50x64 .f32 :=
  X8 (iblk m c 0 t) (iblk m c 1 t) (iblk m c 2 t) (iblk m c 3 t) (iblk m c 4 t) (iblk m c 5 t) (iblk m c 6 t) (iblk m c 7 t)
/-- The seen block at point `t`. -/
abbrev SB (c : Dev nD) (t : Fin cfg0.N) : Vec F S256x50 .f32 := iblk m c 8 t

/-- The accumulator after point `n`, on the part the kernel uses. -/
def accAt (c : Dev nD) : (n : ℕ) → n < cfg0.N → Vec F S7x2048x128 .f32
  | 0, h => rzAll (XB m c ⟨0, h⟩)
  | n + 1, h =>
    if (n + 1) % 4 = 0 then rzAll (XB m c ⟨n + 1, h⟩)
    else updAll (accAt c n (Nat.lt_of_succ_lt h)) (XB m c ⟨n + 1, h⟩)

theorem accAt_first (c : Dev nD) (t : Fin cfg0.N) (h0 : t.val % 4 = 0) : accAt m c t.val t.isLt = rzAll (XB m c t) := by
  obtain ⟨n, hn⟩ := t
  cases n with
  | zero => rfl
  | succ n => exact if_pos h0

theorem accAt_later (c : Dev nD) (t : Fin cfg0.N) (h0 : ¬t.val % 4 = 0) :
    accAt m c t.val t.isLt = updAll (accAt m c (t.val - 1) (Nat.lt_of_le_of_lt (Nat.sub_le _ _) t.isLt)) (XB m c t) := by
  obtain ⟨n, hn⟩ := t
  cases n with
  | zero => exact absurd (Nat.zero_mod _) h0
  | succ n => exact if_neg h0

/-- The invariant before point `n`: before the first point the scratch at anything; afterwards the scratch at contents
    agreeing, on the used part, with what the point before left; the generator register at some state throughout. -/
def PhiS (c : Dev nD) : (n : ℕ) → n ≤ cfg0.N → sProp 𝕄
  | 0, _ => Pipeline.ΦA spec0 c
  | n + 1, hn => iprop(iprop(∃ a, owns (c : Thread nD τ) accM fullShare a ∗ ⌜AgreeCov a (accAt m c n hn)⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ a, owns (c : Thread nD τ) accM fullShare a ∗ ⌜AgreeCov a (accAt m c n hn)⌝) ∗ (∃ r, prngReg c r)) := rfl

theorem PhiS_pos (c : Dev nD) (n : ℕ) (h : n ≤ cfg0.N) (hz : n ≠ 0) :
    PhiS m c n h = iprop(iprop(∃ a, owns (c : Thread nD τ) accM fullShare a ∗ ⌜AgreeCov a (accAt m c (n - 1) (by omega))⌝) ∗ (∃ r, prngReg c r)) := by
  cases n with
  | zero => exact absurd rfl hz
  | succ n => rfl

/-- The class invariant with the scratch as a memref owned at some contents. -/
theorem PhiA_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.KBWitnessOut.lean ====
/-
  The last visit's one store into the output buffer is the whole block `emitOf` of the seen block and the
  accumulator as that visit's stores leave it: the seven loads of the accumulator after the stores read the canon
  of those stores. The run's value names are opened; the list of stores is kept under its name and compared once.
-/
import proofs.«168630_g34205119545578_cont_sun_m_983_19_alg».proof.Proof.KBWitness

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem last_eqO (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runLast c i a0 h0 a1 h1 a2 h2 a3 h3 a4 h4 a5 h5 a6 h6 a7 h7 aS hS aO hO aA hA hq0 hq1 hq3 x0 x1 x2 x3 x4 x5 x6 x7 xs acc).1
      = [⟨Rect.unit ![0, 0] S256x50.size inb_S256x50_S256x50_0_0,
          emitOf xs (View.canon (updList acc (X8 x0 x1 x2 x3 x4 x5 x6 x7)))⟩] := by
  rw [← last_eqA c i a0 h0 a1 h1 a2 h2 a3 h3 a4 h4 a5 h5 a6 h6 a7 h7 aS hS aO hO aA hA hq0 hq1 hq3 x0 x1 x2 x3 x4 x5 x6 x7 xs acc]
  generalize hL : (runLast c i a0 h0 a1 h1 a2 h2 a3 h3 a4 h4 a5 h5 a6 h6 a7 h7 aS hS aO hO aA hA hq0 hq1 hq3 x0 x1 x2 x3 x4 x5 x6 x7 xs acc).2.1 = L
  unfold runLast at hL ⊢
  dsimp only at hL ⊢
  unfold runLast.sl.v880 runLast.sl.r_22
  unfold runLast.sl.v848 runLast.sl.v853 runLast.sl.v858 runLast.sl.v863 runLast.sl.v868 runLast.sl.v873 runLast.sl.v878
  unfold runLast.sl.v847 runLast.sl.v852 runLast.sl.v857 runLast.sl.v862 runLast.sl.v867 runLast.sl.v872 runLast.sl.v877
  unfold runLast.sl.v846 runLast.sl.v851 runLast.sl.v856 runLast.sl.v861 runLast.sl.v866 runLast.sl.v871 runLast.sl.v876
  unfold runLast.sl.v845 runLast.sl.v850 runLast.sl.v855 runLast.sl.v860 runLast.sl.v865 runLast.sl.v870 runLast.sl.v875
  unfold runLast.sl.v844_55 runLast.sl.v849 runLast.sl.v854 runLast.sl.v859 runLast.sl.v864 runLast.sl.v869 runLast.sl.v874
  rw [hL]
  simp only [View.readAt_eq_ld, hS.read_unread, View.ld_unit_zero (S := S256x50) zero2]
  repeat rw [View.readCov_eq_canon' aA.view L]
  rfl

end Cert.Kernel.Hand

end
-- ==== Proof.KBPieceFacts.lean ====
/-
  Facts about the stores of one visit into the accumulator [7, 2048, 128].

  Every store of a first visit writes, at each index of its tile, the value of ONE function of the accumulator's
  index (the indicator `rzAll`); every store of a later visit over the accumulator `A` writes the value of
  `updAll A`. The tiles cover slabs 0..5 whole and rows 0..511 of slab 6. Hence the contents the stores leave
  are that one function wherever the kernel reads.
-/
import proofs.«168630_g34205119545578_cont_sun_m_983_19_alg».proof.Proof.KBCanon
import Idealize.ShloMosaic.Lib.Pipeline.Value
import Idealize.ShloMosaic.Lib.ValueLayout
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx

variable {F : FTy → Type} [FloatOps F]

theorem emb8_0 (j : Fin 8) (t : Fin 6) (R : Fin 256) (l : Fin 128) :
    (((accRect8 j t).emb (ix3 (0 : Fin 1) R l)) 0).val = t.val := by
  rw [Rect.emb_apply]; simp
theorem emb8_1 (j : Fin 8) (t : Fin 6) (R : Fin 256) (l : Fin 128) :
    (((accRect8 j t).emb (ix3 (0 : Fin 1) R l)) 1).val = 256 * j.val + R.val := by
  rw [Rect.emb_apply]; simp
theorem emb8_2 (j : Fin 8) (t : Fin 6) (R : Fin 256) (l : Fin 128) :
    (((accRect8 j t).emb (ix3 (0 : Fin 1) R l)) 2).val = l.val := by
  rw [Rect.emb_apply]; simp

theorem emb2_0 (j : Fin 8) (R : Fin 64) (l : Fin 128) :
    (((accRect2 j).emb (ix3 (0 : Fin 1) R l)) 0).val = 6 := by
  rw [Rect.emb_apply]; simp
theorem emb2_1 (j : Fin 8) (R : Fin 64) (l : Fin 128) :
    (((accRect2 j).emb (ix3 (0 : Fin 1) R l)) 1).val = 64 * j.val + R.val := by
  rw [Rect.emb_apply]; simp
theorem emb2_2 (j : Fin 8) (R : Fin 64) (l : Fin 128) :
    (((accRect2 j).emb (ix3 (0 : Fin 1) R l)) 2).val = l.val := by
  rw [Rect.emb_apply]; simp

/-- Tile (j, t) of a first visit is the block of the indicator its box names. -/
theorem tile8_first (X : Fin 8 → Vec F S32x2x50x64 .f32) (j : Fin 8) (t : Fin 6) (R : Fin 256) (l : Fin 128) :
    k0_pay8 (in8 (X j) t) (ix3 (0 : Fin 1) R l) = rzAll X ((accRect8 j t).emb (ix3 (0 : Fin 1) R l)) := by
  have h0 := emb8_0 j t R l
  have h1 := emb8_1 j t R l
  have h2 := emb8_2 j t R l
  unfold rzAll
  rw [dif_pos (by rw [h0]; exact t.isLt)]
  unfold k0_pay8
  rw [shapeCast_ab_1ab_apply]
  congr 3
  · refine Fin.ext ?_; dsimp only; rw [h1]; omega
  · refine Fin.ext ?_; dsimp only; rw [h1]; omega
  · refine Fin.ext ?_; dsimp only; rw [h2]

/-- Tile (j, t) of a later visit over `A` is the block of `updAll A` its box names. -/
theorem tile8_upd (A : Vec F S7x2048x128 .f32) (X : Fin 8 → Vec F S32x2x50x64 .f32) (j : Fin 8) (t : Fin 6) (R : Fin 256) (l : Fin 128) :
    k0_pay9 (in8 (X j) t) (View.ld A (accRect8 j t)) (ix3 (0 : Fin 1) R l) = updAll A X ((accRect8 j t).emb (ix3 (0 : Fin 1) R l)) := by
  unfold updAll
  rw [← tile8_first X j t R l]
  unfold k0_pay9 k0_pay8
  rw [shapeCast_ab_1ab_apply, shapeCast_ab_1ab_apply]
  show FloatOps.addf (shapeCast S256x128 (View.ld A (accRect8 j t)) shapeCasts_S1x256x128_S256x128 (ix2 R l)) _ = _
  rw [shapeCast_1ab_ab_apply]
  rfl

/-- Tile (j, 6) of a first visit. -/
theorem tile2_first (X : Fin 8 → Vec F S32x2x50x64 .f32) (j : Fin 8) (R : Fin 64) (l : Fin 128) :
    k0_pay49 (k0_pay6 (F := F)) (in2 (X j)) (ix3 (0 : Fin 1) R l) = rzAll X ((accRect2 j).emb (ix3 (0 : Fin 1) R l)) := by
  have h0 := emb2_0 j R l
  have h1 := emb2_1 j R l
  have h2 := emb2_2 j R l
  unfold rzAll
  rw [dif_neg (by rw [h0]; omega)]
  unfold k0_pay49
  rw [shapeCast_ab_1ab_apply]
  congr 3
  · refine Fin.ext ?_; dsimp only; rw [h1]; have := j.isLt; omega
  · refine Fin.ext ?_; dsimp only; rw [h1]; omega
  · refine Fin.ext ?_; dsimp only; rw [h2]

/-- Tile (j, 6) of a later visit over `A`. -/
theorem tile2_upd (A : Vec F S7x2048x128 .f32) (X : Fin 8 → Vec F S32x2x50x64 .f32) (j : Fin 8) (R : Fin 64) (l : Fin 128) :
    k0_pay50 (k0_pay6 (F := F)) (in2 (X j)) (View.ld A (accRect2 j)) (ix3 (0 : Fin 1) R l) = updAll A X ((accRect2 j).emb (ix3 (0 : Fin 1) R l)) := by
  unfold updAll
  rw [← tile2_first X j R l]
  unfold k0_pay50 k0_pay49
  rw [shapeCast_ab_1ab_apply, shapeCast_ab_1ab_apply]
  show FloatOps.addf (shapeCast S64x128 (View.ld A (accRect2 j)) shapeCasts_S1x64x128_S64x128 (ix2 R l)) _ = _
  rw [shapeCast_1ab_ab_apply]
  rfl

/-- The tile lemmas at every index of the box. -/
theorem piece8_first (X : Fin 8 → Vec F S32x2x50x64 .f32) (j : Fin 8) (t : Fin 6) (x : (accRect8 j t).shape.Idx) :
    k0_pay8 (in8 (X j) t) x = rzAll X ((accRect8 j t).emb x) := by
  obtain ⟨z, R, l, rfl⟩ : ∃ (z : Fin 1) (R : Fin 256) (l : Fin 128), x = ix3 z R l := ⟨x 0, x 1, x 2, eq_ix3 x⟩
  obtain rfl : z = 0 := Subsingleton.elim _ _
  exact tile8_first X j t R l
theorem piece8_upd (A : Vec F S7x2048x128 .f32) (X : Fin 8 → Vec F S32x2x50x64 .f32) (j : Fin 8) (t : Fin 6) (x : (accRect8 j t).shape.Idx) :
    k0_pay9 (in8 (X j) t) (View.ld A (accRect8 j t)) x = updAll A X ((accRect8 j t).emb x) := by
  obtain ⟨z, R, l, rfl⟩ : ∃ (z : Fin 1) (R : Fin 256) (l : Fin 128), x = ix3 z R l := ⟨x 0, x 1, x 2, eq_ix3 x⟩
  obtain rfl : z = 0 := Subsingleton.elim _ _
  exact tile8_upd A X j t R l
theorem piece2_first (X : Fin 8 → Vec F S32x2x50x64 .f32) (j : Fin 8) (x : (accRect2 j).shape.Idx) :
    k0_pay49 (k0_pay6 (F := F)) (in2 (X j)) x = rzAll X ((accRect2 j).emb x) := by
  obtain ⟨z, R, l, rfl⟩ : ∃ (z : Fin 1) (R : Fin 64) (l : Fin 128), x = ix3 z R l := ⟨x 0, x 1, x 2, eq_ix3 x⟩
  obtain rfl : z = 0 := Subsingleton.elim _ _
  exact tile2_first X j R l
theorem piece2_upd (A : Vec F S7x2048x128 .f32) (X : Fin 8 → Vec F S32x2x50x64 .f32) (j : Fin 8) (x : (accRect2 j).shape.Idx) :
    k0_pay50 (k0_pay6 (F := F)) (in2 (X j)) (View.ld A (accRect2 j)) x = updAll A X ((accRect2 j).emb x) := by
  obtain ⟨z, R, l, rfl⟩ : ∃ (z : Fin 1) (R : Fin 64) (l : Fin 128), x = ix3 z R l := ⟨x 0, x 1, x 2, eq_ix3 x⟩
  obtain rfl : z = 0 := Subsingleton.elim _ _
  exact tile2_upd A X j R l

/-- Every store of stream j's column is a block of the one function. -/
theorem col_first (X : Fin 8 → Vec F S32x2x50x64 .f32) (j : Fin 8) :
    ∀ p ∈ colFirst (X j) j, ∀ x : p.1.shape.Idx, p.2 x = rzAll X (p.1.emb x) := by
  intro p hp
  simp only [colFirst, List.mem_cons, List.mem_nil_iff, or_false] at hp
  rcases hp with rfl | rfl | rfl | rfl | rfl | rfl | rfl
  · exact piece2_first X j
  · exact piece8_first X j 5
  · exact piece8_first X j 4
  · exact piece8_first X j 3
  · exact piece8_first X j 2
  · exact piece8_first X j 1
  · exact piece8_first X j 0
theorem col_upd (A : Vec F S7x2048x128 .f32) (X : Fin 8 → Vec F S32x2x50x64 .f32) (j : Fin 8) :
    ∀ p ∈ colUpd A (X j) j, ∀ x : p.1.shape.Idx, p.2 x = updAll A X (p.1.emb x) := by
  intro p hp
  simp only [colUpd, List.mem_cons, List.mem_nil_iff, or_false] at hp
  rcases hp with rfl | rfl | rfl | rfl | rfl | rfl | rfl
  · exact piece2_upd A X j
  · exact piece8_upd A X j 5
  · exact piece8_upd A X j 4
  · exact piece8_upd A X j 3
  · exact piece8_upd A X j 2
  · exact piece8_upd A X j 1
  · exact piece8_upd A X j 0

theorem all_first (X : Fin 8 → Vec F S32x2x50x64 .f32) :
    ∀ p ∈ firstList X, ∀ x : p.1.shape.Idx, p.2 x = rzAll X (p.1.emb x) := by
  intro p hp
  simp only [firstList, List.mem_append] at hp
  rcases hp with ((((((hp | hp) | hp) | hp) | hp) | hp) | hp) | hp
  · exact col_first X 7 p hp
  · exact col_first X 6 p hp
  · exact col_first X 5 p hp
  · exact col_first X 4 p hp
  · exact col_first X 3 p hp
  · exact col_first X 2 p hp
  · exact col_first X 1 p hp
  · exact col_first X 0 p hp
theorem all_upd (A : Vec F S7x2048x128 .f32) (X : Fin 8 → Vec F S32x2x50x64 .f32) :
    ∀ p ∈ updList A X, ∀ x : p.1.shape.Idx, p.2 x = updAll A X (p.1.emb x) := by
  intro p hp
  simp only [updList, List.mem_append] at hp
  rcases hp with ((((((hp | hp) | hp) | hp) | hp) | hp) | hp) | hp
  · exact col_upd A X 7 p hp
  · exact col_upd A X 6 p hp
  · exact col_upd A X 5 p hp
  · exact col_upd A X 4 p hp
  · exact col_upd A X 3 p hp
  · exact col_upd A X 2 p hp
  · exact col_upd A X 1 p hp
  · exact col_upd A X 0 p hp

/-- Tile (j, t) is among stream j's stores, -/
theorem mem_col8_first (xj : Vec F S32x2x50x64 .f32) (j : Fin 8) (t : Fin 6) :
    (⟨accRect8 j t, k0_pay8 (in8 xj t)⟩ : View.Piece (Elt F) S7x2048x128 .f32) ∈ colFirst xj j := by
  unfold colFirst
  fin_cases t
  · exact List.Mem.tail _ (List.Mem.tail _ (List.Mem.tail _ (List.Mem.tail _ (List.Mem.tail _ (List.Mem.tail _ (List.Mem.head _))))))
  · exact List.Mem.tail _ (List.Mem.tail _ (List.Mem.tail _ (List.Mem.tail _ (List.Mem.tail _ (List.Mem.head _)))))
  · exact List.Mem.tail _ (List.Mem.tail _ (List.Mem.tail _ (List.Mem.tail _ (List.Mem.head _))))
  · exact List.Mem.tail _ (List.Mem.tail _ (List.Mem.tail _ (List.Mem.head _)))
  · exact List.Mem.tail _ (List.Mem.tail _ (List.Mem.head _))
  · exact List.Mem.tail _ (List.Mem.head _)
theorem mem_col2_first (xj : Vec F S32x2x50x64 .f32) (j : Fin 8) :
    (⟨accRect2 j, k0_pay49 (k0_pay6 (F := F)) (in2 xj)⟩ : View.Piece (Elt F) S7x2048x128 .f32) ∈ colFirst xj j := by
  unfold colFirst
  exact List.Mem.head _
theorem mem_col8_upd (A : Vec F S7x2048x128 .f32) (xj : Vec F S32x2x50x64 .f32) (j : Fin 8) (t : Fin 6) :
    (⟨accRect8 j t, k0_pay9 (in8 xj t) (View.ld A (accRect8 j t))⟩ : View.Piece (Elt F) S7x2048x128 .f32) ∈ colUpd A xj j := by
  unfold colUpd
  fin_cases t
  · exact List.Mem.tail _ (List.Mem.tail _ (List.Mem.tail _ (List.Mem.tail _ (List.Mem.tail _ (List.Mem.tail _ (List.Mem.head _))))))
  · exact List.Mem.tail _ (List.Mem.tail _ (List.Mem.tail _ (List.Mem.tail _ (List.Mem.tail _ (List.Mem.head _)))))
  · exact List.Mem.tail _ (List.Mem.tail _ (List.Mem.tail _ (List.Mem.tail _ (List.Mem.head _))))
  · exact List.Mem.tail _ (List.Mem.tail _ (List.Mem.tail _ (List.Mem.head _)))
  · exact List.Mem.tail _ (List.Mem.tail _ (List.Mem.head _))
  · exact List.Mem.tail _ (List.Mem.head _)
theorem mem_col2_upd (A : Vec F S7x2048x128 .f32) (xj : Vec F S32x2x50x64 .f32) (j : Fin 8) :
    (⟨accRect2 j, k0_pay50 (k0_pay6 (F := F)) (in2 xj) (View.ld A (accRect2 j))⟩ : View.Piece (Elt F) S7x2048x128 .f32) ∈ colUpd A xj j := by
  unfold colUpd
  exact List.Mem.head _

/-- and stream j's stores are among all stores. -/
theorem mem_first (X : Fin 8 → Vec F S32x2x50x64 .f32) (j : Fin 8) (p : View.Piece (Elt F) S7x2048x128 .f32)
    (hp : p ∈ colFirst (X j) j) : p ∈ firstList X := by
  simp only [firstList, List.mem_append]
  fin_cases j
  · exact Or.inr hp
  · exact Or.inl (Or.inr hp)
  · exact Or.inl (Or.inl (Or.inr hp))
  · exact Or.inl (Or.inl (Or.inl (Or.inr hp)))
  · exact Or.inl (Or.inl (Or.inl (Or.inl (Or.inr hp))))
  · exact Or.inl (Or.inl (Or.inl (Or.inl (Or.inl (Or.inr hp)))))
  · exact Or.inl (Or.inl (Or.inl (Or.inl (Or.inl (Or.inl (Or.inr hp))))))
  · exact Or.inl (Or.inl (Or.inl (Or.inl (Or.inl (Or.inl (Or.inl (hp)))))))
theorem mem_upd (A : Vec F S7x2048x128 .f32) (X : Fin 8 → Vec F S32x2x50x64 .f32) (j : Fin 8) (p : View.Piece (Elt F) S7x2048x128 .f32)
    (hp : p ∈ colUpd A (X j) j) : p ∈ updList A X := by
  simp only [updList, List.mem_append]
  fin_cases j
  · exact Or.inr hp
  · exact Or.inl (Or.inr hp)
  · exact Or.inl (Or.inl (Or.inr hp))
  · exact Or.inl (Or.inl (Or.inl (Or.inr hp)))
  · exact Or.inl (Or.inl (Or.inl (Or.inl (Or.inr hp))))
  · exact Or.inl (Or.inl (Or.inl (Or.inl (Or.inl (Or.inr hp)))))
  · exact Or.inl (Or.inl (Or.inl (Or.inl (Or.inl (Or.inl (Or.inr hp))))))
  · exact Or.inl (Or.inl (Or.inl (Or.inl (Or.inl (Or.inl (Or.inl (hp)))))))

/-- An index of slab t whose row lies in stream j's group of 256 is in tile (j, t). -/
theorem mem_accRect8 (j : Fin 8) (t : Fin 6) (y : S7x2048x128.Idx) (h0 : (y 0).val = t.val)
    (h1 : 256 * j.val ≤ (y 1).val) (h1' : (y 1).val < 256 * j.val + 256) : y ∈ (accRect8 j t).set := by
  have h2 : (y 2).val < 128 := (y 2).isLt
  rw [Rect.mem_set_unit]
  intro a
  match a with
  | ⟨0, _⟩ => show t.val ≤ (y 0).val ∧ (y 0).val < t.val + 1; omega
  | ⟨1, _⟩ => show 256 * j.val ≤ (y 1).val ∧ (y 1).val < 256 * j.val + 256; omega
  | ⟨2, _⟩ => show 0 ≤ (y 2).val ∧ (y 2).val < 0 + 128; omega
/-- An index of slab 6 whose row lies in stream j's group of 64 is in tile (j, 6). -/
theorem mem_accRect2 (j : Fin 8) (y : S7x2048x128.Idx) (h0 : (y 0).val = 6)
    (h1 : 64 * j.val ≤ (y 1).val) (h1' : (y 1).val < 64 * j.val + 64) : y ∈ (accRect2 j).set := by
  have h2 : (y 2).val < 128 := (y 2).isLt
  rw [Rect.mem_set_unit]
  intro a
  match a with
  | ⟨0, _⟩ => show 6 ≤ (y 0).val ∧ (y 0).val < 6 + 1; omega
  | ⟨1, _⟩ => show 64 * j.val ≤ (y 1).val ∧ (y 1).val < 64 * j.val + 64; omega
  | ⟨2, _⟩ => show 0 ≤ (y 2).val ∧ (y 2).val < 0 + 128; omega

/-- The stores of a first visit cover the part of the accumulator the kernel uses. -/
theorem cover_first (X : Fin 8 → Vec F S32x2x50x64 .f32) (y : S7x2048x128.Idx) (hy : Cov y) : ∃ p ∈ firstList X, y ∈ p.1.set := by
  have hy0 : (y 0).val < 7 := (y 0).isLt
  have hy1 : (y 1).val < 2048 := (y 1).isLt
  by_cases h : (y 0).val < 6
  · exact ⟨_, mem_first X ⟨(y 1).val / 256, by omega⟩ _ (mem_col8_first _ _ ⟨(y 0).val, h⟩),
      mem_accRect8 _ _ y rfl (by dsimp only; omega) (by dsimp only; omega)⟩
  · have h1 : (y 1).val < 512 := by rcases hy with hy | hy; exact absurd hy h; exact hy
    exact ⟨_, mem_first X ⟨(y 1).val / 64, by omega⟩ _ (mem_col2_first _ _),
      mem_accRect2 _ y (by omega) (by dsimp only; omega) (by dsimp only; omega)⟩

/-- The stores of a later visit cover the same part. -/
theorem cover_upd (A : Vec F S7x2048x128 .f32) (X : Fin 8 → Vec F S32x2x50x64 .f32) (y : S7x2048x128.Idx) (hy : Cov y) : ∃ p ∈ updList A X, y ∈ p.1.set := by
  have hy0 : (y 0).val < 7 := (y 0).isLt
  have hy1 : (y 1).val < 2048 := (y 1).isLt
  by_cases h : (y 0).val < 6
  · exact ⟨_, mem_upd A X ⟨(y 1).val / 256, by omega⟩ _ (mem_col8_upd A _ _ ⟨(y 0).val, h⟩),
      mem_accRect8 _ _ y rfl (by dsimp only; omega) (by dsimp only; omega)⟩
  · have h1 : (y 1).val < 512 := by rcases hy with hy | hy; exact absurd hy h; exact hy
    exact ⟨_, mem_upd A X ⟨(y 1).val / 64, by omega⟩ _ (mem_col2_upd A _ _),
      mem_accRect2 _ y (by omega) (by dsimp only; omega) (by dsimp only; omega)⟩

/-- What a first visit leaves, wherever the kernel reads: the indicator. -/
theorem canon_first (X : Fin 8 → Vec F S32x2x50x64 .f32) (y : S7x2048x128.Idx) (hy : Cov y) : View.canon (firstList X) y = rzAll X y :=
  View.canon_apply_of_pieces (rzAll X) (firstList X) (all_first X) y (cover_first X y hy)

/-- What a later visit over `A` leaves, wherever the kernel reads: `A` plus the indicator. -/
theorem canon_upd (A : Vec F S7x2048x128 .f32) (X : Fin 8 → Vec F S32x2x50x64 .f32) (y : S7x2048x128.Idx) (hy : Cov y) : View.canon (updList A X) y = updAll A X y :=
  View.canon_apply_of_pieces (updAll A X) (updList A X) (all_upd A X) y (cover_upd A X y hy)

/-- A later visit keeps agreement on the covered part. -/
theorem updAll_agree (A B : Vec F S7x2048x128 .f32) (X : Fin 8 → Vec F S32x2x50x64 .f32) (h : AgreeCov A B) : AgreeCov (updAll A X) (updAll B X) :=
  fun y hy => by unfold updAll; rw [h y hy]

/-- A load through a whole slab s < 6 reads only covered indices, -/
theorem ld_slab_agree (A B : Vec F S7x2048x128 .f32) (h : AgreeCov A B) (s : Fin 6) :
    View.ld A (slabRect s) = View.ld B (slabRect s) := by
  funext x
  show A ((slabRect s).emb x) = B ((slabRect s).emb x)
  apply h
  have hx : (x 0).val < 1 := (x 0).isLt
  have e : (((slabRect s).emb x) 0).val = s.val + 1 * (x 0).val := Rect.emb_apply _ x 0
  exact Or.inl (by rw [e]; omega)
/-- and so does the load of rows 0..511 of slab 6. -/
theorem ld_slab6_agree (A B : Vec F S7x2048x128 .f32) (h : AgreeCov A B) :
    View.ld A slabRect6 = View.ld B slabRect6 := by
  funext x
  show A (slabRect6.emb x) = B (slabRect6.emb x)
  apply h
  have hx : (x 1).val < 512 := (x 1).isLt
  have e : ((slabRect6.emb x) 1).val = 0 + 1 * (x 1).val := Rect.emb_apply _ x 1
  exact Or.inr (by rw [e]; omega)

/-- The output block of a last visit depends on the accumulator only through its covered part. -/
theorem emitOf_agree (xs : Vec F S256x50 .f32) (A B : Vec F S7x2048x128 .f32) (h : AgreeCov A B) : emitOf xs A = emitOf xs B := by
  unfold emitOf
  rw [ld_slab_agree A B h 0, ld_slab_agree A B h 1, ld_slab_agree A B h 2, ld_slab_agree A B h 3,
    ld_slab_agree A B h 4, ld_slab_agree A B h 5, ld_slab6_agree A B h]

end Cert.Kernel.Hand

end
-- ==== Proof.KBLaunch.lean ====
/-
  The launch of the kernel's one region. Eight of its ten windows read one array, so the region is entered with that
  array's full share cut into eight leaves of the share tree, one per window; the ninth input and the output hold their
  arrays whole. This module fixes the eight leaves, derives the run of the program from a body obligation over proof
  data that lend exactly those shares, and reads off the run that the two input arrays end as they began.
-/
import proofs.«168630_g34205119545578_cont_sun_m_983_19_alg».proof.Proof.KBBase
import Idealize.ShloMosaic.Lib.Pipeline.Launch
import Idealize.ShloMosaic.Lib.Pipeline.Frame
import Idealize.ShloMosaic.Lib.Pipeline.Kit
import Idealize.ShloMosaic.Lib.Pipeline.Cells
import Idealize.ShloMosaic.Lib.Pipeline.Dat
import Idealize.ShloMosaic.Rules.PointsTo
import Idealize.SL.RA.TreeShare

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- the share of main_arg0 each of the eight input windows on it holds; the other windows the full share -/
def shareOf : Fin 10 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right
  | 8 => fullShare
  | 9 => fullShare

/-- A whole buffer held at a share is held at the share's two halves. -/
theorem halve {ℓ : Loc nD τ sig} (q : PosShare TreeShare) (f : Buf (Elt F) ℓ) :
    (ℓ ↦{q} f : sProp 𝕄) ⊢ iprop((ℓ ↦{q.left} f) ∗ ℓ ↦{q.right} f) :=
  (pointsTo_share (PosShare.mem_left_op_right q)).1

/-- The full share of a whole buffer cut three times: the eight leaves at depth three, left to right. -/
theorem eighths {ℓ : Loc nD τ sig} (f : Buf (Elt F) ℓ) :
    (ℓ ↦{fullShare} f : sProp 𝕄) ⊢ iprop((ℓ ↦{fullShare.left.left.left} f) ∗ (ℓ ↦{fullShare.left.left.right} f)
      ∗ (ℓ ↦{fullShare.left.right.left} f) ∗ (ℓ ↦{fullShare.left.right.right} f)
      ∗ (ℓ ↦{fullShare.right.left.left} f) ∗ (ℓ ↦{fullShare.right.left.right} f)
      ∗ (ℓ ↦{fullShare.right.right.left} f) ∗ (ℓ ↦{fullShare.right.right.right} f)) := by
  iintro H
  ihave H := (halve fullShare f) $$ H
  icases H with ⟨HL, HR⟩
  ihave HL := (halve fullShare.left f) $$ HL
  icases HL with ⟨HLL, HLR⟩
  ihave HR := (halve fullShare.right f) $$ HR
  icases HR with ⟨HRL, HRR⟩
  ihave HLL := (halve fullShare.left.left f) $$ HLL
  icases HLL with ⟨H0, H1⟩
  ihave HLR := (halve fullShare.left.right f) $$ HLR
  icases HLR with ⟨H2, H3⟩
  ihave HRL := (halve fullShare.right.left f) $$ HRL
  icases HRL with ⟨H4, H5⟩
  ihave HRR := (halve fullShare.right.right f) $$ HRR
  icases HRR with ⟨H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Proof data that lend the eight leaves hold every window's array at `shareOf`: the output is the one window held
    at the full share whatever the data lend. -/
theorem share_eq {c : Dev nD} (dat : Dat τ (Elt F) Unit ℕ (UR sig nD τ) ℕ cfg0 c) (hq : ∀ w, dat.q w = shareOf w) (w : Fin 10) :
    dat.share w = shareOf w := by
  unfold Dat.share
  split
  · next h =>
    obtain rfl : w = 9 := (by decide : ∀ w : Fin 10, (cfg0.win w).isOut = true → w = 9) w h
    rfl
  · exact hq w

/-- The three buffers behind the ten windows' arrays, each whole at the full share, make the windows' arrays at the
    region's entry: main_arg0's full share is dealt in eighths to windows 0..7, main_arg1 and main_v0 pass whole. -/
theorem arrays_of_bufs (c : Dev nD) (dat : Dat τ (Elt F) Unit ℕ (UR sig nD τ) ℕ cfg0 c)
    (V : (b : Ref sig .tc) → Buf (Elt F) ((c.tc : Thread nD τ).loc b))
    (hq : ∀ w, dat.q w = shareOf w) (hA : ∀ w, dat.A w = V (Pipeline.arrRef spec0 w)) :
    (Pipeline.arrBufs spec0 c V : sProp 𝕄) ⊢ dat.arrays (dat.arrAt · 0) := by
  have himg : Finset.univ.image (Pipeline.arrRef spec0) = [main_arg0, main_arg1, main_v0].toFinset := by decide
  have hcongr : dat.arrays (dat.arrAt · 0)
      = bigSep Finset.univ fun w : Fin 10 =>
          (((c.tc : Thread nD τ).loc (Pipeline.arrRef spec0 w)) ↦{shareOf w} V (Pipeline.arrRef spec0 w) : sProp 𝕄) := by
    unfold Dat.arrays
    exact bigSep_congr fun w _ => by
      rw [(arr_whole0 w).set_eq_univ, share_eq dat hq w]
      show ((cfg0.win w).arr.view.loc (c.tc : Thread nD τ) ↦{shareOf w} dat.A w : sProp 𝕄) = _
      rw [hA w]
  unfold Pipeline.arrBufs
  rw [hcongr, bigSep_eq_bigSepL_of_eq _ himg (by decide), bigSep_W0]
  show iprop((((c.tc : Thread nD τ).loc main_arg0) ↦{fullShare} V main_arg0) ∗ (((c.tc : Thread nD τ).loc main_arg1) ↦{fullShare} V main_arg1)
      ∗ (((c.tc : Thread nD τ).loc main_v0) ↦{fullShare} V main_v0))
    ⊢ iprop((((c.tc : Thread nD τ).loc main_arg0) ↦{fullShare.left.left.left} V main_arg0)
      ∗ (((c.tc : Thread nD τ).loc main_arg0) ↦{fullShare.left.left.right} V main_arg0)
      ∗ (((c.tc : Thread nD τ).loc main_arg0) ↦{fullShare.left.right.left} V main_arg0)
      ∗ (((c.tc : Thread nD τ).loc main_arg0) ↦{fullShare.left.right.right} V main_arg0)
      ∗ (((c.tc : Thread nD τ).loc main_arg0) ↦{fullShare.right.left.left} V main_arg0)
      ∗ (((c.tc : Thread nD τ).loc main_arg0) ↦{fullShare.right.left.right} V main_arg0)
      ∗ (((c.tc : Thread nD τ).loc main_arg0) ↦{fullShare.right.right.left} V main_arg0)
      ∗ (((c.tc : Thread nD τ).loc main_arg0) ↦{fullShare.right.right.right} V main_arg0)
      ∗ (((c.tc : Thread nD τ).loc main_arg1) ↦{fullShare} V main_arg1)
      ∗ (((c.tc : Thread nD τ).loc main_v0) ↦{fullShare} V main_v0))
  iintro ⟨H0, H1, Hv⟩
  ihave H0 := (eighths (V main_arg0)) $$ H0
  icases H0 with ⟨G0, G1, G2, G3, G4, G5, G6, G7⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [H1]; · iexact H1
  iexact Hv

/-! ## What the launch routes on one core

Beside the arrays, the launch holds on a core: the unscoped buffers that are no window's array, the kernel's own
semaphores (it has none), the unscoped semaphores, the levels, the generator register at its launch state, and the
user ghost state (none). The region's invariant takes the register, at whatever state; the buffers that bypass the
region are kept aside and read back against the final memory. -/

/-- Entering: the register goes to the invariant with its state forgotten, the bypassing buffers `R` are kept. -/
theorem entry_keep (c : Dev nD) (g : PrngReg) (R A B C' D : sProp 𝕄) :
    iprop(R ∗ A ∗ B ∗ C' ∗ prngReg c g ∗ D) ⊢ |={Set.univ}=> iprop((∃ r, prngReg c r) ∗ R) := by
  iintro ⟨HR, -, -, -, Hg, -⟩
  imodintro
  isplitr [HR]
  · iexists g; iexact Hg
  · iexact HR

/-- Before the first point the class invariant is the register with the core's scratch; the tables' halves `T`
    (there is no table) are not part of it. -/
theorem inv_of_entry (c : Dev nD) (T : sProp 𝕄) :
    iprop((∃ r, prngReg c r) ∗ T ∗ Pipeline.scopedRest (Ix := Unit) (Name := ℕ) (U := UR sig nD τ) (Lvl := ℕ) (Val := Elt F) spec0 c)
      ⊢ Pipeline.ΦA spec0 c := by
  unfold Pipeline.ΦA
  iintro ⟨Hg, -, Hs⟩
  isplitl [Hs]
  · iexact Hs
  · iexact Hg

/-- After the last point the class invariant gives the register and the scratch back; a kernel with no semaphore of
    its own returns none. -/
theorem exit_of_inv (c : Dev nD) :
    (Pipeline.ΦA spec0 c : sProp 𝕄)
      ⊢ iprop((∃ r, prngReg c r) ∗ Pipeline.ownSems0 (fun k : PEmpty => k.elim) c ∗ Pipeline.scopedRest spec0 c) := by
  rw [Pipeline.ownSems0_none]
  unfold Pipeline.ΦA
  iintro ⟨Hs, Hg⟩
  isplitl [Hg]
  · iexact Hg
  · isplitr [Hs]
    · iempintro
    · iexact Hs

/-- The launch's ghost state: the pipeline's cells are the whole of the user component, and no core gets a share of
    anything else. -/
theorem fund (u : UR sig nD τ) :
    (ownU u : sProp 𝕄) ⊢ |={Set.univ}=> iprop(BI.own (emb₁ u) ∗ bigSep Finset.univ (fun _ : Dev nD => (BI.emp : sProp 𝕄))) := by
  rw [ownU_emb₁, BI.bigSep_emp_const]
  iintro Hu
  imodintro
  isplitl [Hu]
  · iexact Hu
  · iempintro

/-- @main is the region and the return. -/
theorem main_eq (c : Dev nD) :
    main (F := F) c = (.op (.customCall (Pipeline.entry 0) ()) fun _ => .ret ⟨⟩) := rfl

theorem run_of (m : (ℓ : Loc nD τ sig) → Buf (Elt F) ℓ) (ρ : Dev nD → PrngReg)
    (dats : (p : Fin 1) → (c : Dev nD) → Dat τ (Elt F) Unit ℕ (UR sig nD τ) ℕ (cfgs p) c)
    (hbody : ∀ c, BodyObligation (dats 0 c) (defs₀ (F := F)) Variants.none () Set.univ)
    (hq : ∀ c w, (dats 0 c).q w = shareOf w) (howed : ∀ c t, (dats 0 c).owed t = 0)
    (hA : ∀ c w, (dats 0 c).A w = m ((c.tc : Thread nD τ).loc (Pipeline.arrRef spec0 w)))
    (hin : ∀ c, Pipeline.ΦA spec0 c ⊢ (dats 0 c).Φ 0) (hout : ∀ c, (dats 0 c).Φ (Fin.last cfg0.N) ⊢ Pipeline.ΦA spec0 c) :
    θ_run (defs (F := F)) (onTc (τ := τ) (main (F := F))) (s₀ m ρ)
      (Pipeline.FramePost cfgs dats 0 (fun c b => m ((c.tc : Thread nD τ).loc b))) := by
  classical
  refine Pipeline.θ_run_region_pf (fun p => (cfgs p).toPCfg (Val := Elt F)) (fun p => (cfgs p).toPCfg_adm) dats () cellOf_inj (0 : Fin 1)
    winFacts₀0 (Pipeline.OwnSemFacts.none _) (Pipeline.PreFacts.none _) emb₁ defs₀ Variants.none m ρ main
    (fun c => (hbody c).loose) block_pos0 arr_whole0 stage_whole0 howed
    (G := fun _ => iprop(emp)) (u₀ := initOf (Pipeline.cells cfgs cellOf_inj) (Pipeline.launchToks cfgs cellOf_inj))
    (hu₀ := fund _) (V := fun c b => m ((c.tc : Thread nD τ).loc b))
    (hmain := Pipeline.hmain_region cfgs 0 defs₀ Variants.none m main main_eq)
    (hsplit := fun c => arrays_of_bufs c (dats 0 c) _ (hq c) (hA c)) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => m ((c.tc : Thread nD τ).loc b)))
    (hX := ?hX) (hin := fun c => (inv_of_entry c _).trans (hin c)) (hout := fun c => (hout c).trans (exit_of_inv c))
    (QY := fun c s => ∀ b ∈ Pipeline.restRefs sig spec0, s.mem ((c.tc : Thread nD τ).loc b) = m ((c.tc : Thread nD τ).loc b))
    (hY := ?hY) (hQ := fun s h c => ⟨(h c).1, (h c).2.2⟩)
  case hX =>
    intro c
    rw [Pipeline.unscopedRestP_none]
    exact entry_keep c (ρ c) _ _ _ _ _
  case hY =>
    intro c s'
    iintro ⟨-, HU, HSI⟩
    unfold Pipeline.unscopedRest
    imodintro
    iapply (pointsTo_read_all (Pipeline.restRefs sig spec0) (fun b => (c.tc : Thread nD τ).loc b) (fun b => m ((c.tc : Thread nD τ).loc b)) s')
    isplitl [HU]
    · iexact HU
    · iexact HSI

theorem frame_of_run (m : (ℓ : Loc nD τ sig) → Buf (Elt F) ℓ) (ρ : Dev nD → PrngReg)
    (dats : (p : Fin 1) → (c : Dev nD) → Dat τ (Elt F) Unit ℕ (UR sig nD τ) ℕ (cfgs p) c)
    (hA : ∀ c w, (dats 0 c).A w = m ((c.tc : Thread nD τ).loc (Pipeline.arrRef spec0 w)))
    (h : θ_run (defs (F := F)) (onTc (τ := τ) (main (F := F))) (s₀ m ρ)
      (Pipeline.FramePost cfgs dats 0 (fun c b => m ((c.tc : Thread nD τ).loc b)))) :
    θ_run (defs (F := F)) (onTc (τ := τ) (main (F := F))) ⟨m, fun _ => 0, ρ⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (defs (F := F)) _ _).mono
    (fun _ hr c => ⟨((hr c).1 0).trans (((dats 0 c).arrAt_in 0 rfl _).trans (hA c 0)),
      ((hr c).1 8).trans (((dats 0 c).arrAt_in 8 rfl _).trans (hA c 8))⟩) h

end Cert.Kernel.Hand

end
-- ==== Proof.KBData.lean ====
/-
  The pipeline's proof data, the body obligation at every point, and the run.

  After the body at point t each input window's buffer still holds its block; the output window's buffer is stored
  only at a last visit, where it holds the seen block plus, column by column, lane 0 of the accumulator's rows.
  The obligation is proved by cases on the visit: the point's closed forms decide the body's three tests, the
  whole-body run of that case applies, and the accumulator it leaves agrees on the used part with the next
  point's contents because every store is a block of one function of the accumulator's index.
-/
import proofs.«168630_g34205119545578_cont_sun_m_983_19_alg».proof.Proof.KBState
import proofs.«168630_g34205119545578_cont_sun_m_983_19_alg».proof.Proof.KBWitnessOut
import proofs.«168630_g34205119545578_cont_sun_m_983_19_alg».proof.Proof.KBPieceFacts
import proofs.«168630_g34205119545578_cont_sun_m_983_19_alg».proof.Proof.KBLaunch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => emitOf (SB m c t) (accAt m c t.val t.isLt)
  Φ t := PhiS m c t.val (Nat.le_of_lt_succ t.isLt)
  q := shareOf
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = emitOf (SB m c t) (accAt m c t.val t.isLt) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Pipeline.Dat.blockOf iblk; rw [A_eq]; try rfl) t d).trans
    (by unfold Pipeline.Dat.fetched Pipeline.Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Pipeline.Dat.blockOf iblk; rw [A_eq]; try rfl) t d).trans
    (by unfold Pipeline.Dat.fetched Pipeline.Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Pipeline.Dat.blockOf iblk; rw [A_eq]; try rfl) t d).trans
    (by unfold Pipeline.Dat.fetched Pipeline.Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Pipeline.Dat.blockOf iblk; rw [A_eq]; try rfl) t d).trans
    (by unfold Pipeline.Dat.fetched Pipeline.Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Pipeline.Dat.blockOf iblk; rw [A_eq]; try rfl) t d).trans
    (by unfold Pipeline.Dat.fetched Pipeline.Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Pipeline.Dat.blockOf iblk; rw [A_eq]; try rfl) t d).trans
    (by unfold Pipeline.Dat.fetched Pipeline.Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Pipeline.Dat.blockOf iblk; rw [A_eq]; try rfl) t d).trans
    (by unfold Pipeline.Dat.fetched Pipeline.Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Pipeline.Dat.blockOf iblk; rw [A_eq]; try rfl) t d).trans
    (by unfold Pipeline.Dat.fetched Pipeline.Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Pipeline.Dat.blockOf iblk; rw [A_eq]; try rfl) t d).trans
    (by unfold Pipeline.Dat.fetched Pipeline.Dat.blockOf iblk; rw [A_eq]; try rfl)

/-- The staging memrefs at a point, as the pipeline passes them to the body. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)

theorem leaves_0 (c : Dev nD) (t : Fin cfg0.N) :
    (dats m 0 c).leavesExact 0 t = owns (c : Thread nD τ) (ms0 t) fullShare (iblk m c 0 t) := by
  unfold Pipeline.Dat.leavesExact; rw [show cfg0.idle 0 (cfg0.grid.coords t) = false from rfl, after_0]
theorem leaves_1 (c : Dev nD) (t : Fin cfg0.N) :
    (dats m 0 c).leavesExact 1 t = owns (c : Thread nD τ) (ms1 t) fullShare (iblk m c 1 t) := by
  unfold Pipeline.Dat.leavesExact; rw [show cfg0.idle 1 (cfg0.grid.coords t) = false from rfl, after_1]
theorem leaves_2 (c : Dev nD) (t : Fin cfg0.N) :
    (dats m 0 c).leavesExact 2 t = owns (c : Thread nD τ) (ms2 t) fullShare (iblk m c 2 t) := by
  unfold Pipeline.Dat.leavesExact; rw [show cfg0.idle 2 (cfg0.grid.coords t) = false from rfl, after_2]
theorem leaves_3 (c : Dev nD) (t : Fin cfg0.N) :
    (dats m 0 c).leavesExact 3 t = owns (c : Thread nD τ) (ms3 t) fullShare (iblk m c 3 t) := by
  unfold Pipeline.Dat.leavesExact; rw [show cfg0.idle 3 (cfg0.grid.coords t) = false from rfl, after_3]
theorem leaves_4 (c : Dev nD) (t : Fin cfg0.N) :
    (dats m 0 c).leavesExact 4 t = owns (c : Thread nD τ) (ms4 t) fullShare (iblk m c 4 t) := by
  unfold Pipeline.Dat.leavesExact; rw [show cfg0.idle 4 (cfg0.grid.coords t) = false from rfl, after_4]
theorem leaves_5 (c : Dev nD) (t : Fin cfg0.N) :
    (dats m 0 c).leavesExact 5 t = owns (c : Thread nD τ) (ms5 t) fullShare (iblk m c 5 t) := by
  unfold Pipeline.Dat.leavesExact; rw [show cfg0.idle 5 (cfg0.grid.coords t) = false from rfl, after_5]
theorem leaves_6 (c : Dev nD) (t : Fin cfg0.N) :
    (dats m 0 c).leavesExact 6 t = owns (c : Thread nD τ) (ms6 t) fullShare (iblk m c 6 t) := by
  unfold Pipeline.Dat.leavesExact; rw [show cfg0.idle 6 (cfg0.grid.coords t) = false from rfl, after_6]
theorem leaves_7 (c : Dev nD) (t : Fin cfg0.N) :
    (dats m 0 c).leavesExact 7 t = owns (c : Thread nD τ) (ms7 t) fullShare (iblk m c 7 t) := by
  unfold Pipeline.Dat.leavesExact; rw [show cfg0.idle 7 (cfg0.grid.coords t) = false from rfl, after_7]
theorem leaves_8 (c : Dev nD) (t : Fin cfg0.N) :
    (dats m 0 c).leavesExact 8 t = owns (c : Thread nD τ) (ms8 t) fullShare (iblk m c 8 t) := by
  unfold Pipeline.Dat.leavesExact; rw [show cfg0.idle 8 (cfg0.grid.coords t) = false from rfl, after_8]

/-! ## The three closing facts (pure) -/

/-- A first visit's stores leave the indicator on the used part. -/
theorem agree_first (v : View sig .tc .vmem S7x2048x128 .f32) (f : v.ty.Contents (Elt F)) (X : Fin 8 → Vec F S32x2x50x64 .f32) :
    AgreeCov (v.read (Elt F) (v.writes (Elt F) f (firstList X))) (rzAll X) := fun y hy =>
  (View.read_writes_apply_eq_canon v f y _ (cover_first X y hy)).trans (canon_first X y hy)

/-- A later visit's stores over contents agreeing with `B` leave `B` plus the indicator on the used part. -/
theorem agree_upd (v : View sig .tc .vmem S7x2048x128 .f32) (f : v.ty.Contents (Elt F)) (a B : Vec F S7x2048x128 .f32)
    (X : Fin 8 → Vec F S32x2x50x64 .f32) (h : AgreeCov a B) :
    AgreeCov (v.read (Elt F) (v.writes (Elt F) f (updList a X))) (updAll B X) := fun y hy =>
  (View.read_writes_apply_eq_canon v f y _ (cover_upd a X y hy)).trans ((canon_upd a X y hy).trans (updAll_agree a B X h y hy))

/-- One store through the whole block leaves its payload, whatever was there. -/
theorem read_one_whole (v : View sig .tc .vmem S256x50 .f32) (f : v.ty.Contents (Elt F)) (W : S256x50.Idx → Elt F .f32) :
    v.read (Elt F) (v.writes (Elt F) f [(⟨Rect.unit ![0, 0] S256x50.size inb_S256x50_S256x50_0_0, W⟩ : View.Piece (Elt F) S256x50 .f32)]) = W :=
  (View.read_writes_eq_canon v f [(⟨Rect.unit ![0, 0] S256x50.size inb_S256x50_S256x50_0_0, W⟩ : View.Piece (Elt F) S256x50 .f32)]
    (fun y => ⟨(⟨Rect.unit ![0, 0] S256x50.size inb_S256x50_S256x50_0_0, W⟩ : View.Piece (Elt F) S256x50 .f32), List.mem_singleton_self _,
      View.mem_set_unit_zero zero2 inb_S256x50_S256x50_0_0 y⟩)).trans
    (View.canon_unit_zero zero2 inb_S256x50_S256x50_0_0 W)

/-- The last visit's one store leaves the output block of the seen block and the next contents. -/
theorem out_last (v : View sig .tc .vmem S256x50 .f32) (f : v.ty.Contents (Elt F)) (xs : Vec F S256x50 .f32)
    (a B : Vec F S7x2048x128 .f32) (X : Fin 8 → Vec F S32x2x50x64 .f32) (h : AgreeCov a B) :
    v.read (Elt F) (v.writes (Elt F) f [⟨Rect.unit ![0, 0] S256x50.size inb_S256x50_S256x50_0_0, emitOf xs (View.canon (updList a X))⟩])
      = emitOf xs (updAll B X) := by
  refine (read_one_whole v f _).trans ?_
  exact emitOf_agree xs _ _ (fun y hy => (canon_upd a X y hy).trans (updAll_agree a B X h y hy))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8]
  have hN : t.val < 16 := lt_of_lt_of_eq t.isLt (show cfg0.N = 16 from N_0)
  by_cases h0 : t.val % 4 = 0
  · have hF : isFirst (grid0.coords t) := (isFirst_iff t).mpr h0
    have hL : ¬isLater (grid0.coords t) := fun h => (isLater_iff t).mp h h0
    have hE : ¬isLast (grid0.coords t) := fun h => by have := (isLast_iff t).mp h; omega
    rw [Pipeline.Dat.leavesExact_idle (dats m 0 c) 9 t ((idle_out_iff t).mpr (by omega))
      (by have := flush_out_iff t; cases hfl : (cfg0.win 9).flush t with | false => rfl | true => exact absurd (this.mp hfl) (by omega))]
    rw [accAt_first m c t h0]
    by_cases hz : t.val = 0
    · rw [Phi_castSucc m c t, PhiS_zero m c _ _ hz, PhiA_eq]
      iintro ⟨⟨⟨%a, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, H9, ⟨%f, HA⟩⟩
      isplitl [HA Hg]
      · isplitl [HA]
        · iexists _
          isplitl [HA]
          · unfold owns; iexists _; isplitr
            swap; · iexact HA
            ipureintro; rfl
          · ipureintro; rw [first_eq]; exact agree_first _ f _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [Phi_castSucc m c t, PhiS_pos m c _ _ hz]
      iintro ⟨⟨⟨%a, HA, %ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, H9, ⟨%f, HA⟩⟩
      isplitl [HA Hg]
      · isplitl [HA]
        · iexists _
          isplitl [HA]
          · unfold owns; iexists _; isplitr
            swap; · iexact HA
            ipureintro; rfl
          · ipureintro; rw [first_eq]; exact agree_first _ f _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    have hF : ¬isFirst (grid0.coords t) := fun h => h0 ((isFirst_iff t).mp h)
    have hL : isLater (grid0.coords t) := (isLater_iff t).mpr h0
    rw [accAt_later m c t h0]
    rw [Phi_castSucc m c t, PhiS_pos m c _ _ hz]
    by_cases h3 : t.val % 4 = 3
    · have hE : isLast (grid0.coords t) := (isLast_iff t).mpr h3
      rw [show (dats m 0 c).leavesExact 9 t = owns (c : Thread nD τ) (ms9 t) fullShare ((dats m 0 c).after 9 t) from by
        unfold Pipeline.Dat.leavesExact
        rw [show cfg0.idle 9 (cfg0.grid.coords t) = false from by
          cases hi : cfg0.idle 9 (cfg0.grid.coords t) with | false => rfl | true => exact absurd ((idle_out_iff t).mp hi) (by omega)], after_9]
      rw [accAt_later m c t h0]
      iintro ⟨⟨⟨%a, HA, %ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, ⟨%fo, H9⟩, ⟨%f, HA⟩⟩
      isplitl [HA Hg]
      · isplitl [HA]
        · iexists _
          isplitl [HA]
          · unfold owns; iexists _; isplitr
            swap; · iexact HA
            ipureintro; rfl
          · ipureintro; rw [last_eqA]; exact agree_upd _ f _ _ _ ha
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; rw [last_eqO]; exact out_last _ fo _ _ _ _ ha
    · have hE : ¬isLast (grid0.coords t) := fun h => h3 ((isLast_iff t).mp h)
      rw [Pipeline.Dat.leavesExact_idle (dats m 0 c) 9 t ((idle_out_iff t).mpr h3)
        (by have := flush_out_iff t; cases hfl : (cfg0.win 9).flush t with | false => rfl | true => exact absurd (this.mp hfl) h3)]
      iintro ⟨⟨⟨%a, HA, %ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, H9, ⟨%f, HA⟩⟩
      isplitl [HA Hg]
      · isplitl [HA]
        · iexists _
          isplitl [HA]
          · unfold owns; iexists _; isplitr
            swap; · iexact HA
            ipureintro; rfl
          · ipureintro; rw [mid_eq]; exact agree_upd _ f _ _ _ ha
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨%a, HA, %ha⟩, Hg⟩
  isplitl [HA]
  · iexists _; iexact HA
  iexact Hg

/-- The run: every weakly fair execution of @main terminates, every array of the pipeline ends at what the library
    computes from the proof data, every other unscoped buffer as it was. -/
theorem run_main : θ_run (defs (F := F)) (onTc (τ := τ) (main (F := F))) (s₀ m ρ)
    (Pipeline.FramePost cfgs (dats m) 0 (fun c b => m ((c.tc : Thread nD τ).loc b))) :=
  run_of m ρ (dats m) (body_obligation m) (fun _ _ => rfl) (fun _ _ => rfl) (fun c w => A_eq m c w) (hin m) (hout m)

/-- The frame claim's post, at any `F`. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (fun c w => A_eq m c w) (run_main m ρ)

end Cert.Kernel.Hand

end
-- ==== Proof.KIBase.lean ====
/-
  The grid of this kernel is 4 × 4: point t = 4 r + q visits output row block r for the q-th time (q = 0, 1, 2, 3).
  The body branches only on q: at q = 0 every tile of the accumulator is overwritten, at q > 0 every tile is added
  to, and at q = 3 the output block is stored. This module names the three conditions as the body computes them,
  decides each over the grid in closed form, and records where the output window is idle and where it is written back.
-/
import proofs.«168630_g34205119545578_cont_sun_m_983_19_alg».proof.Proof.Gen.KernelIdeal.Launch
import proofs.«168630_g34205119545578_cont_sun_m_983_19_alg».proof.Proof.Gen.KernelIdeal.Skeleton
import proofs.«168630_g34205119545578_cont_sun_m_983_19_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test "q = 0", as its scalar chain over the second grid coordinate. -/
abbrev isFirst (i : grid0.Coords) : Prop :=
  Scalar.cmpi .ne (Scalar.extui (Scalar.cmpi .eq (BitVec.ofNat 32 (i 1).val) 0#32)) 0#32 = 1#1
/-- The body's test "q > 0". -/
abbrev isLater (i : grid0.Coords) : Prop :=
  Scalar.cmpi .ne (Scalar.extui (Scalar.cmpi .sgt (BitVec.ofNat 32 (i 1).val) 0#32)) 0#32 = 1#1
/-- The body's test "q = 3". -/
abbrev isLast (i : grid0.Coords) : Prop := k0_cond113 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLater_iff : ∀ t : Fin cfg0.N, isLater (grid0.coords t) ↔ t.val % 4 ≠ 0 :=
  (by decide +kernel : ∀ t : Fin grid0.N, isLater (grid0.coords t) ↔ t.val % 4 ≠ 0)
theorem isLast_iff : ∀ t : Fin cfg0.N, isLast (grid0.coords t) ↔ t.val % 4 = 3 :=
  (by decide +kernel : ∀ t : Fin grid0.N, isLast (grid0.coords t) ↔ t.val % 4 = 3)

/-- The inputs are never idle. -/
theorem live_in : ∀ (w : Fin 9) (t : Fin cfg0.N), cfg0.idle (w.castSucc) (grid0.coords t) = false := by decide +kernel
/-- The output window is idle exactly off the last visit, -/
theorem idle_out_iff : ∀ t : Fin cfg0.N, cfg0.idle 9 (grid0.coords t) = true ↔ t.val % 4 ≠ 3 := by decide +kernel
/-- and is written back exactly at the last visit (`flush0_9`). -/
theorem flush_out_iff : ∀ t : Fin cfg0.N, (cfg0.win 9).flush t = true ↔ t.val % 4 = 3 := flush0_9

/-- The scratch accumulator as the body receives it. -/
abbrev accM : Memref sig .tc .vmem S7x2048x128 .f32 := Memref.whole cc0_scratch0
abbrev accV : View sig .tc .vmem S7x2048x128 .f32 := (accM).view
/-- One staging buffer of the output window, through which its contents are stated. -/
abbrev outV : View sig .tc .vmem S256x50 .f32 := (Memref.whole cc0_stg9_0 : Memref sig .tc .vmem S256x50 .f32).view

end Cert.KernelIdeal.Hand

end
-- ==== Proof.KIRunFirst.lean ====
/-
  The whole body at a FIRST visit (q = 0): every tile of the accumulator is overwritten with that tile's zero-row
  indicator, nothing is added, the output block is not touched. The stores the body makes into the accumulator are
  found by running it; what is proved is that from the input blocks at any contents, the seen block, the output
  buffer and the accumulator at any contents, the body ends with the inputs as they were, the output buffer as it
  was, and the accumulator overwritten by those stores.
-/
import proofs.«168630_g34205119545578_cont_sun_m_983_19_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : isFirst i) (hq1 : ¬isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    { LA : List (View.Piece (Elt F) S7x2048x128 .f32) //
      ∀ (xo : Vec F S256x50 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) aS fullShare xs ∗ owns (c : Thread nD τ) aO fullShare xo ∗ owns (c : Thread nD τ) aA fullShare acc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ owns (c : Thread nD τ) aS fullShare xs ∗ owns (c : Thread nD τ) aO fullShare xo
                ∗ (∃ f, aA.view.loc (c : Thread nD τ) ↦[aA.view.set]{fullShare} aA.view.writes (Elt F) f LA)) -∗ K ⟨⟩))
          ⊢ wp frame (wpE (defs₀ (F := F)) Variants.none c none) E (cc0__probe_body i a0 h0 a1 h1 a2 h2 a3 h3 a4 h4 a5 h5 a6 h6 a7 h7 aS hS aO hO aA hA) K } := by
  refine ⟨?_, fun xo E K => ?run⟩
  case run =>
    simp only [cc0__probe_body_eq_skeleton]; unfold cc0__probe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fS, %hfS, HS⟩, ⟨%fO, %hfO, HO⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    obtain rfl := hS.eq_unread hfS; obtain rfl := hO.eq_unread hfO; obtain rfl := hA.eq_unread hfA
    sl_exec (disch := first | exact hq0 | exact hq1 | exact hq3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [HS]
    · iexists _; isplitr; · ipureintro; exact hS.read_unread _
      iexact HS
    isplitl [HO]
    · iexists _; isplitr; · ipureintro; exact hO.read_unread _
      iexact HO
    iexists _; iexact HA

end Cert.KernelIdeal.Hand

end
-- ==== Proof.KIRunMid.lean ====
/-
  The whole body at a MIDDLE visit (q = 1 or 2): every tile of the accumulator is read and has that tile's zero-row
  indicator added to it; nothing is overwritten afresh and the output block is not touched. From the input blocks,
  the seen block and the output buffer at any contents and the accumulator at `acc`, the body ends with the inputs
  and the output buffer as they were and the accumulator overwritten by the stores the run finds (each the sum of
  what was loaded from `acc` and the tile's indicator).
-/
import proofs.«168630_g34205119545578_cont_sun_m_983_19_alg».proof.Proof.KIRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMid (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    { LA : List (View.Piece (Elt F) S7x2048x128 .f32) //
      ∀ (xo : Vec F S256x50 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) aS fullShare xs ∗ owns (c : Thread nD τ) aO fullShare xo ∗ owns (c : Thread nD τ) aA fullShare acc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ owns (c : Thread nD τ) aS fullShare xs ∗ owns (c : Thread nD τ) aO fullShare xo
                ∗ (∃ f, aA.view.loc (c : Thread nD τ) ↦[aA.view.set]{fullShare} aA.view.writes (Elt F) f LA)) -∗ K ⟨⟩))
          ⊢ wp frame (wpE (defs₀ (F := F)) Variants.none c none) E (cc0__probe_body i a0 h0 a1 h1 a2 h2 a3 h3 a4 h4 a5 h5 a6 h6 a7 h7 aS hS aO hO aA hA) K } := by
  refine ⟨?_, fun xo E K => ?run⟩
  case run =>
    simp only [cc0__probe_body_eq_skeleton]; unfold cc0__probe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fS, %hfS, HS⟩, ⟨%fO, %hfO, HO⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    obtain rfl := hS.eq_unread hfS; obtain rfl := hO.eq_unread hfO; obtain rfl := hA.eq_unread hfA
    sl_exec (disch := first | exact hq0 | exact hq1 | exact hq3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [HS]
    · iexists _; isplitr; · ipureintro; exact hS.read_unread _
      iexact HS
    isplitl [HO]
    · iexists _; isplitr; · ipureintro; exact hO.read_unread _
      iexact HO
    iexists _; iexact HA

end Cert.KernelIdeal.Hand

end
-- ==== Proof.KIRunLast.lean ====
/-
  The whole body at the LAST visit (q = 3): every tile of the accumulator has that tile's indicator added, and then the
  output block is stored whole: the seen block plus, column by column, lane 0 of the accumulator's rows. From the
  inputs and the seen block at any contents, the output buffer at any contents and the accumulator at `acc`, the
  body ends with the inputs as they were, the accumulator overwritten by the stores the run finds, and the output
  buffer overwritten by the one store the run finds.
-/
import proofs.«168630_g34205119545578_cont_sun_m_983_19_alg».proof.Proof.KIRunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    Σ' (LO : List (View.Piece (Elt F) S256x50 .f32)), { LA : List (View.Piece (Elt F) S7x2048x128 .f32) //
      ∀ (xo : Vec F S256x50 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) aS fullShare xs ∗ owns (c : Thread nD τ) aO fullShare xo ∗ owns (c : Thread nD τ) aA fullShare acc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ owns (c : Thread nD τ) aS fullShare xs
                ∗ (∃ f, aO.view.loc (c : Thread nD τ) ↦[aO.view.set]{fullShare} aO.view.writes (Elt F) f LO)
                ∗ (∃ f, aA.view.loc (c : Thread nD τ) ↦[aA.view.set]{fullShare} aA.view.writes (Elt F) f LA)) -∗ K ⟨⟩))
          ⊢ wp frame (wpE (defs₀ (F := F)) Variants.none c none) E (cc0__probe_body i a0 h0 a1 h1 a2 h2 a3 h3 a4 h4 a5 h5 a6 h6 a7 h7 aS hS aO hO aA hA) K } := by
  refine ⟨?_, ?_, fun xo E K => ?run⟩
  case run =>
    simp only [cc0__probe_body_eq_skeleton]; unfold cc0__probe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fS, %hfS, HS⟩, ⟨%fO, %hfO, HO⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    obtain rfl := hS.eq_unread hfS; obtain rfl := hO.eq_unread hfO; obtain rfl := hA.eq_unread hfA
    sl_exec (disch := first | exact hq0 | exact hq1 | exact hq3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [HS]
    · iexists _; isplitr; · ipureintro; exact hS.read_unread _
      iexact HS
    isplitl [HO]
    · iexists _; iexact HO
    iexists _; iexact HA

end Cert.KernelIdeal.Hand

end
-- ==== Proof.KICanon.lean ====
/-
  The vocabulary the accumulator's contents are stated in.

  The accumulator is an array [7, 2048, 128]. Tile (j, t), for input stream j = 0..7 and row group t = 0..5, is the
  box [t, 256 j .. 256 j + 255, 0..127]: its row 8 c + r, every lane, belongs to row c of stream j's block and to
  column h = 8 t + r. The last row group (columns 48, 49) has two rows per block row: tile (j, 6) is the box
  [6, 64 j .. 64 j + 63, 0..127], row 2 c + r. Slab 6's rows 512..2047 are never touched. At a first visit every
  tile is overwritten with its indicator tile (1 where the row's absolute sum is zero); at a later visit every tile
  is replaced by itself plus its indicator tile. `rzAll` is the indicator of all tiles as ONE function of the
  accumulator's index, so that every store of a visit is a block of one function of the index.
-/
import proofs.«168630_g34205119545578_cont_sun_m_983_19_alg».proof.Proof.KIBase
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rows of channel 0 of an input block that row group `t` reads: columns 8 t .. 8 t + 7. -/
abbrev inRect8 (t : Fin 6) : Rect S32x2x50x64 :=
  Rect.unit ![0, 0, 8 * t.val, 0] S32x1x8x64.size (by intro a; have := t.isLt; fin_cases a <;> simp [Shape.size] <;> omega)
/-- The last row group reads columns 48, 49. -/
abbrev inRect2 : Rect S32x2x50x64 := Rect.unit ![0, 0, 48, 0] S32x1x2x64.size inb_S32x2x50x64_S32x1x2x64_0_0_48_0

/-- Those rows of a block. -/
abbrev in8 (xj : Vec F S32x2x50x64 .f32) (t : Fin 6) : Vec F S32x1x8x64 .f32 := View.ld xj (inRect8 t)
abbrev in2 (xj : Vec F S32x2x50x64 .f32) : Vec F S32x1x2x64 .f32 := View.ld xj inRect2

/-- Tile (j, t) of the accumulator, t < 6. -/
abbrev accRect8 (j : Fin 8) (t : Fin 6) : Rect S7x2048x128 :=
  Rect.unit ![t.val, 256 * j.val, 0] S1x256x128.size (by intro a; have := t.isLt; have := j.isLt; fin_cases a <;> simp [Shape.size] <;> omega)
/-- Tile (j, 6). -/
abbrev accRect2 (j : Fin 8) : Rect S7x2048x128 :=
  Rect.unit ![6, 64 * j.val, 0] S1x64x128.size (by intro a; have := j.isLt; fin_cases a <;> simp [Shape.size] <;> omega)

/-- The stores of a first visit into stream j's tiles, last first. -/
def colFirst (xj : Vec F S32x2x50x64 .f32) (j : Fin 8) : List (View.Piece (Elt F) S7x2048x128 .f32) :=
  [⟨accRect2 j, k0_pay49 (k0_pay6 (F := F)) (in2 xj)⟩, ⟨accRect8 j 5, k0_pay8 (in8 xj 5)⟩, ⟨accRect8 j 4, k0_pay8 (in8 xj 4)⟩, ⟨accRect8 j 3, k0_pay8 (in8 xj 3)⟩, ⟨accRect8 j 2, k0_pay8 (in8 xj 2)⟩, ⟨accRect8 j 1, k0_pay8 (in8 xj 1)⟩, ⟨accRect8 j 0, k0_pay8 (in8 xj 0)⟩]

/-- The stores of a later visit into stream j's tiles over the accumulator `A`, last first. -/
def colUpd (A : Vec F S7x2048x128 .f32) (xj : Vec F S32x2x50x64 .f32) (j : Fin 8) : List (View.Piece (Elt F) S7x2048x128 .f32) :=
  [⟨accRect2 j, k0_pay50 (k0_pay6 (F := F)) (in2 xj) (View.ld A (accRect2 j))⟩, ⟨accRect8 j 5, k0_pay9 (in8 xj 5) (View.ld A (accRect8 j 5))⟩, ⟨accRect8 j 4, k0_pay9 (in8 xj 4) (View.ld A (accRect8 j 4))⟩, ⟨accRect8 j 3, k0_pay9 (in8 xj 3) (View.ld A (accRect8 j 3))⟩, ⟨accRect8 j 2, k0_pay9 (in8 xj 2) (View.ld A (accRect8 j 2))⟩, ⟨accRect8 j 1, k0_pay9 (in8 xj 1) (View.ld A (accRect8 j 1))⟩, ⟨accRect8 j 0, k0_pay9 (in8 xj 0) (View.ld A (accRect8 j 0))⟩]

/-- All stores of a first visit, last first. -/
def firstList (X : Fin 8 → Vec F S32x2x50x64 .f32) : List (View.Piece (Elt F) S7x2048x128 .f32) :=
  colFirst (X 7) 7 ++ colFirst (X 6) 6 ++ colFirst (X 5) 5 ++ colFirst (X 4) 4 ++ colFirst (X 3) 3 ++ colFirst (X 2) 2 ++ colFirst (X 1) 1 ++ colFirst (X 0) 0

/-- All stores of a later visit over `A`, last first. -/
def updList (A : Vec F S7x2048x128 .f32) (X : Fin 8 → Vec F S32x2x50x64 .f32) : List (View.Piece (Elt F) S7x2048x128 .f32) :=
  colUpd A (X 7) 7 ++ colUpd A (X 6) 6 ++ colUpd A (X 5) 5 ++ colUpd A (X 4) 4 ++ colUpd A (X 3) 3 ++ colUpd A (X 2) 2 ++ colUpd A (X 1) 1 ++ colUpd A (X 0) 0

/-- The part of the accumulator the body ever touches: slabs 0..5 whole, rows 0..511 of slab 6. -/
def Cov (y : S7x2048x128.Idx) : Prop := (y 0).val < 6 ∨ (y 1).val < 512

/-- Two accumulators agree on that part. -/
def AgreeCov (A B : Vec F S7x2048x128 .f32) : Prop := ∀ y, Cov y → A y = B y

/-- The indicator of all tiles as one function of the accumulator's index (t, R, l): for t < 6 the indicator tile of
    stream R / 256, row group t, at row R % 256, lane l; for slab 6, of stream R / 64 (modulo 8 off the covered part,
    where the value is not used), at row R % 64. -/
def rzAll (X : Fin 8 → Vec F S32x2x50x64 .f32) (y : S7x2048x128.Idx) : F .f32 :=
  if h : (y 0).val < 6 then
    k0_pay7 (in8 (X ⟨(y 1).val / 256, by have := (y 1).isLt; simp [Shape.size] at this; omega⟩) ⟨(y 0).val, h⟩)
      (Idealize.ShloMosaic.ValueIdx.ix2 (⟨(y 1).val % 256, by omega⟩ : Fin 256) (⟨(y 2).val, (y 2).isLt⟩ : Fin 128))
  else
    k0_pay48 (k0_pay6 (F := F)) (in2 (X ⟨(y 1).val / 64 % 8, by omega⟩))
      (Idealize.ShloMosaic.ValueIdx.ix2 (⟨(y 1).val % 64, by omega⟩ : Fin 64) (⟨(y 2).val, (y 2).isLt⟩ : Fin 128))

/-- What a later visit leaves at an index: what was there plus the indicator. -/
def updAll (A : Vec F S7x2048x128 .f32) (X : Fin 8 → Vec F S32x2x50x64 .f32) (y : S7x2048x128.Idx) : F .f32 :=
  FloatOps.addf (A y) (rzAll X y)

/-- The seven boxes the last visit reads the accumulator through: slabs 0..5 whole and rows 0..511 of slab 6. -/
abbrev slabRect (s : Fin 6) : Rect S7x2048x128 :=
  Rect.unit ![s.val, 0, 0] S1x2048x128.size (by intro a; have := s.isLt; fin_cases a <;> simp [Shape.size] <;> omega)
abbrev slabRect6 : Rect S7x2048x128 := Rect.unit ![6, 0, 0] S1x512x128.size inb_S7x2048x128_S1x512x128_6_0_0

/-- The output block of a last visit from the seen block and the accumulator as the visit leaves it. -/
def emitOf (xs : Vec F S256x50 .f32) (A : Vec F S7x2048x128 .f32) : Vec F S256x50 .f32 :=
  k0_pay4 xs (k0_pay5 (View.ld A (slabRect 0)) (View.ld A (slabRect 1)) (View.ld A (slabRect 2)) (View.ld A (slabRect 3))
    (View.ld A (slabRect 4)) (View.ld A (slabRect 5)) (View.ld A slabRect6))

end Cert.KernelIdeal.Hand

end
-- ==== Proof.KIWitness.lean ====
/-
  The stores each whole-body run finds ARE the canonical lists: a first visit's stores into the accumulator are
  `firstList` of the eight input blocks, a later visit's `updList` of the accumulator it started from and the blocks,
  and the last visit's stores into the accumulator likewise. Each by opening the run's names and unfolding definitions.
-/
import proofs.«168630_g34205119545578_cont_sun_m_983_19_alg».proof.Proof.KIRunLast
import proofs.«168630_g34205119545578_cont_sun_m_983_19_alg».proof.Proof.KICanon
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The eight input blocks as one family. -/
abbrev X8 (x0 x1 x2 x3 x4 x5 x6 x7 : Vec F S32x2x50x64 .f32) : Fin 8 → Vec F S32x2x50x64 .f32 := ![x0, x1, x2, x3, x4, x5, x6, x7]

set_option maxHeartbeats 2000000 in
theorem first_eq (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : isFirst i) (hq1 : ¬isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runFirst c i a0 h0 a1 h1 a2 h2 a3 h3 a4 h4 a5 h5 a6 h6 a7 h7 aS hS aO hO aA hA hq0 hq1 hq3 x0 x1 x2 x3 x4 x5 x6 x7 xs acc).1 = firstList (X8 x0 x1 x2 x3 x4 x5 x6 x7) := by
  unfold runFirst
  dsimp only
  sl_unfold_words
  simp only [View.readAt_eq_ld, h0.read_unread, h1.read_unread, h2.read_unread, h3.read_unread, h4.read_unread, h5.read_unread, h6.read_unread, h7.read_unread]
  rfl

set_option maxHeartbeats 2000000 in
theorem mid_eq (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : ¬isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runMid c i a0 h0 a1 h1 a2 h2 a3 h3 a4 h4 a5 h5 a6 h6 a7 h7 aS hS aO hO aA hA hq0 hq1 hq3 x0 x1 x2 x3 x4 x5 x6 x7 xs acc).1 = updList acc (X8 x0 x1 x2 x3 x4 x5 x6 x7) := by
  unfold runMid
  dsimp only
  sl_unfold_words
  simp only [View.readAt_eq_ld, h0.read_unread, h1.read_unread, h2.read_unread, h3.read_unread, h4.read_unread, h5.read_unread, h6.read_unread, h7.read_unread, hA.read_unread]
  rfl

set_option maxHeartbeats 2000000 in
theorem last_eqA (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runLast c i a0 h0 a1 h1 a2 h2 a3 h3 a4 h4 a5 h5 a6 h6 a7 h7 aS hS aO hO aA hA hq0 hq1 hq3 x0 x1 x2 x3 x4 x5 x6 x7 xs acc).2.1 = updList acc (X8 x0 x1 x2 x3 x4 x5 x6 x7) := by
  unfold runLast
  dsimp only
  sl_unfold_words
  simp only [View.readAt_eq_ld, h0.read_unread, h1.read_unread, h2.read_unread, h3.read_unread, h4.read_unread, h5.read_unread, h6.read_unread, h7.read_unread, hA.read_unread]
  rfl

theorem zero2 : (![0, 0] : Fin 2 → Nat) = fun _ => 0 := by funext a; fin_cases a <;> rfl

end Cert.KernelIdeal.Hand

end
-- ==== Proof.KIState.lean ====
/-
  What the accumulator holds after each grid point, and the region's invariant.

  At point t the eight input streams' blocks are `XB t` and the seen block `SB t`. After a first visit (t ≡ 0 mod 4)
  the accumulator is, on the part the kernel uses, the indicator of all tiles of that point's blocks; after any other
  point it is what the point before left plus that point's indicator. Between points the invariant holds the
  accumulator at SOME contents that agree with this on the used part (slab 6's rows 512.. are never written, so
  their contents are never named).
-/
import proofs.«168630_g34205119545578_cont_sun_m_983_19_alg».proof.Proof.KIWitness
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers as the region finds them: @main has no operation before the region. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The eight input streams' blocks at point `t`. -/
abbrev XB (c : Dev nD) (t : Fin cfg0.N) : Fin 8 → Vec F S32x2x50x64 .f32 :=
  X8 (iblk m c 0 t) (iblk m c 1 t) (iblk m c 2 t) (iblk m c 3 t) (iblk m c 4 t) (iblk m c 5 t) (iblk m c 6 t) (iblk m c 7 t)
/-- The seen block at point `t`. -/
abbrev SB (c : Dev nD) (t : Fin cfg0.N) : Vec F S256x50 .f32 := iblk m c 8 t

/-- The accumulator after point `n`, on the part the kernel uses. -/
def accAt (c : Dev nD) : (n : ℕ) → n < cfg0.N → Vec F S7x2048x128 .f32
  | 0, h => rzAll (XB m c ⟨0, h⟩)
  | n + 1, h =>
    if (n + 1) % 4 = 0 then rzAll (XB m c ⟨n + 1, h⟩)
    else updAll (accAt c n (Nat.lt_of_succ_lt h)) (XB m c ⟨n + 1, h⟩)

theorem accAt_first (c : Dev nD) (t : Fin cfg0.N) (h0 : t.val % 4 = 0) : accAt m c t.val t.isLt = rzAll (XB m c t) := by
  obtain ⟨n, hn⟩ := t
  cases n with
  | zero => rfl
  | succ n => exact if_pos h0

theorem accAt_later (c : Dev nD) (t : Fin cfg0.N) (h0 : ¬t.val % 4 = 0) :
    accAt m c t.val t.isLt = updAll (accAt m c (t.val - 1) (Nat.lt_of_le_of_lt (Nat.sub_le _ _) t.isLt)) (XB m c t) := by
  obtain ⟨n, hn⟩ := t
  cases n with
  | zero => exact absurd (Nat.zero_mod _) h0
  | succ n => exact if_neg h0

/-- The invariant before point `n`: before the first point the scratch at anything; afterwards the scratch at contents
    agreeing, on the used part, with what the point before left; the generator register at some state throughout. -/
def PhiS (c : Dev nD) : (n : ℕ) → n ≤ cfg0.N → sProp 𝕄
  | 0, _ => Pipeline.ΦA spec0 c
  | n + 1, hn => iprop(iprop(∃ a, owns (c : Thread nD τ) accM fullShare a ∗ ⌜AgreeCov a (accAt m c n hn)⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ a, owns (c : Thread nD τ) accM fullShare a ∗ ⌜AgreeCov a (accAt m c n hn)⌝) ∗ (∃ r, prngReg c r)) := rfl

theorem PhiS_pos (c : Dev nD) (n : ℕ) (h : n ≤ cfg0.N) (hz : n ≠ 0) :
    PhiS m c n h = iprop(iprop(∃ a, owns (c : Thread nD τ) accM fullShare a ∗ ⌜AgreeCov a (accAt m c (n - 1) (by omega))⌝) ∗ (∃ r, prngReg c r)) := by
  cases n with
  | zero => exact absurd rfl hz
  | succ n => rfl

/-- The class invariant with the scratch as a memref owned at some contents. -/
theorem PhiA_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KIWitnessOut.lean ====
/-
  The last visit's one store into the output buffer is the whole block `emitOf` of the seen block and the
  accumulator as that visit's stores leave it: the seven loads of the accumulator after the stores read the canon
  of those stores. The run's value names are opened; the list of stores is kept under its name and compared once.
-/
import proofs.«168630_g34205119545578_cont_sun_m_983_19_alg».proof.Proof.KIWitness

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem last_eqO (c : Dev nD) (i : grid0.Coords) (a0 : Memref sig .tc .vmem S32x2x50x64 .f32) (h0 : a0.IsWhole) (a1 : Memref sig .tc .vmem S32x2x50x64 .f32) (h1 : a1.IsWhole) (a2 : Memref sig .tc .vmem S32x2x50x64 .f32) (h2 : a2.IsWhole) (a3 : Memref sig .tc .vmem S32x2x50x64 .f32) (h3 : a3.IsWhole) (a4 : Memref sig .tc .vmem S32x2x50x64 .f32) (h4 : a4.IsWhole) (a5 : Memref sig .tc .vmem S32x2x50x64 .f32) (h5 : a5.IsWhole) (a6 : Memref sig .tc .vmem S32x2x50x64 .f32) (h6 : a6.IsWhole) (a7 : Memref sig .tc .vmem S32x2x50x64 .f32) (h7 : a7.IsWhole)
    (aS : Memref sig .tc .vmem S256x50 .f32) (hS : aS.IsWhole) (aO : Memref sig .tc .vmem S256x50 .f32) (hO : aO.IsWhole)
    (aA : Memref sig .tc .vmem S7x2048x128 .f32) (hA : aA.IsWhole)
    (hq0 : ¬isFirst i) (hq1 : isLater i) (hq3 : isLast i)
    (x0 : Vec F S32x2x50x64 .f32) (x1 : Vec F S32x2x50x64 .f32) (x2 : Vec F S32x2x50x64 .f32) (x3 : Vec F S32x2x50x64 .f32) (x4 : Vec F S32x2x50x64 .f32) (x5 : Vec F S32x2x50x64 .f32) (x6 : Vec F S32x2x50x64 .f32) (x7 : Vec F S32x2x50x64 .f32) (xs : Vec F S256x50 .f32) (acc : Vec F S7x2048x128 .f32) :
    (runLast c i a0 h0 a1 h1 a2 h2 a3 h3 a4 h4 a5 h5 a6 h6 a7 h7 aS hS aO hO aA hA hq0 hq1 hq3 x0 x1 x2 x3 x4 x5 x6 x7 xs acc).1
      = [⟨Rect.unit ![0, 0] S256x50.size inb_S256x50_S256x50_0_0,
          emitOf xs (View.canon (updList acc (X8 x0 x1 x2 x3 x4 x5 x6 x7)))⟩] := by
  rw [← last_eqA c i a0 h0 a1 h1 a2 h2 a3 h3 a4 h4 a5 h5 a6 h6 a7 h7 aS hS aO hO aA hA hq0 hq1 hq3 x0 x1 x2 x3 x4 x5 x6 x7 xs acc]
  generalize hL : (runLast c i a0 h0 a1 h1 a2 h2 a3 h3 a4 h4 a5 h5 a6 h6 a7 h7 aS hS aO hO aA hA hq0 hq1 hq3 x0 x1 x2 x3 x4 x5 x6 x7 xs acc).2.1 = L
  unfold runLast at hL ⊢
  dsimp only at hL ⊢
  unfold runLast.sl.v880 runLast.sl.r_22
  unfold runLast.sl.v848 runLast.sl.v853 runLast.sl.v858 runLast.sl.v863 runLast.sl.v868 runLast.sl.v873 runLast.sl.v878
  unfold runLast.sl.v847 runLast.sl.v852 runLast.sl.v857 runLast.sl.v862 runLast.sl.v867 runLast.sl.v872 runLast.sl.v877
  unfold runLast.sl.v846 runLast.sl.v851 runLast.sl.v856 runLast.sl.v861 runLast.sl.v866 runLast.sl.v871 runLast.sl.v876
  unfold runLast.sl.v845 runLast.sl.v850 runLast.sl.v855 runLast.sl.v860 runLast.sl.v865 runLast.sl.v870 runLast.sl.v875
  unfold runLast.sl.v844_55 runLast.sl.v849 runLast.sl.v854 runLast.sl.v859 runLast.sl.v864 runLast.sl.v869 runLast.sl.v874
  rw [hL]
  simp only [View.readAt_eq_ld, hS.read_unread, View.ld_unit_zero (S := S256x50) zero2]
  repeat rw [View.readCov_eq_canon' aA.view L]
  rfl

end Cert.KernelIdeal.Hand

end
-- ==== Proof.KIPieceFacts.lean ====
/-
  Facts about the stores of one visit into the accumulator [7, 2048, 128].

  Every store of a first visit writes, at each index of its tile, the value of ONE function of the accumulator's
  index (the indicator `rzAll`); every store of a later visit over the accumulator `A` writes the value of
  `updAll A`. The tiles cover slabs 0..5 whole and rows 0..511 of slab 6. Hence the contents the stores leave
  are that one function wherever the kernel reads.
-/
import proofs.«168630_g34205119545578_cont_sun_m_983_19_alg».proof.Proof.KICanon
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

theorem emb8_0 (j : Fin 8) (t : Fin 6) (R : Fin 256) (l : Fin 128) :
    (((accRect8 j t).emb (ix3 (0 : Fin 1) R l)) 0).val = t.val := by
  rw [Rect.emb_apply]; simp
theorem emb8_1 (j : Fin 8) (t : Fin 6) (R : Fin 256) (l : Fin 128) :
    (((accRect8 j t).emb (ix3 (0 : Fin 1) R l)) 1).val = 256 * j.val + R.val := by
  rw [Rect.emb_apply]; simp
theorem emb8_2 (j : Fin 8) (t : Fin 6) (R : Fin 256) (l : Fin 128) :
    (((accRect8 j t).emb (ix3 (0 : Fin 1) R l)) 2).val = l.val := by
  rw [Rect.emb_apply]; simp

theorem emb2_0 (j : Fin 8) (R : Fin 64) (l : Fin 128) :
    (((accRect2 j).emb (ix3 (0 : Fin 1) R l)) 0).val = 6 := by
  rw [Rect.emb_apply]; simp
theorem emb2_1 (j : Fin 8) (R : Fin 64) (l : Fin 128) :
    (((accRect2 j).emb (ix3 (0 : Fin 1) R l)) 1).val = 64 * j.val + R.val := by
  rw [Rect.emb_apply]; simp
theorem emb2_2 (j : Fin 8) (R : Fin 64) (l : Fin 128) :
    (((accRect2 j).emb (ix3 (0 : Fin 1) R l)) 2).val = l.val := by
  rw [Rect.emb_apply]; simp

/-- Tile (j, t) of a first visit is the block of the indicator its box names. -/
theorem tile8_first (X : Fin 8 → Vec F S32x2x50x64 .f32) (j : Fin 8) (t : Fin 6) (R : Fin 256) (l : Fin 128) :
    k0_pay8 (in8 (X j) t) (ix3 (0 : Fin 1) R l) = rzAll X ((accRect8 j t).emb (ix3 (0 : Fin 1) R l)) := by
  have h0 := emb8_0 j t R l
  have h1 := emb8_1 j t R l
  have h2 := emb8_2 j t R l
  unfold rzAll
  rw [dif_pos (by rw [h0]; exact t.isLt)]
  unfold k0_pay8
  rw [shapeCast_ab_1ab_apply]
  congr 3
  · refine Fin.ext ?_; dsimp only; rw [h1]; omega
  · refine Fin.ext ?_; dsimp only; rw [h1]; omega
  · refine Fin.ext ?_; dsimp only; rw [h2]

/-- Tile (j, t) of a later visit over `A` is the block of `updAll A` its box names. -/
theorem tile8_upd (A : Vec F S7x2048x128 .f32) (X : Fin 8 → Vec F S32x2x50x64 .f32) (j : Fin 8) (t : Fin 6) (R : Fin 256) (l : Fin 128) :
    k0_pay9 (in8 (X j) t) (View.ld A (accRect8 j t)) (ix3 (0 : Fin 1) R l) = updAll A X ((accRect8 j t).emb (ix3 (0 : Fin 1) R l)) := by
  unfold updAll
  rw [← tile8_first X j t R l]
  unfold k0_pay9 k0_pay8
  rw [shapeCast_ab_1ab_apply, shapeCast_ab_1ab_apply]
  show FloatOps.addf (shapeCast S256x128 (View.ld A (accRect8 j t)) shapeCasts_S1x256x128_S256x128 (ix2 R l)) _ = _
  rw [shapeCast_1ab_ab_apply]
  rfl

/-- Tile (j, 6) of a first visit. -/
theorem tile2_first (X : Fin 8 → Vec F S32x2x50x64 .f32) (j : Fin 8) (R : Fin 64) (l : Fin 128) :
    k0_pay49 (k0_pay6 (F := F)) (in2 (X j)) (ix3 (0 : Fin 1) R l) = rzAll X ((accRect2 j).emb (ix3 (0 : Fin 1) R l)) := by
  have h0 := emb2_0 j R l
  have h1 := emb2_1 j R l
  have h2 := emb2_2 j R l
  unfold rzAll
  rw [dif_neg (by rw [h0]; omega)]
  unfold k0_pay49
  rw [shapeCast_ab_1ab_apply]
  congr 3
  · refine Fin.ext ?_; dsimp only; rw [h1]; have := j.isLt; omega
  · refine Fin.ext ?_; dsimp only; rw [h1]; omega
  · refine Fin.ext ?_; dsimp only; rw [h2]

/-- Tile (j, 6) of a later visit over `A`. -/
theorem tile2_upd (A : Vec F S7x2048x128 .f32) (X : Fin 8 → Vec F S32x2x50x64 .f32) (j : Fin 8) (R : Fin 64) (l : Fin 128) :
    k0_pay50 (k0_pay6 (F := F)) (in2 (X j)) (View.ld A (accRect2 j)) (ix3 (0 : Fin 1) R l) = updAll A X ((accRect2 j).emb (ix3 (0 : Fin 1) R l)) := by
  unfold updAll
  rw [← tile2_first X j R l]
  unfold k0_pay50 k0_pay49
  rw [shapeCast_ab_1ab_apply, shapeCast_ab_1ab_apply]
  show FloatOps.addf (shapeCast S64x128 (View.ld A (accRect2 j)) shapeCasts_S1x64x128_S64x128 (ix2 R l)) _ = _
  rw [shapeCast_1ab_ab_apply]
  rfl

/-- The tile lemmas at every index of the box. -/
theorem piece8_first (X : Fin 8 → Vec F S32x2x50x64 .f32) (j : Fin 8) (t : Fin 6) (x : (accRect8 j t).shape.Idx) :
    k0_pay8 (in8 (X j) t) x = rzAll X ((accRect8 j t).emb x) := by
  obtain ⟨z, R, l, rfl⟩ : ∃ (z : Fin 1) (R : Fin 256) (l : Fin 128), x = ix3 z R l := ⟨x 0, x 1, x 2, eq_ix3 x⟩
  obtain rfl : z = 0 := Subsingleton.elim _ _
  exact tile8_first X j t R l
theorem piece8_upd (A : Vec F S7x2048x128 .f32) (X : Fin 8 → Vec F S32x2x50x64 .f32) (j : Fin 8) (t : Fin 6) (x : (accRect8 j t).shape.Idx) :
    k0_pay9 (in8 (X j) t) (View.ld A (accRect8 j t)) x = updAll A X ((accRect8 j t).emb x) := by
  obtain ⟨z, R, l, rfl⟩ : ∃ (z : Fin 1) (R : Fin 256) (l : Fin 128), x = ix3 z R l := ⟨x 0, x 1, x 2, eq_ix3 x⟩
  obtain rfl : z = 0 := Subsingleton.elim _ _
  exact tile8_upd A X j t R l
theorem piece2_first (X : Fin 8 → Vec F S32x2x50x64 .f32) (j : Fin 8) (x : (accRect2 j).shape.Idx) :
    k0_pay49 (k0_pay6 (F := F)) (in2 (X j)) x = rzAll X ((accRect2 j).emb x) := by
  obtain ⟨z, R, l, rfl⟩ : ∃ (z : Fin 1) (R : Fin 64) (l : Fin 128), x = ix3 z R l := ⟨x 0, x 1, x 2, eq_ix3 x⟩
  obtain rfl : z = 0 := Subsingleton.elim _ _
  exact tile2_first X j R l
theorem piece2_upd (A : Vec F S7x2048x128 .f32) (X : Fin 8 → Vec F S32x2x50x64 .f32) (j : Fin 8) (x : (accRect2 j).shape.Idx) :
    k0_pay50 (k0_pay6 (F := F)) (in2 (X j)) (View.ld A (accRect2 j)) x = updAll A X ((accRect2 j).emb x) := by
  obtain ⟨z, R, l, rfl⟩ : ∃ (z : Fin 1) (R : Fin 64) (l : Fin 128), x = ix3 z R l := ⟨x 0, x 1, x 2, eq_ix3 x⟩
  obtain rfl : z = 0 := Subsingleton.elim _ _
  exact tile2_upd A X j R l

/-- Every store of stream j's column is a block of the one function. -/
theorem col_first (X : Fin 8 → Vec F S32x2x50x64 .f32) (j : Fin 8) :
    ∀ p ∈ colFirst (X j) j, ∀ x : p.1.shape.Idx, p.2 x = rzAll X (p.1.emb x) := by
  intro p hp
  simp only [colFirst, List.mem_cons, List.mem_nil_iff, or_false] at hp
  rcases hp with rfl | rfl | rfl | rfl | rfl | rfl | rfl
  · exact piece2_first X j
  · exact piece8_first X j 5
  · exact piece8_first X j 4
  · exact piece8_first X j 3
  · exact piece8_first X j 2
  · exact piece8_first X j 1
  · exact piece8_first X j 0
theorem col_upd (A : Vec F S7x2048x128 .f32) (X : Fin 8 → Vec F S32x2x50x64 .f32) (j : Fin 8) :
    ∀ p ∈ colUpd A (X j) j, ∀ x : p.1.shape.Idx, p.2 x = updAll A X (p.1.emb x) := by
  intro p hp
  simp only [colUpd, List.mem_cons, List.mem_nil_iff, or_false] at hp
  rcases hp with rfl | rfl | rfl | rfl | rfl | rfl | rfl
  · exact piece2_upd A X j
  · exact piece8_upd A X j 5
  · exact piece8_upd A X j 4
  · exact piece8_upd A X j 3
  · exact piece8_upd A X j 2
  · exact piece8_upd A X j 1
  · exact piece8_upd A X j 0

theorem all_first (X : Fin 8 → Vec F S32x2x50x64 .f32) :
    ∀ p ∈ firstList X, ∀ x : p.1.shape.Idx, p.2 x = rzAll X (p.1.emb x) := by
  intro p hp
  simp only [firstList, List.mem_append] at hp
  rcases hp with ((((((hp | hp) | hp) | hp) | hp) | hp) | hp) | hp
  · exact col_first X 7 p hp
  · exact col_first X 6 p hp
  · exact col_first X 5 p hp
  · exact col_first X 4 p hp
  · exact col_first X 3 p hp
  · exact col_first X 2 p hp
  · exact col_first X 1 p hp
  · exact col_first X 0 p hp
theorem all_upd (A : Vec F S7x2048x128 .f32) (X : Fin 8 → Vec F S32x2x50x64 .f32) :
    ∀ p ∈ updList A X, ∀ x : p.1.shape.Idx, p.2 x = updAll A X (p.1.emb x) := by
  intro p hp
  simp only [updList, List.mem_append] at hp
  rcases hp with ((((((hp | hp) | hp) | hp) | hp) | hp) | hp) | hp
  · exact col_upd A X 7 p hp
  · exact col_upd A X 6 p hp
  · exact col_upd A X 5 p hp
  · exact col_upd A X 4 p hp
  · exact col_upd A X 3 p hp
  · exact col_upd A X 2 p hp
  · exact col_upd A X 1 p hp
  · exact col_upd A X 0 p hp

/-- Tile (j, t) is among stream j's stores, -/
theorem mem_col8_first (xj : Vec F S32x2x50x64 .f32) (j : Fin 8) (t : Fin 6) :
    (⟨accRect8 j t, k0_pay8 (in8 xj t)⟩ : View.Piece (Elt F) S7x2048x128 .f32) ∈ colFirst xj j := by
  unfold colFirst
  fin_cases t
  · exact List.Mem.tail _ (List.Mem.tail _ (List.Mem.tail _ (List.Mem.tail _ (List.Mem.tail _ (List.Mem.tail _ (List.Mem.head _))))))
  · exact List.Mem.tail _ (List.Mem.tail _ (List.Mem.tail _ (List.Mem.tail _ (List.Mem.tail _ (List.Mem.head _)))))
  · exact List.Mem.tail _ (List.Mem.tail _ (List.Mem.tail _ (List.Mem.tail _ (List.Mem.head _))))
  · exact List.Mem.tail _ (List.Mem.tail _ (List.Mem.tail _ (List.Mem.head _)))
  · exact List.Mem.tail _ (List.Mem.tail _ (List.Mem.head _))
  · exact List.Mem.tail _ (List.Mem.head _)
theorem mem_col2_first (xj : Vec F S32x2x50x64 .f32) (j : Fin 8) :
    (⟨accRect2 j, k0_pay49 (k0_pay6 (F := F)) (in2 xj)⟩ : View.Piece (Elt F) S7x2048x128 .f32) ∈ colFirst xj j := by
  unfold colFirst
  exact List.Mem.head _
theorem mem_col8_upd (A : Vec F S7x2048x128 .f32) (xj : Vec F S32x2x50x64 .f32) (j : Fin 8) (t : Fin 6) :
    (⟨accRect8 j t, k0_pay9 (in8 xj t) (View.ld A (accRect8 j t))⟩ : View.Piece (Elt F) S7x2048x128 .f32) ∈ colUpd A xj j := by
  unfold colUpd
  fin_cases t
  · exact List.Mem.tail _ (List.Mem.tail _ (List.Mem.tail _ (List.Mem.tail _ (List.Mem.tail _ (List.Mem.tail _ (List.Mem.head _))))))
  · exact List.Mem.tail _ (List.Mem.tail _ (List.Mem.tail _ (List.Mem.tail _ (List.Mem.tail _ (List.Mem.head _)))))
  · exact List.Mem.tail _ (List.Mem.tail _ (List.Mem.tail _ (List.Mem.tail _ (List.Mem.head _))))
  · exact List.Mem.tail _ (List.Mem.tail _ (List.Mem.tail _ (List.Mem.head _)))
  · exact List.Mem.tail _ (List.Mem.tail _ (List.Mem.head _))
  · exact List.Mem.tail _ (List.Mem.head _)
theorem mem_col2_upd (A : Vec F S7x2048x128 .f32) (xj : Vec F S32x2x50x64 .f32) (j : Fin 8) :
    (⟨accRect2 j, k0_pay50 (k0_pay6 (F := F)) (in2 xj) (View.ld A (accRect2 j))⟩ : View.Piece (Elt F) S7x2048x128 .f32) ∈ colUpd A xj j := by
  unfold colUpd
  exact List.Mem.head _

/-- and stream j's stores are among all stores. -/
theorem mem_first (X : Fin 8 → Vec F S32x2x50x64 .f32) (j : Fin 8) (p : View.Piece (Elt F) S7x2048x128 .f32)
    (hp : p ∈ colFirst (X j) j) : p ∈ firstList X := by
  simp only [firstList, List.mem_append]
  fin_cases j
  · exact Or.inr hp
  · exact Or.inl (Or.inr hp)
  · exact Or.inl (Or.inl (Or.inr hp))
  · exact Or.inl (Or.inl (Or.inl (Or.inr hp)))
  · exact Or.inl (Or.inl (Or.inl (Or.inl (Or.inr hp))))
  · exact Or.inl (Or.inl (Or.inl (Or.inl (Or.inl (Or.inr hp)))))
  · exact Or.inl (Or.inl (Or.inl (Or.inl (Or.inl (Or.inl (Or.inr hp))))))
  · exact Or.inl (Or.inl (Or.inl (Or.inl (Or.inl (Or.inl (Or.inl (hp)))))))
theorem mem_upd (A : Vec F S7x2048x128 .f32) (X : Fin 8 → Vec F S32x2x50x64 .f32) (j : Fin 8) (p : View.Piece (Elt F) S7x2048x128 .f32)
    (hp : p ∈ colUpd A (X j) j) : p ∈ updList A X := by
  simp only [updList, List.mem_append]
  fin_cases j
  · exact Or.inr hp
  · exact Or.inl (Or.inr hp)
  · exact Or.inl (Or.inl (Or.inr hp))
  · exact Or.inl (Or.inl (Or.inl (Or.inr hp)))
  · exact Or.inl (Or.inl (Or.inl (Or.inl (Or.inr hp))))
  · exact Or.inl (Or.inl (Or.inl (Or.inl (Or.inl (Or.inr hp)))))
  · exact Or.inl (Or.inl (Or.inl (Or.inl (Or.inl (Or.inl (Or.inr hp))))))
  · exact Or.inl (Or.inl (Or.inl (Or.inl (Or.inl (Or.inl (Or.inl (hp)))))))

/-- An index of slab t whose row lies in stream j's group of 256 is in tile (j, t). -/
theorem mem_accRect8 (j : Fin 8) (t : Fin 6) (y : S7x2048x128.Idx) (h0 : (y 0).val = t.val)
    (h1 : 256 * j.val ≤ (y 1).val) (h1' : (y 1).val < 256 * j.val + 256) : y ∈ (accRect8 j t).set := by
  have h2 : (y 2).val < 128 := (y 2).isLt
  rw [Rect.mem_set_unit]
  intro a
  match a with
  | ⟨0, _⟩ => show t.val ≤ (y 0).val ∧ (y 0).val < t.val + 1; omega
  | ⟨1, _⟩ => show 256 * j.val ≤ (y 1).val ∧ (y 1).val < 256 * j.val + 256; omega
  | ⟨2, _⟩ => show 0 ≤ (y 2).val ∧ (y 2).val < 0 + 128; omega
/-- An index of slab 6 whose row lies in stream j's group of 64 is in tile (j, 6). -/
theorem mem_accRect2 (j : Fin 8) (y : S7x2048x128.Idx) (h0 : (y 0).val = 6)
    (h1 : 64 * j.val ≤ (y 1).val) (h1' : (y 1).val < 64 * j.val + 64) : y ∈ (accRect2 j).set := by
  have h2 : (y 2).val < 128 := (y 2).isLt
  rw [Rect.mem_set_unit]
  intro a
  match a with
  | ⟨0, _⟩ => show 6 ≤ (y 0).val ∧ (y 0).val < 6 + 1; omega
  | ⟨1, _⟩ => show 64 * j.val ≤ (y 1).val ∧ (y 1).val < 64 * j.val + 64; omega
  | ⟨2, _⟩ => show 0 ≤ (y 2).val ∧ (y 2).val < 0 + 128; omega

/-- The stores of a first visit cover the part of the accumulator the kernel uses. -/
theorem cover_first (X : Fin 8 → Vec F S32x2x50x64 .f32) (y : S7x2048x128.Idx) (hy : Cov y) : ∃ p ∈ firstList X, y ∈ p.1.set := by
  have hy0 : (y 0).val < 7 := (y 0).isLt
  have hy1 : (y 1).val < 2048 := (y 1).isLt
  by_cases h : (y 0).val < 6
  · exact ⟨_, mem_first X ⟨(y 1).val / 256, by omega⟩ _ (mem_col8_first _ _ ⟨(y 0).val, h⟩),
      mem_accRect8 _ _ y rfl (by dsimp only; omega) (by dsimp only; omega)⟩
  · have h1 : (y 1).val < 512 := by rcases hy with hy | hy; exact absurd hy h; exact hy
    exact ⟨_, mem_first X ⟨(y 1).val / 64, by omega⟩ _ (mem_col2_first _ _),
      mem_accRect2 _ y (by omega) (by dsimp only; omega) (by dsimp only; omega)⟩

/-- The stores of a later visit cover the same part. -/
theorem cover_upd (A : Vec F S7x2048x128 .f32) (X : Fin 8 → Vec F S32x2x50x64 .f32) (y : S7x2048x128.Idx) (hy : Cov y) : ∃ p ∈ updList A X, y ∈ p.1.set := by
  have hy0 : (y 0).val < 7 := (y 0).isLt
  have hy1 : (y 1).val < 2048 := (y 1).isLt
  by_cases h : (y 0).val < 6
  · exact ⟨_, mem_upd A X ⟨(y 1).val / 256, by omega⟩ _ (mem_col8_upd A _ _ ⟨(y 0).val, h⟩),
      mem_accRect8 _ _ y rfl (by dsimp only; omega) (by dsimp only; omega)⟩
  · have h1 : (y 1).val < 512 := by rcases hy with hy | hy; exact absurd hy h; exact hy
    exact ⟨_, mem_upd A X ⟨(y 1).val / 64, by omega⟩ _ (mem_col2_upd A _ _),
      mem_accRect2 _ y (by omega) (by dsimp only; omega) (by dsimp only; omega)⟩

/-- What a first visit leaves, wherever the kernel reads: the indicator. -/
theorem canon_first (X : Fin 8 → Vec F S32x2x50x64 .f32) (y : S7x2048x128.Idx) (hy : Cov y) : View.canon (firstList X) y = rzAll X y :=
  View.canon_apply_of_pieces (rzAll X) (firstList X) (all_first X) y (cover_first X y hy)

/-- What a later visit over `A` leaves, wherever the kernel reads: `A` plus the indicator. -/
theorem canon_upd (A : Vec F S7x2048x128 .f32) (X : Fin 8 → Vec F S32x2x50x64 .f32) (y : S7x2048x128.Idx) (hy : Cov y) : View.canon (updList A X) y = updAll A X y :=
  View.canon_apply_of_pieces (updAll A X) (updList A X) (all_upd A X) y (cover_upd A X y hy)

/-- A later visit keeps agreement on the covered part. -/
theorem updAll_agree (A B : Vec F S7x2048x128 .f32) (X : Fin 8 → Vec F S32x2x50x64 .f32) (h : AgreeCov A B) : AgreeCov (updAll A X) (updAll B X) :=
  fun y hy => by unfold updAll; rw [h y hy]

/-- A load through a whole slab s < 6 reads only covered indices, -/
theorem ld_slab_agree (A B : Vec F S7x2048x128 .f32) (h : AgreeCov A B) (s : Fin 6) :
    View.ld A (slabRect s) = View.ld B (slabRect s) := by
  funext x
  show A ((slabRect s).emb x) = B ((slabRect s).emb x)
  apply h
  have hx : (x 0).val < 1 := (x 0).isLt
  have e : (((slabRect s).emb x) 0).val = s.val + 1 * (x 0).val := Rect.emb_apply _ x 0
  exact Or.inl (by rw [e]; omega)
/-- and so does the load of rows 0..511 of slab 6. -/
theorem ld_slab6_agree (A B : Vec F S7x2048x128 .f32) (h : AgreeCov A B) :
    View.ld A slabRect6 = View.ld B slabRect6 := by
  funext x
  show A (slabRect6.emb x) = B (slabRect6.emb x)
  apply h
  have hx : (x 1).val < 512 := (x 1).isLt
  have e : ((slabRect6.emb x) 1).val = 0 + 1 * (x 1).val := Rect.emb_apply _ x 1
  exact Or.inr (by rw [e]; omega)

/-- The output block of a last visit depends on the accumulator only through its covered part. -/
theorem emitOf_agree (xs : Vec F S256x50 .f32) (A B : Vec F S7x2048x128 .f32) (h : AgreeCov A B) : emitOf xs A = emitOf xs B := by
  unfold emitOf
  rw [ld_slab_agree A B h 0, ld_slab_agree A B h 1, ld_slab_agree A B h 2, ld_slab_agree A B h 3,
    ld_slab_agree A B h 4, ld_slab_agree A B h 5, ld_slab6_agree A B h]

end Cert.KernelIdeal.Hand

end
-- ==== Proof.KILaunch.lean ====
/-
  The launch of the kernel's one region. Eight of its ten windows read one array, so the region is entered with that
  array's full share cut into eight leaves of the share tree, one per window; the ninth input and the output hold their
  arrays whole. This module fixes the eight leaves, derives the run of the program from a body obligation over proof
  data that lend exactly those shares, and reads off the run that the two input arrays end as they began.
-/
import proofs.«168630_g34205119545578_cont_sun_m_983_19_alg».proof.Proof.KIBase
import Idealize.ShloMosaic.Lib.Pipeline.Launch
import Idealize.ShloMosaic.Lib.Pipeline.Frame
import Idealize.ShloMosaic.Lib.Pipeline.Kit
import Idealize.ShloMosaic.Lib.Pipeline.Cells
import Idealize.ShloMosaic.Lib.Pipeline.Dat
import Idealize.ShloMosaic.Rules.PointsTo
import Idealize.SL.RA.TreeShare

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- the share of main_arg0 each of the eight input windows on it holds; the other windows the full share -/
def shareOf : Fin 10 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right
  | 8 => fullShare
  | 9 => fullShare

/-- A whole buffer held at a share is held at the share's two halves. -/
theorem halve {ℓ : Loc nD τ sig} (q : PosShare TreeShare) (f : Buf (Elt F) ℓ) :
    (ℓ ↦{q} f : sProp 𝕄) ⊢ iprop((ℓ ↦{q.left} f) ∗ ℓ ↦{q.right} f) :=
  (pointsTo_share (PosShare.mem_left_op_right q)).1

/-- The full share of a whole buffer cut three times: the eight leaves at depth three, left to right. -/
theorem eighths {ℓ : Loc nD τ sig} (f : Buf (Elt F) ℓ) :
    (ℓ ↦{fullShare} f : sProp 𝕄) ⊢ iprop((ℓ ↦{fullShare.left.left.left} f) ∗ (ℓ ↦{fullShare.left.left.right} f)
      ∗ (ℓ ↦{fullShare.left.right.left} f) ∗ (ℓ ↦{fullShare.left.right.right} f)
      ∗ (ℓ ↦{fullShare.right.left.left} f) ∗ (ℓ ↦{fullShare.right.left.right} f)
      ∗ (ℓ ↦{fullShare.right.right.left} f) ∗ (ℓ ↦{fullShare.right.right.right} f)) := by
  iintro H
  ihave H := (halve fullShare f) $$ H
  icases H with ⟨HL, HR⟩
  ihave HL := (halve fullShare.left f) $$ HL
  icases HL with ⟨HLL, HLR⟩
  ihave HR := (halve fullShare.right f) $$ HR
  icases HR with ⟨HRL, HRR⟩
  ihave HLL := (halve fullShare.left.left f) $$ HLL
  icases HLL with ⟨H0, H1⟩
  ihave HLR := (halve fullShare.left.right f) $$ HLR
  icases HLR with ⟨H2, H3⟩
  ihave HRL := (halve fullShare.right.left f) $$ HRL
  icases HRL with ⟨H4, H5⟩
  ihave HRR := (halve fullShare.right.right f) $$ HRR
  icases HRR with ⟨H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Proof data that lend the eight leaves hold every window's array at `shareOf`: the output is the one window held
    at the full share whatever the data lend. -/
theorem share_eq {c : Dev nD} (dat : Dat τ (Elt F) Unit ℕ (UR sig nD τ) ℕ cfg0 c) (hq : ∀ w, dat.q w = shareOf w) (w : Fin 10) :
    dat.share w = shareOf w := by
  unfold Dat.share
  split
  · next h =>
    obtain rfl : w = 9 := (by decide : ∀ w : Fin 10, (cfg0.win w).isOut = true → w = 9) w h
    rfl
  · exact hq w

/-- The three buffers behind the ten windows' arrays, each whole at the full share, make the windows' arrays at the
    region's entry: main_arg0's full share is dealt in eighths to windows 0..7, main_arg1 and main_v0 pass whole. -/
theorem arrays_of_bufs (c : Dev nD) (dat : Dat τ (Elt F) Unit ℕ (UR sig nD τ) ℕ cfg0 c)
    (V : (b : Ref sig .tc) → Buf (Elt F) ((c.tc : Thread nD τ).loc b))
    (hq : ∀ w, dat.q w = shareOf w) (hA : ∀ w, dat.A w = V (Pipeline.arrRef spec0 w)) :
    (Pipeline.arrBufs spec0 c V : sProp 𝕄) ⊢ dat.arrays (dat.arrAt · 0) := by
  have himg : Finset.univ.image (Pipeline.arrRef spec0) = [main_arg0, main_arg1, main_v0].toFinset := by decide
  have hcongr : dat.arrays (dat.arrAt · 0)
      = bigSep Finset.univ fun w : Fin 10 =>
          (((c.tc : Thread nD τ).loc (Pipeline.arrRef spec0 w)) ↦{shareOf w} V (Pipeline.arrRef spec0 w) : sProp 𝕄) := by
    unfold Dat.arrays
    exact bigSep_congr fun w _ => by
      rw [(arr_whole0 w).set_eq_univ, share_eq dat hq w]
      show ((cfg0.win w).arr.view.loc (c.tc : Thread nD τ) ↦{shareOf w} dat.A w : sProp 𝕄) = _
      rw [hA w]
  unfold Pipeline.arrBufs
  rw [hcongr, bigSep_eq_bigSepL_of_eq _ himg (by decide), bigSep_W0]
  show iprop((((c.tc : Thread nD τ).loc main_arg0) ↦{fullShare} V main_arg0) ∗ (((c.tc : Thread nD τ).loc main_arg1) ↦{fullShare} V main_arg1)
      ∗ (((c.tc : Thread nD τ).loc main_v0) ↦{fullShare} V main_v0))
    ⊢ iprop((((c.tc : Thread nD τ).loc main_arg0) ↦{fullShare.left.left.left} V main_arg0)
      ∗ (((c.tc : Thread nD τ).loc main_arg0) ↦{fullShare.left.left.right} V main_arg0)
      ∗ (((c.tc : Thread nD τ).loc main_arg0) ↦{fullShare.left.right.left} V main_arg0)
      ∗ (((c.tc : Thread nD τ).loc main_arg0) ↦{fullShare.left.right.right} V main_arg0)
      ∗ (((c.tc : Thread nD τ).loc main_arg0) ↦{fullShare.right.left.left} V main_arg0)
      ∗ (((c.tc : Thread nD τ).loc main_arg0) ↦{fullShare.right.left.right} V main_arg0)
      ∗ (((c.tc : Thread nD τ).loc main_arg0) ↦{fullShare.right.right.left} V main_arg0)
      ∗ (((c.tc : Thread nD τ).loc main_arg0) ↦{fullShare.right.right.right} V main_arg0)
      ∗ (((c.tc : Thread nD τ).loc main_arg1) ↦{fullShare} V main_arg1)
      ∗ (((c.tc : Thread nD τ).loc main_v0) ↦{fullShare} V main_v0))
  iintro ⟨H0, H1, Hv⟩
  ihave H0 := (eighths (V main_arg0)) $$ H0
  icases H0 with ⟨G0, G1, G2, G3, G4, G5, G6, G7⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [H1]; · iexact H1
  iexact Hv

/-! ## What the launch routes on one core

Beside the arrays, the launch holds on a core: the unscoped buffers that are no window's array, the kernel's own
semaphores (it has none), the unscoped semaphores, the levels, the generator register at its launch state, and the
user ghost state (none). The region's invariant takes the register, at whatever state; the buffers that bypass the
region are kept aside and read back against the final memory. -/

/-- Entering: the register goes to the invariant with its state forgotten, the bypassing buffers `R` are kept. -/
theorem entry_keep (c : Dev nD) (g : PrngReg) (R A B C' D : sProp 𝕄) :
    iprop(R ∗ A ∗ B ∗ C' ∗ prngReg c g ∗ D) ⊢ |={Set.univ}=> iprop((∃ r, prngReg c r) ∗ R) := by
  iintro ⟨HR, -, -, -, Hg, -⟩
  imodintro
  isplitr [HR]
  · iexists g; iexact Hg
  · iexact HR

/-- Before the first point the class invariant is the register with the core's scratch; the tables' halves `T`
    (there is no table) are not part of it. -/
theorem inv_of_entry (c : Dev nD) (T : sProp 𝕄) :
    iprop((∃ r, prngReg c r) ∗ T ∗ Pipeline.scopedRest (Ix := Unit) (Name := ℕ) (U := UR sig nD τ) (Lvl := ℕ) (Val := Elt F) spec0 c)
      ⊢ Pipeline.ΦA spec0 c := by
  unfold Pipeline.ΦA
  iintro ⟨Hg, -, Hs⟩
  isplitl [Hs]
  · iexact Hs
  · iexact Hg

/-- After the last point the class invariant gives the register and the scratch back; a kernel with no semaphore of
    its own returns none. -/
theorem exit_of_inv (c : Dev nD) :
    (Pipeline.ΦA spec0 c : sProp 𝕄)
      ⊢ iprop((∃ r, prngReg c r) ∗ Pipeline.ownSems0 (fun k : PEmpty => k.elim) c ∗ Pipeline.scopedRest spec0 c) := by
  rw [Pipeline.ownSems0_none]
  unfold Pipeline.ΦA
  iintro ⟨Hs, Hg⟩
  isplitl [Hg]
  · iexact Hg
  · isplitr [Hs]
    · iempintro
    · iexact Hs

/-- The launch's ghost state: the pipeline's cells are the whole of the user component, and no core gets a share of
    anything else. -/
theorem fund (u : UR sig nD τ) :
    (ownU u : sProp 𝕄) ⊢ |={Set.univ}=> iprop(BI.own (emb₁ u) ∗ bigSep Finset.univ (fun _ : Dev nD => (BI.emp : sProp 𝕄))) := by
  rw [ownU_emb₁, BI.bigSep_emp_const]
  iintro Hu
  imodintro
  isplitl [Hu]
  · iexact Hu
  · iempintro

/-- @main is the region and the return. -/
theorem main_eq (c : Dev nD) :
    main (F := F) c = (.op (.customCall (Pipeline.entry 0) ()) fun _ => .ret ⟨⟩) := rfl

theorem run_of (m : (ℓ : Loc nD τ sig) → Buf (Elt F) ℓ) (ρ : Dev nD → PrngReg)
    (dats : (p : Fin 1) → (c : Dev nD) → Dat τ (Elt F) Unit ℕ (UR sig nD τ) ℕ (cfgs p) c)
    (hbody : ∀ c, BodyObligation (dats 0 c) (defs₀ (F := F)) Variants.none () Set.univ)
    (hq : ∀ c w, (dats 0 c).q w = shareOf w) (howed : ∀ c t, (dats 0 c).owed t = 0)
    (hA : ∀ c w, (dats 0 c).A w = m ((c.tc : Thread nD τ).loc (Pipeline.arrRef spec0 w)))
    (hin : ∀ c, Pipeline.ΦA spec0 c ⊢ (dats 0 c).Φ 0) (hout : ∀ c, (dats 0 c).Φ (Fin.last cfg0.N) ⊢ Pipeline.ΦA spec0 c) :
    θ_run (defs (F := F)) (onTc (τ := τ) (main (F := F))) (s₀ m ρ)
      (Pipeline.FramePost cfgs dats 0 (fun c b => m ((c.tc : Thread nD τ).loc b))) := by
  classical
  refine Pipeline.θ_run_region_pf (fun p => (cfgs p).toPCfg (Val := Elt F)) (fun p => (cfgs p).toPCfg_adm) dats () cellOf_inj (0 : Fin 1)
    winFacts₀0 (Pipeline.OwnSemFacts.none _) (Pipeline.PreFacts.none _) emb₁ defs₀ Variants.none m ρ main
    (fun c => (hbody c).loose) block_pos0 arr_whole0 stage_whole0 howed
    (G := fun _ => iprop(emp)) (u₀ := initOf (Pipeline.cells cfgs cellOf_inj) (Pipeline.launchToks cfgs cellOf_inj))
    (hu₀ := fund _) (V := fun c b => m ((c.tc : Thread nD τ).loc b))
    (hmain := Pipeline.hmain_region cfgs 0 defs₀ Variants.none m main main_eq)
    (hsplit := fun c => arrays_of_bufs c (dats 0 c) _ (hq c) (hA c)) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => m ((c.tc : Thread nD τ).loc b)))
    (hX := ?hX) (hin := fun c => (inv_of_entry c _).trans (hin c)) (hout := fun c => (hout c).trans (exit_of_inv c))
    (QY := fun c s => ∀ b ∈ Pipeline.restRefs sig spec0, s.mem ((c.tc : Thread nD τ).loc b) = m ((c.tc : Thread nD τ).loc b))
    (hY := ?hY) (hQ := fun s h c => ⟨(h c).1, (h c).2.2⟩)
  case hX =>
    intro c
    rw [Pipeline.unscopedRestP_none]
    exact entry_keep c (ρ c) _ _ _ _ _
  case hY =>
    intro c s'
    iintro ⟨-, HU, HSI⟩
    unfold Pipeline.unscopedRest
    imodintro
    iapply (pointsTo_read_all (Pipeline.restRefs sig spec0) (fun b => (c.tc : Thread nD τ).loc b) (fun b => m ((c.tc : Thread nD τ).loc b)) s')
    isplitl [HU]
    · iexact HU
    · iexact HSI

theorem frame_of_run (m : (ℓ : Loc nD τ sig) → Buf (Elt F) ℓ) (ρ : Dev nD → PrngReg)
    (dats : (p : Fin 1) → (c : Dev nD) → Dat τ (Elt F) Unit ℕ (UR sig nD τ) ℕ (cfgs p) c)
    (hA : ∀ c w, (dats 0 c).A w = m ((c.tc : Thread nD τ).loc (Pipeline.arrRef spec0 w)))
    (h : θ_run (defs (F := F)) (onTc (τ := τ) (main (F := F))) (s₀ m ρ)
      (Pipeline.FramePost cfgs dats 0 (fun c b => m ((c.tc : Thread nD τ).loc b)))) :
    θ_run (defs (F := F)) (onTc (τ := τ) (main (F := F))) ⟨m, fun _ => 0, ρ⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (defs (F := F)) _ _).mono
    (fun _ hr c => ⟨((hr c).1 0).trans (((dats 0 c).arrAt_in 0 rfl _).trans (hA c 0)),
      ((hr c).1 8).trans (((dats 0 c).arrAt_in 8 rfl _).trans (hA c 8))⟩) h

end Cert.KernelIdeal.Hand

end
-- ==== Proof.KIData.lean ====
/-
  The pipeline's proof data, the body obligation at every point, and the run.

  After the body at point t each input window's buffer still holds its block; the output window's buffer is stored
  only at a last visit, where it holds the seen block plus, column by column, lane 0 of the accumulator's rows.
  The obligation is proved by cases on the visit: the point's closed forms decide the body's three tests, the
  whole-body run of that case applies, and the accumulator it leaves agrees on the used part with the next
  point's contents because every store is a block of one function of the accumulator's index.
-/
import proofs.«168630_g34205119545578_cont_sun_m_983_19_alg».proof.Proof.KIState
import proofs.«168630_g34205119545578_cont_sun_m_983_19_alg».proof.Proof.KIWitnessOut
import proofs.«168630_g34205119545578_cont_sun_m_983_19_alg».proof.Proof.KIPieceFacts
import proofs.«168630_g34205119545578_cont_sun_m_983_19_alg».proof.Proof.KILaunch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => emitOf (SB m c t) (accAt m c t.val t.isLt)
  Φ t := PhiS m c t.val (Nat.le_of_lt_succ t.isLt)
  q := shareOf
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = emitOf (SB m c t) (accAt m c t.val t.isLt) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Pipeline.Dat.blockOf iblk; rw [A_eq]; try rfl) t d).trans
    (by unfold Pipeline.Dat.fetched Pipeline.Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Pipeline.Dat.blockOf iblk; rw [A_eq]; try rfl) t d).trans
    (by unfold Pipeline.Dat.fetched Pipeline.Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Pipeline.Dat.blockOf iblk; rw [A_eq]; try rfl) t d).trans
    (by unfold Pipeline.Dat.fetched Pipeline.Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Pipeline.Dat.blockOf iblk; rw [A_eq]; try rfl) t d).trans
    (by unfold Pipeline.Dat.fetched Pipeline.Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Pipeline.Dat.blockOf iblk; rw [A_eq]; try rfl) t d).trans
    (by unfold Pipeline.Dat.fetched Pipeline.Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Pipeline.Dat.blockOf iblk; rw [A_eq]; try rfl) t d).trans
    (by unfold Pipeline.Dat.fetched Pipeline.Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Pipeline.Dat.blockOf iblk; rw [A_eq]; try rfl) t d).trans
    (by unfold Pipeline.Dat.fetched Pipeline.Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Pipeline.Dat.blockOf iblk; rw [A_eq]; try rfl) t d).trans
    (by unfold Pipeline.Dat.fetched Pipeline.Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Pipeline.Dat.blockOf iblk; rw [A_eq]; try rfl) t d).trans
    (by unfold Pipeline.Dat.fetched Pipeline.Dat.blockOf iblk; rw [A_eq]; try rfl)

/-- The staging memrefs at a point, as the pipeline passes them to the body. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)

theorem leaves_0 (c : Dev nD) (t : Fin cfg0.N) :
    (dats m 0 c).leavesExact 0 t = owns (c : Thread nD τ) (ms0 t) fullShare (iblk m c 0 t) := by
  unfold Pipeline.Dat.leavesExact; rw [show cfg0.idle 0 (cfg0.grid.coords t) = false from rfl, after_0]
theorem leaves_1 (c : Dev nD) (t : Fin cfg0.N) :
    (dats m 0 c).leavesExact 1 t = owns (c : Thread nD τ) (ms1 t) fullShare (iblk m c 1 t) := by
  unfold Pipeline.Dat.leavesExact; rw [show cfg0.idle 1 (cfg0.grid.coords t) = false from rfl, after_1]
theorem leaves_2 (c : Dev nD) (t : Fin cfg0.N) :
    (dats m 0 c).leavesExact 2 t = owns (c : Thread nD τ) (ms2 t) fullShare (iblk m c 2 t) := by
  unfold Pipeline.Dat.leavesExact; rw [show cfg0.idle 2 (cfg0.grid.coords t) = false from rfl, after_2]
theorem leaves_3 (c : Dev nD) (t : Fin cfg0.N) :
    (dats m 0 c).leavesExact 3 t = owns (c : Thread nD τ) (ms3 t) fullShare (iblk m c 3 t) := by
  unfold Pipeline.Dat.leavesExact; rw [show cfg0.idle 3 (cfg0.grid.coords t) = false from rfl, after_3]
theorem leaves_4 (c : Dev nD) (t : Fin cfg0.N) :
    (dats m 0 c).leavesExact 4 t = owns (c : Thread nD τ) (ms4 t) fullShare (iblk m c 4 t) := by
  unfold Pipeline.Dat.leavesExact; rw [show cfg0.idle 4 (cfg0.grid.coords t) = false from rfl, after_4]
theorem leaves_5 (c : Dev nD) (t : Fin cfg0.N) :
    (dats m 0 c).leavesExact 5 t = owns (c : Thread nD τ) (ms5 t) fullShare (iblk m c 5 t) := by
  unfold Pipeline.Dat.leavesExact; rw [show cfg0.idle 5 (cfg0.grid.coords t) = false from rfl, after_5]
theorem leaves_6 (c : Dev nD) (t : Fin cfg0.N) :
    (dats m 0 c).leavesExact 6 t = owns (c : Thread nD τ) (ms6 t) fullShare (iblk m c 6 t) := by
  unfold Pipeline.Dat.leavesExact; rw [show cfg0.idle 6 (cfg0.grid.coords t) = false from rfl, after_6]
theorem leaves_7 (c : Dev nD) (t : Fin cfg0.N) :
    (dats m 0 c).leavesExact 7 t = owns (c : Thread nD τ) (ms7 t) fullShare (iblk m c 7 t) := by
  unfold Pipeline.Dat.leavesExact; rw [show cfg0.idle 7 (cfg0.grid.coords t) = false from rfl, after_7]
theorem leaves_8 (c : Dev nD) (t : Fin cfg0.N) :
    (dats m 0 c).leavesExact 8 t = owns (c : Thread nD τ) (ms8 t) fullShare (iblk m c 8 t) := by
  unfold Pipeline.Dat.leavesExact; rw [show cfg0.idle 8 (cfg0.grid.coords t) = false from rfl, after_8]

/-! ## The three closing facts (pure) -/

/-- A first visit's stores leave the indicator on the used part. -/
theorem agree_first (v : View sig .tc .vmem S7x2048x128 .f32) (f : v.ty.Contents (Elt F)) (X : Fin 8 → Vec F S32x2x50x64 .f32) :
    AgreeCov (v.read (Elt F) (v.writes (Elt F) f (firstList X))) (rzAll X) := fun y hy =>
  (View.read_writes_apply_eq_canon v f y _ (cover_first X y hy)).trans (canon_first X y hy)

/-- A later visit's stores over contents agreeing with `B` leave `B` plus the indicator on the used part. -/
theorem agree_upd (v : View sig .tc .vmem S7x2048x128 .f32) (f : v.ty.Contents (Elt F)) (a B : Vec F S7x2048x128 .f32)
    (X : Fin 8 → Vec F S32x2x50x64 .f32) (h : AgreeCov a B) :
    AgreeCov (v.read (Elt F) (v.writes (Elt F) f (updList a X))) (updAll B X) := fun y hy =>
  (View.read_writes_apply_eq_canon v f y _ (cover_upd a X y hy)).trans ((canon_upd a X y hy).trans (updAll_agree a B X h y hy))

/-- One store through the whole block leaves its payload, whatever was there. -/
theorem read_one_whole (v : View sig .tc .vmem S256x50 .f32) (f : v.ty.Contents (Elt F)) (W : S256x50.Idx → Elt F .f32) :
    v.read (Elt F) (v.writes (Elt F) f [(⟨Rect.unit ![0, 0] S256x50.size inb_S256x50_S256x50_0_0, W⟩ : View.Piece (Elt F) S256x50 .f32)]) = W :=
  (View.read_writes_eq_canon v f [(⟨Rect.unit ![0, 0] S256x50.size inb_S256x50_S256x50_0_0, W⟩ : View.Piece (Elt F) S256x50 .f32)]
    (fun y => ⟨(⟨Rect.unit ![0, 0] S256x50.size inb_S256x50_S256x50_0_0, W⟩ : View.Piece (Elt F) S256x50 .f32), List.mem_singleton_self _,
      View.mem_set_unit_zero zero2 inb_S256x50_S256x50_0_0 y⟩)).trans
    (View.canon_unit_zero zero2 inb_S256x50_S256x50_0_0 W)

/-- The last visit's one store leaves the output block of the seen block and the next contents. -/
theorem out_last (v : View sig .tc .vmem S256x50 .f32) (f : v.ty.Contents (Elt F)) (xs : Vec F S256x50 .f32)
    (a B : Vec F S7x2048x128 .f32) (X : Fin 8 → Vec F S32x2x50x64 .f32) (h : AgreeCov a B) :
    v.read (Elt F) (v.writes (Elt F) f [⟨Rect.unit ![0, 0] S256x50.size inb_S256x50_S256x50_0_0, emitOf xs (View.canon (updList a X))⟩])
      = emitOf xs (updAll B X) := by
  refine (read_one_whole v f _).trans ?_
  exact emitOf_agree xs _ _ (fun y hy => (canon_upd a X y hy).trans (updAll_agree a B X h y hy))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8]
  have hN : t.val < 16 := lt_of_lt_of_eq t.isLt (show cfg0.N = 16 from N_0)
  by_cases h0 : t.val % 4 = 0
  · have hF : isFirst (grid0.coords t) := (isFirst_iff t).mpr h0
    have hL : ¬isLater (grid0.coords t) := fun h => (isLater_iff t).mp h h0
    have hE : ¬isLast (grid0.coords t) := fun h => by have := (isLast_iff t).mp h; omega
    rw [Pipeline.Dat.leavesExact_idle (dats m 0 c) 9 t ((idle_out_iff t).mpr (by omega))
      (by have := flush_out_iff t; cases hfl : (cfg0.win 9).flush t with | false => rfl | true => exact absurd (this.mp hfl) (by omega))]
    rw [accAt_first m c t h0]
    by_cases hz : t.val = 0
    · rw [Phi_castSucc m c t, PhiS_zero m c _ _ hz, PhiA_eq]
      iintro ⟨⟨⟨%a, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, H9, ⟨%f, HA⟩⟩
      isplitl [HA Hg]
      · isplitl [HA]
        · iexists _
          isplitl [HA]
          · unfold owns; iexists _; isplitr
            swap; · iexact HA
            ipureintro; rfl
          · ipureintro; rw [first_eq]; exact agree_first _ f _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [Phi_castSucc m c t, PhiS_pos m c _ _ hz]
      iintro ⟨⟨⟨%a, HA, %ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, H9, ⟨%f, HA⟩⟩
      isplitl [HA Hg]
      · isplitl [HA]
        · iexists _
          isplitl [HA]
          · unfold owns; iexists _; isplitr
            swap; · iexact HA
            ipureintro; rfl
          · ipureintro; rw [first_eq]; exact agree_first _ f _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    have hF : ¬isFirst (grid0.coords t) := fun h => h0 ((isFirst_iff t).mp h)
    have hL : isLater (grid0.coords t) := (isLater_iff t).mpr h0
    rw [accAt_later m c t h0]
    rw [Phi_castSucc m c t, PhiS_pos m c _ _ hz]
    by_cases h3 : t.val % 4 = 3
    · have hE : isLast (grid0.coords t) := (isLast_iff t).mpr h3
      rw [show (dats m 0 c).leavesExact 9 t = owns (c : Thread nD τ) (ms9 t) fullShare ((dats m 0 c).after 9 t) from by
        unfold Pipeline.Dat.leavesExact
        rw [show cfg0.idle 9 (cfg0.grid.coords t) = false from by
          cases hi : cfg0.idle 9 (cfg0.grid.coords t) with | false => rfl | true => exact absurd ((idle_out_iff t).mp hi) (by omega)], after_9]
      rw [accAt_later m c t h0]
      iintro ⟨⟨⟨%a, HA, %ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, ⟨%fo, H9⟩, ⟨%f, HA⟩⟩
      isplitl [HA Hg]
      · isplitl [HA]
        · iexists _
          isplitl [HA]
          · unfold owns; iexists _; isplitr
            swap; · iexact HA
            ipureintro; rfl
          · ipureintro; rw [last_eqA]; exact agree_upd _ f _ _ _ ha
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; rw [last_eqO]; exact out_last _ fo _ _ _ _ ha
    · have hE : ¬isLast (grid0.coords t) := fun h => h3 ((isLast_iff t).mp h)
      rw [Pipeline.Dat.leavesExact_idle (dats m 0 c) 9 t ((idle_out_iff t).mpr h3)
        (by have := flush_out_iff t; cases hfl : (cfg0.win 9).flush t with | false => rfl | true => exact absurd (this.mp hfl) h3)]
      iintro ⟨⟨⟨%a, HA, %ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) accM (Memref.isWhole_whole _) hF hL hE (XB m c t 0) (XB m c t 1) (XB m c t 2) (XB m c t 3) (XB m c t 4) (XB m c t 5) (XB m c t 6) (XB m c t 7) (SB m c t) a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HA]; · iexact HA
      iintro ⟨H0, H1, H2, H3, H4, H5, H6, H7, H8, H9, ⟨%f, HA⟩⟩
      isplitl [HA Hg]
      · isplitl [HA]
        · iexists _
          isplitl [HA]
          · unfold owns; iexists _; isplitr
            swap; · iexact HA
            ipureintro; rfl
          · ipureintro; rw [mid_eq]; exact agree_upd _ f _ _ _ ha
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨%a, HA, %ha⟩, Hg⟩
  isplitl [HA]
  · iexists _; iexact HA
  iexact Hg

/-- The run: every weakly fair execution of @main terminates, every array of the pipeline ends at what the library
    computes from the proof data, every other unscoped buffer as it was. -/
theorem run_main : θ_run (defs (F := F)) (onTc (τ := τ) (main (F := F))) (s₀ m ρ)
    (Pipeline.FramePost cfgs (dats m) 0 (fun c b => m ((c.tc : Thread nD τ).loc b))) :=
  run_of m ρ (dats m) (body_obligation m) (fun _ _ => rfl) (fun _ _ => rfl) (fun c w => A_eq m c w) (hin m) (hout m)

/-- The frame claim's post, at any `F`. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (fun c w => A_eq m c w) (run_main m ρ)

end Cert.KernelIdeal.Hand

end
-- ==== Proof.KIBlocks.lean ====
/-
  The windows' blocks read at an index against the arrays they are cut from.

  The grid is 4 × 4 and point t has coordinates r = t / 4, q = t % 4. Input window j (j < 8) reads block
  8 (r + 4 q) + j of the first argument, 32 leading rows to a block; the seen window reads block r of the second
  argument, 256 rows to a block. A block's coordinate in the array is always the block index times the block size plus
  the coordinate inside the block.
-/
import proofs.«168630_g34205119545578_cont_sun_m_983_19_alg».proof.Proof.KIState
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The block indices, decided over the grid -/

/-- Input window 0's block index at point `t`: block `8 (r + 4 q) + 0` along the leading axis, block 0 on the others. -/
theorem idx_facts_0 : ∀ t : Fin cfg0.N, win0_0.index t (0 : Fin 4) = 8 * (t.val / 4 + 4 * (t.val % 4)) + 0
    ∧ win0_0.index t (1 : Fin 4) = 0 ∧ win0_0.index t (2 : Fin 4) = 0 ∧ win0_0.index t (3 : Fin 4) = 0 :=
  (by decide +kernel : ∀ t : Fin grid0.N, _)

/-- Input window 1's block index at point `t`: block `8 (r + 4 q) + 1` along the leading axis, block 0 on the others. -/
theorem idx_facts_1 : ∀ t : Fin cfg0.N, win0_1.index t (0 : Fin 4) = 8 * (t.val / 4 + 4 * (t.val % 4)) + 1
    ∧ win0_1.index t (1 : Fin 4) = 0 ∧ win0_1.index t (2 : Fin 4) = 0 ∧ win0_1.index t (3 : Fin 4) = 0 :=
  (by decide +kernel : ∀ t : Fin grid0.N, _)

/-- Input window 2's block index at point `t`: block `8 (r + 4 q) + 2` along the leading axis, block 0 on the others. -/
theorem idx_facts_2 : ∀ t : Fin cfg0.N, win0_2.index t (0 : Fin 4) = 8 * (t.val / 4 + 4 * (t.val % 4)) + 2
    ∧ win0_2.index t (1 : Fin 4) = 0 ∧ win0_2.index t (2 : Fin 4) = 0 ∧ win0_2.index t (3 : Fin 4) = 0 :=
  (by decide +kernel : ∀ t : Fin grid0.N, _)

/-- Input window 3's block index at point `t`: block `8 (r + 4 q) + 3` along the leading axis, block 0 on the others. -/
theorem idx_facts_3 : ∀ t : Fin cfg0.N, win0_3.index t (0 : Fin 4) = 8 * (t.val / 4 + 4 * (t.val % 4)) + 3
    ∧ win0_3.index t (1 : Fin 4) = 0 ∧ win0_3.index t (2 : Fin 4) = 0 ∧ win0_3.index t (3 : Fin 4) = 0 :=
  (by decide +kernel : ∀ t : Fin grid0.N, _)

/-- Input window 4's block index at point `t`: block `8 (r + 4 q) + 4` along the leading axis, block 0 on the others. -/
theorem idx_facts_4 : ∀ t : Fin cfg0.N, win0_4.index t (0 : Fin 4) = 8 * (t.val / 4 + 4 * (t.val % 4)) + 4
    ∧ win0_4.index t (1 : Fin 4) = 0 ∧ win0_4.index t (2 : Fin 4) = 0 ∧ win0_4.index t (3 : Fin 4) = 0 :=
  (by decide +kernel : ∀ t : Fin grid0.N, _)

/-- Input window 5's block index at point `t`: block `8 (r + 4 q) + 5` along the leading axis, block 0 on the others. -/
theorem idx_facts_5 : ∀ t : Fin cfg0.N, win0_5.index t (0 : Fin 4) = 8 * (t.val / 4 + 4 * (t.val % 4)) + 5
    ∧ win0_5.index t (1 : Fin 4) = 0 ∧ win0_5.index t (2 : Fin 4) = 0 ∧ win0_5.index t (3 : Fin 4) = 0 :=
  (by decide +kernel : ∀ t : Fin grid0.N, _)

/-- Input window 6's block index at point `t`: block `8 (r + 4 q) + 6` along the leading axis, block 0 on the others. -/
theorem idx_facts_6 : ∀ t : Fin cfg0.N, win0_6.index t (0 : Fin 4) = 8 * (t.val / 4 + 4 * (t.val % 4)) + 6
    ∧ win0_6.index t (1 : Fin 4) = 0 ∧ win0_6.index t (2 : Fin 4) = 0 ∧ win0_6.index t (3 : Fin 4) = 0 :=
  (by decide +kernel : ∀ t : Fin grid0.N, _)

/-- Input window 7's block index at point `t`: block `8 (r + 4 q) + 7` along the leading axis, block 0 on the others. -/
theorem idx_facts_7 : ∀ t : Fin cfg0.N, win0_7.index t (0 : Fin 4) = 8 * (t.val / 4 + 4 * (t.val % 4)) + 7
    ∧ win0_7.index t (1 : Fin 4) = 0 ∧ win0_7.index t (2 : Fin 4) = 0 ∧ win0_7.index t (3 : Fin 4) = 0 :=
  (by decide +kernel : ∀ t : Fin grid0.N, _)

/-- The seen window's block index at point `t`: block `r` of the rows, block 0 of the columns. -/
theorem idx_facts_8 : ∀ t : Fin cfg0.N, win0_8.index t (0 : Fin 2) = t.val / 4 ∧ win0_8.index t (1 : Fin 2) = 0 :=
  (by decide +kernel : ∀ t : Fin grid0.N, _)

/-! ## Each window's block at an index -/

/-- Input window 0's block at point `t`, element (cc, ch, h, k): row `256 r + 1024 q + 32 · 0 + cc` of the first argument. -/
theorem iblk0_apply (c : Dev nD) (t : Fin cfg0.N) (cc : Fin 32) (ch : Fin 2) (h : Fin 50) (k : Fin 64) :
    (iblk m c 0 t : Vec F S32x2x50x64 .f32) (ix4 cc ch h k)
      = (m ((c : Thread nD τ).loc main_arg0) : S4096x2x50x64.Idx → Elt F .f32)
          (ix4 (⟨256 * (t.val / 4) + 1024 * (t.val % 4) + 32 * 0 + cc.val, by
            have := t.isLt; have : cfg0.N = 16 := N_0; omega⟩ : Fin 4096) ch h k) := by
  obtain ⟨e0, e1, e2, e3⟩ := idx_facts_0 t
  unfold iblk
  rw [View.read_apply]
  show V m c main_arg0 _ = m (c.tc.loc main_arg0) _
  unfold V
  congr 1
  funext a
  apply Fin.ext
  match a with
  | ⟨0, _⟩ => show win0_0.index t (0 : Fin 4) * 32 + 1 * cc.val = 256 * (t.val / 4) + 1024 * (t.val % 4) + 32 * 0 + cc.val; omega
  | ⟨1, _⟩ => show win0_0.index t (1 : Fin 4) * 2 + 1 * ch.val = ch.val; omega
  | ⟨2, _⟩ => show win0_0.index t (2 : Fin 4) * 50 + 1 * h.val = h.val; omega
  | ⟨3, _⟩ => show win0_0.index t (3 : Fin 4) * 64 + 1 * k.val = k.val; omega

/-- Input window 1's block at point `t`, element (cc, ch, h, k): row `256 r + 1024 q + 32 · 1 + cc` of the first argument. -/
theorem iblk1_apply (c : Dev nD) (t : Fin cfg0.N) (cc : Fin 32) (ch : Fin 2) (h : Fin 50) (k : Fin 64) :
    (iblk m c 1 t : Vec F S32x2x50x64 .f32) (ix4 cc ch h k)
      = (m ((c : Thread nD τ).loc main_arg0) : S4096x2x50x64.Idx → Elt F .f32)
          (ix4 (⟨256 * (t.val / 4) + 1024 * (t.val % 4) + 32 * 1 + cc.val, by
            have := t.isLt; have : cfg0.N = 16 := N_0; omega⟩ : Fin 4096) ch h k) := by
  obtain ⟨e0, e1, e2, e3⟩ := idx_facts_1 t
  unfold iblk
  rw [View.read_apply]
  show V m c main_arg0 _ = m (c.tc.loc main_arg0) _
  unfold V
  congr 1
  funext a
  apply Fin.ext
  match a with
  | ⟨0, _⟩ => show win0_1.index t (0 : Fin 4) * 32 + 1 * cc.val = 256 * (t.val / 4) + 1024 * (t.val % 4) + 32 * 1 + cc.val; omega
  | ⟨1, _⟩ => show win0_1.index t (1 : Fin 4) * 2 + 1 * ch.val = ch.val; omega
  | ⟨2, _⟩ => show win0_1.index t (2 : Fin 4) * 50 + 1 * h.val = h.val; omega
  | ⟨3, _⟩ => show win0_1.index t (3 : Fin 4) * 64 + 1 * k.val = k.val; omega

/-- Input window 2's block at point `t`, element (cc, ch, h, k): row `256 r + 1024 q + 32 · 2 + cc` of the first argument. -/
theorem iblk2_apply (c : Dev nD) (t : Fin cfg0.N) (cc : Fin 32) (ch : Fin 2) (h : Fin 50) (k : Fin 64) :
    (iblk m c 2 t : Vec F S32x2x50x64 .f32) (ix4 cc ch h k)
      = (m ((c : Thread nD τ).loc main_arg0) : S4096x2x50x64.Idx → Elt F .f32)
          (ix4 (⟨256 * (t.val / 4) + 1024 * (t.val % 4) + 32 * 2 + cc.val, by
            have := t.isLt; have : cfg0.N = 16 := N_0; omega⟩ : Fin 4096) ch h k) := by
  obtain ⟨e0, e1, e2, e3⟩ := idx_facts_2 t
  unfold iblk
  rw [View.read_apply]
  show V m c main_arg0 _ = m (c.tc.loc main_arg0) _
  unfold V
  congr 1
  funext a
  apply Fin.ext
  match a with
  | ⟨0, _⟩ => show win0_2.index t (0 : Fin 4) * 32 + 1 * cc.val = 256 * (t.val / 4) + 1024 * (t.val % 4) + 32 * 2 + cc.val; omega
  | ⟨1, _⟩ => show win0_2.index t (1 : Fin 4) * 2 + 1 * ch.val = ch.val; omega
  | ⟨2, _⟩ => show win0_2.index t (2 : Fin 4) * 50 + 1 * h.val = h.val; omega
  | ⟨3, _⟩ => show win0_2.index t (3 : Fin 4) * 64 + 1 * k.val = k.val; omega

/-- Input window 3's block at point `t`, element (cc, ch, h, k): row `256 r + 1024 q + 32 · 3 + cc` of the first argument. -/
theorem iblk3_apply (c : Dev nD) (t : Fin cfg0.N) (cc : Fin 32) (ch : Fin 2) (h : Fin 50) (k : Fin 64) :
    (iblk m c 3 t : Vec F S32x2x50x64 .f32) (ix4 cc ch h k)
      = (m ((c : Thread nD τ).loc main_arg0) : S4096x2x50x64.Idx → Elt F .f32)
          (ix4 (⟨256 * (t.val / 4) + 1024 * (t.val % 4) + 32 * 3 + cc.val, by
            have := t.isLt; have : cfg0.N = 16 := N_0; omega⟩ : Fin 4096) ch h k) := by
  obtain ⟨e0, e1, e2, e3⟩ := idx_facts_3 t
  unfold iblk
  rw [View.read_apply]
  show V m c main_arg0 _ = m (c.tc.loc main_arg0) _
  unfold V
  congr 1
  funext a
  apply Fin.ext
  match a with
  | ⟨0, _⟩ => show win0_3.index t (0 : Fin 4) * 32 + 1 * cc.val = 256 * (t.val / 4) + 1024 * (t.val % 4) + 32 * 3 + cc.val; omega
  | ⟨1, _⟩ => show win0_3.index t (1 : Fin 4) * 2 + 1 * ch.val = ch.val; omega
  | ⟨2, _⟩ => show win0_3.index t (2 : Fin 4) * 50 + 1 * h.val = h.val; omega
  | ⟨3, _⟩ => show win0_3.index t (3 : Fin 4) * 64 + 1 * k.val = k.val; omega

/-- Input window 4's block at point `t`, element (cc, ch, h, k): row `256 r + 1024 q + 32 · 4 + cc` of the first argument. -/
theorem iblk4_apply (c : Dev nD) (t : Fin cfg0.N) (cc : Fin 32) (ch : Fin 2) (h : Fin 50) (k : Fin 64) :
    (iblk m c 4 t : Vec F S32x2x50x64 .f32) (ix4 cc ch h k)
      = (m ((c : Thread nD τ).loc main_arg0) : S4096x2x50x64.Idx → Elt F .f32)
          (ix4 (⟨256 * (t.val / 4) + 1024 * (t.val % 4) + 32 * 4 + cc.val, by
            have := t.isLt; have : cfg0.N = 16 := N_0; omega⟩ : Fin 4096) ch h k) := by
  obtain ⟨e0, e1, e2, e3⟩ := idx_facts_4 t
  unfold iblk
  rw [View.read_apply]
  show V m c main_arg0 _ = m (c.tc.loc main_arg0) _
  unfold V
  congr 1
  funext a
  apply Fin.ext
  match a with
  | ⟨0, _⟩ => show win0_4.index t (0 : Fin 4) * 32 + 1 * cc.val = 256 * (t.val / 4) + 1024 * (t.val % 4) + 32 * 4 + cc.val; omega
  | ⟨1, _⟩ => show win0_4.index t (1 : Fin 4) * 2 + 1 * ch.val = ch.val; omega
  | ⟨2, _⟩ => show win0_4.index t (2 : Fin 4) * 50 + 1 * h.val = h.val; omega
  | ⟨3, _⟩ => show win0_4.index t (3 : Fin 4) * 64 + 1 * k.val = k.val; omega

/-- Input window 5's block at point `t`, element (cc, ch, h, k): row `256 r + 1024 q + 32 · 5 + cc` of the first argument. -/
theorem iblk5_apply (c : Dev nD) (t : Fin cfg0.N) (cc : Fin 32) (ch : Fin 2) (h : Fin 50) (k : Fin 64) :
    (iblk m c 5 t : Vec F S32x2x50x64 .f32) (ix4 cc ch h k)
      = (m ((c : Thread nD τ).loc main_arg0) : S4096x2x50x64.Idx → Elt F .f32)
          (ix4 (⟨256 * (t.val / 4) + 1024 * (t.val % 4) + 32 * 5 + cc.val, by
            have := t.isLt; have : cfg0.N = 16 := N_0; omega⟩ : Fin 4096) ch h k) := by
  obtain ⟨e0, e1, e2, e3⟩ := idx_facts_5 t
  unfold iblk
  rw [View.read_apply]
  show V m c main_arg0 _ = m (c.tc.loc main_arg0) _
  unfold V
  congr 1
  funext a
  apply Fin.ext
  match a with
  | ⟨0, _⟩ => show win0_5.index t (0 : Fin 4) * 32 + 1 * cc.val = 256 * (t.val / 4) + 1024 * (t.val % 4) + 32 * 5 + cc.val; omega
  | ⟨1, _⟩ => show win0_5.index t (1 : Fin 4) * 2 + 1 * ch.val = ch.val; omega
  | ⟨2, _⟩ => show win0_5.index t (2 : Fin 4) * 50 + 1 * h.val = h.val; omega
  | ⟨3, _⟩ => show win0_5.index t (3 : Fin 4) * 64 + 1 * k.val = k.val; omega

/-- Input window 6's block at point `t`, element (cc, ch, h, k): row `256 r + 1024 q + 32 · 6 + cc` of the first argument. -/
theorem iblk6_apply (c : Dev nD) (t : Fin cfg0.N) (cc : Fin 32) (ch : Fin 2) (h : Fin 50) (k : Fin 64) :
    (iblk m c 6 t : Vec F S32x2x50x64 .f32) (ix4 cc ch h k)
      = (m ((c : Thread nD τ).loc main_arg0) : S4096x2x50x64.Idx → Elt F .f32)
          (ix4 (⟨256 * (t.val / 4) + 1024 * (t.val % 4) + 32 * 6 + cc.val, by
            have := t.isLt; have : cfg0.N = 16 := N_0; omega⟩ : Fin 4096) ch h k) := by
  obtain ⟨e0, e1, e2, e3⟩ := idx_facts_6 t
  unfold iblk
  rw [View.read_apply]
  show V m c main_arg0 _ = m (c.tc.loc main_arg0) _
  unfold V
  congr 1
  funext a
  apply Fin.ext
  match a with
  | ⟨0, _⟩ => show win0_6.index t (0 : Fin 4) * 32 + 1 * cc.val = 256 * (t.val / 4) + 1024 * (t.val % 4) + 32 * 6 + cc.val; omega
  | ⟨1, _⟩ => show win0_6.index t (1 : Fin 4) * 2 + 1 * ch.val = ch.val; omega
  | ⟨2, _⟩ => show win0_6.index t (2 : Fin 4) * 50 + 1 * h.val = h.val; omega
  | ⟨3, _⟩ => show win0_6.index t (3 : Fin 4) * 64 + 1 * k.val = k.val; omega

/-- Input window 7's block at point `t`, element (cc, ch, h, k): row `256 r + 1024 q + 32 · 7 + cc` of the first argument. -/
theorem iblk7_apply (c : Dev nD) (t : Fin cfg0.N) (cc : Fin 32) (ch : Fin 2) (h : Fin 50) (k : Fin 64) :
    (iblk m c 7 t : Vec F S32x2x50x64 .f32) (ix4 cc ch h k)
      = (m ((c : Thread nD τ).loc main_arg0) : S4096x2x50x64.Idx → Elt F .f32)
          (ix4 (⟨256 * (t.val / 4) + 1024 * (t.val % 4) + 32 * 7 + cc.val, by
            have := t.isLt; have : cfg0.N = 16 := N_0; omega⟩ : Fin 4096) ch h k) := by
  obtain ⟨e0, e1, e2, e3⟩ := idx_facts_7 t
  unfold iblk
  rw [View.read_apply]
  show V m c main_arg0 _ = m (c.tc.loc main_arg0) _
  unfold V
  congr 1
  funext a
  apply Fin.ext
  match a with
  | ⟨0, _⟩ => show win0_7.index t (0 : Fin 4) * 32 + 1 * cc.val = 256 * (t.val / 4) + 1024 * (t.val % 4) + 32 * 7 + cc.val; omega
  | ⟨1, _⟩ => show win0_7.index t (1 : Fin 4) * 2 + 1 * ch.val = ch.val; omega
  | ⟨2, _⟩ => show win0_7.index t (2 : Fin 4) * 50 + 1 * h.val = h.val; omega
  | ⟨3, _⟩ => show win0_7.index t (3 : Fin 4) * 64 + 1 * k.val = k.val; omega

/-! ## The two families the body reads -/

/-- Stream `j`'s block at point `t`, element (cc, ch, h, k): row `256 r + 1024 q + 32 j + cc` of the first argument. -/
theorem XB_apply (c : Dev nD) (t : Fin cfg0.N) (j : Fin 8) (cc : Fin 32) (ch : Fin 2) (h : Fin 50) (k : Fin 64) :
    XB m c t j (ix4 cc ch h k)
      = (m ((c : Thread nD τ).loc main_arg0) : S4096x2x50x64.Idx → Elt F .f32)
          (ix4 (⟨256 * (t.val / 4) + 1024 * (t.val % 4) + 32 * j.val + cc.val, by
            have := t.isLt; have : cfg0.N = 16 := N_0; omega⟩ : Fin 4096) ch h k) := by
  fin_cases j
  · exact iblk0_apply m c t cc ch h k
  · exact iblk1_apply m c t cc ch h k
  · exact iblk2_apply m c t cc ch h k
  · exact iblk3_apply m c t cc ch h k
  · exact iblk4_apply m c t cc ch h k
  · exact iblk5_apply m c t cc ch h k
  · exact iblk6_apply m c t cc ch h k
  · exact iblk7_apply m c t cc ch h k

/-- The seen block at point `t`, element (bl, h): row `256 r + bl` of the second argument. -/
theorem SB_apply (c : Dev nD) (t : Fin cfg0.N) (bl : Fin 256) (h : Fin 50) :
    SB m c t (ix2 bl h)
      = (m ((c : Thread nD τ).loc main_arg1) : S1024x50.Idx → Elt F .f32)
          (ix2 (⟨256 * (t.val / 4) + bl.val, by
            have := t.isLt; have : cfg0.N = 16 := N_0; omega⟩ : Fin 1024) h) := by
  obtain ⟨e0, e1⟩ := idx_facts_8 t
  show (iblk m c 8 t : Vec F S256x50 .f32) (ix2 bl h) = _
  unfold iblk
  rw [View.read_apply]
  show V m c main_arg1 _ = m (c.tc.loc main_arg1) _
  unfold V
  congr 1
  funext a
  apply Fin.ext
  match a with
  | ⟨0, _⟩ => show win0_8.index t (0 : Fin 2) * 256 + 1 * bl.val = 256 * (t.val / 4) + bl.val; omega
  | ⟨1, _⟩ => show win0_8.index t (1 : Fin 2) * 50 + 1 * h.val = h.val; omega

end Cert.KernelIdeal.Hand
-- ==== Proof.KITile.lean ====
/-
  Three payloads of the kernel's body read at an index.

  The first two are the "row is all zero" indicators: the absolute values of a block's rows, multiplied on the
  matrix unit by the all-ones matrix (so every lane of row R holds the sum of row R's absolute values), compared with
  zero, and the comparison bit converted to a float. The third gathers lane 0 of seven slabs into one [256, 50] tile.
-/
import proofs.«168630_g34205119545578_cont_sun_m_983_19_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.TileMath

open Cert.KernelIdeal Cert.KernelIdeal.Gen Idealize.ShloMosaic Idealize.ShloMosaic.ValueIdx

/-! ## The two matrix products' operand indices, axis by axis -/

theorem lhs_dot256_0 (j : S256x128.Idx) (k : dot_S256x64_S64x128_S256x128_1_0_0_1_n_n.contr.Idx) :
    (dot_S256x64_S64x128_S256x128_1_0_0_1_n_n.lhsIdx j k 0).val = (j 0).val := by
  simp [DotDims.lhsIdx, dot_S256x64_S64x128_S256x128_1_0_0_1_n_n]
  rfl

theorem lhs_dot256_1 (j : S256x128.Idx) (k : dot_S256x64_S64x128_S256x128_1_0_0_1_n_n.contr.Idx) :
    (dot_S256x64_S64x128_S256x128_1_0_0_1_n_n.lhsIdx j k 1).val = (k ⟨0, by decide⟩).val :=
  DotDims.lhsIdx_val_of_single _ rfl j k

theorem rhs_dot256_0 (j : S256x128.Idx) (k : dot_S256x64_S64x128_S256x128_1_0_0_1_n_n.contr.Idx) :
    (dot_S256x64_S64x128_S256x128_1_0_0_1_n_n.rhsIdx j k 0).val = (k ⟨0, by decide⟩).val :=
  DotDims.rhsIdx_val_of_single _ rfl j k

theorem rhs_dot256_1 (j : S256x128.Idx) (k : dot_S256x64_S64x128_S256x128_1_0_0_1_n_n.contr.Idx) :
    (dot_S256x64_S64x128_S256x128_1_0_0_1_n_n.rhsIdx j k 1).val = (j 1).val := by
  simp [DotDims.rhsIdx, dot_S256x64_S64x128_S256x128_1_0_0_1_n_n]
  rfl

theorem lhs_dot64_0 (j : S64x128.Idx) (k : dot_S64x64_S64x128_S64x128_1_0_0_1_n_n.contr.Idx) :
    (dot_S64x64_S64x128_S64x128_1_0_0_1_n_n.lhsIdx j k 0).val = (j 0).val := by
  simp [DotDims.lhsIdx, dot_S64x64_S64x128_S64x128_1_0_0_1_n_n]
  rfl

theorem lhs_dot64_1 (j : S64x128.Idx) (k : dot_S64x64_S64x128_S64x128_1_0_0_1_n_n.contr.Idx) :
    (dot_S64x64_S64x128_S64x128_1_0_0_1_n_n.lhsIdx j k 1).val = (k ⟨0, by decide⟩).val :=
  DotDims.lhsIdx_val_of_single _ rfl j k

theorem rhs_dot64_0 (j : S64x128.Idx) (k : dot_S64x64_S64x128_S64x128_1_0_0_1_n_n.contr.Idx) :
    (dot_S64x64_S64x128_S64x128_1_0_0_1_n_n.rhsIdx j k 0).val = (k ⟨0, by decide⟩).val :=
  DotDims.rhsIdx_val_of_single _ rfl j k

theorem rhs_dot64_1 (j : S64x128.Idx) (k : dot_S64x64_S64x128_S64x128_1_0_0_1_n_n.contr.Idx) :
    (dot_S64x64_S64x128_S64x128_1_0_0_1_n_n.rhsIdx j k 1).val = (j 1).val := by
  simp [DotDims.rhsIdx, dot_S64x64_S64x128_S64x128_1_0_0_1_n_n]
  rfl

/-- The [256,64] × [64,128] product into a zero accumulator, read at (R, l): the sum over the 64 contracted positions. -/
theorem matmul256_apply (A : FVec Ideal S256x64 .f32) (B : FVec Ideal S64x128 .f32) (R : Fin 256) (l : Fin 128) :
    matmul dot_S256x64_S64x128_S256x128_1_0_0_1_n_n none A B (constant (F := Ideal) S256x128 .f32 0x00000000#32) (ix2 R l)
      = ∑ k : Fin 64, A (ix2 R k) * B (ix2 k l) := by
  simp only [matmul]
  rw [Ideal.matmul_constant_zero_apply,
    ← Equiv.sum_comp (contrEquiv1 dot_S256x64_S64x128_S256x128_1_0_0_1_n_n 64 rfl rfl).symm]
  refine Finset.sum_congr rfl fun k _ => ?_
  have hk := contrEquiv1_symm_val dot_S256x64_S64x128_S256x128_1_0_0_1_n_n 64 rfl rfl k
  have hl : dot_S256x64_S64x128_S256x128_1_0_0_1_n_n.lhsIdx (ix2 R l)
      ((contrEquiv1 dot_S256x64_S64x128_S256x128_1_0_0_1_n_n 64 rfl rfl).symm k) = ix2 R k :=
    funext fun a => Fin.ext (by
      match a with
      | ⟨0, _⟩ => exact lhs_dot256_0 _ _
      | ⟨1, _⟩ => exact (lhs_dot256_1 _ _).trans hk)
  have hr : dot_S256x64_S64x128_S256x128_1_0_0_1_n_n.rhsIdx (ix2 R l)
      ((contrEquiv1 dot_S256x64_S64x128_S256x128_1_0_0_1_n_n 64 rfl rfl).symm k) = ix2 k l :=
    funext fun a => Fin.ext (by
      match a with
      | ⟨0, _⟩ => exact (rhs_dot256_0 _ _).trans hk
      | ⟨1, _⟩ => exact rhs_dot256_1 _ _)
  rw [hl, hr]

/-- The [64,64] × [64,128] product into a zero accumulator, read at (R, l): the sum over the 64 contracted positions. -/
theorem matmul64_apply (A : FVec Ideal S64x64 .f32) (B : FVec Ideal S64x128 .f32) (R : Fin 64) (l : Fin 128) :
    matmul dot_S64x64_S64x128_S64x128_1_0_0_1_n_n none A B (constant (F := Ideal) S64x128 .f32 0x00000000#32) (ix2 R l)
      = ∑ k : Fin 64, A (ix2 R k) * B (ix2 k l) := by
  simp only [matmul]
  rw [Ideal.matmul_constant_zero_apply,
    ← Equiv.sum_comp (contrEquiv1 dot_S64x64_S64x128_S64x128_1_0_0_1_n_n 64 rfl rfl).symm]
  refine Finset.sum_congr rfl fun k _ => ?_
  have hk := contrEquiv1_symm_val dot_S64x64_S64x128_S64x128_1_0_0_1_n_n 64 rfl rfl k
  have hl : dot_S64x64_S64x128_S64x128_1_0_0_1_n_n.lhsIdx (ix2 R l)
      ((contrEquiv1 dot_S64x64_S64x128_S64x128_1_0_0_1_n_n 64 rfl rfl).symm k) = ix2 R k :=
    funext fun a => Fin.ext (by
      match a with
      | ⟨0, _⟩ => exact lhs_dot64_0 _ _
      | ⟨1, _⟩ => exact (lhs_dot64_1 _ _).trans hk)
  have hr : dot_S64x64_S64x128_S64x128_1_0_0_1_n_n.rhsIdx (ix2 R l)
      ((contrEquiv1 dot_S64x64_S64x128_S64x128_1_0_0_1_n_n 64 rfl rfl).symm k) = ix2 k l :=
    funext fun a => Fin.ext (by
      match a with
      | ⟨0, _⟩ => exact (rhs_dot64_0 _ _).trans hk
      | ⟨1, _⟩ => exact rhs_dot64_1 _ _)
  rw [hl, hr]

/-! ## The words and the constants -/

/-- A comparison bit widened to 32 bits and read as a signed integer is the bit's value, 0 or 1. -/
theorem sitofp_extui_bit (b : BitVec 1) :
    (FloatOps.sitofp (F := Ideal) .f32 (b.setWidth 32) : Ideal .f32) = ((b.toNat : ℝ) : EReal) := by
  show ((((b.setWidth 32).toInt : ℤ) : ℝ) : EReal) = _
  have h : (b.setWidth 32).toInt = (b.toNat : ℤ) := by revert b; decide
  rw [h, Int.cast_natCast]

/-- The all-ones matrix reads 1 everywhere. -/
theorem pay6_apply (j : S64x128.Idx) : k0_pay6 (F := Ideal) j = (1 : EReal) := by
  unfold k0_pay6
  exact IdealRules.sign_bit.ideal_onePat .f32

/-- An absolute value at an index is the larger of the element and its negation. -/
theorem absf_apply {s : Shape} {φ : FTy} (a : FVec Ideal s φ) (i : s.Idx) : absf a i = max (a i) (-(a i)) := rfl

/-! ## The zero-row indicators -/

/-- Lane `l` of row `R` of the first indicator: 1 when the absolute values of row `R % 8` of block row `R / 8`
    sum to zero, else 0 (every lane of the row holds the same sum, the product with the all-ones matrix). -/
theorem pay7_apply (v : Vec Ideal S32x1x8x64 .f32) (R : Fin 256) (l : Fin 128) :
    k0_pay7 (F := Ideal) v (ix2 R l)
      = (((Ideal.cmp .oeq (∑ k : Fin 64, max (v (ix4 (⟨R.val / 8, by omega⟩ : Fin 32) (0 : Fin 1) (⟨R.val % 8, by omega⟩ : Fin 8) k))
            (-(v (ix4 (⟨R.val / 8, by omega⟩ : Fin 32) (0 : Fin 1) (⟨R.val % 8, by omega⟩ : Fin 8) k)))) 0).toNat : ℝ) : EReal) := by
  unfold k0_pay7
  simp only [sitofp_apply, extui_apply, cmpf_apply, broadcast_apply]
  rw [matmul256_apply, sitofp_extui_bit, Ideal.cmpf_def]
  have hz : (FloatOps.ofBits (F := Ideal) FTy.f32 0x00000000#32 : Ideal .f32) = (0 : EReal) := Ideal.ofBits_zero_f32
  rw [hz]
  refine congrArg (fun s : EReal => (((Ideal.cmp .oeq s 0).toNat : ℝ) : EReal)) (Finset.sum_congr rfl fun k _ => ?_)
  rw [pay6_apply, mul_one,
    shapeCast_apply _ _ (ix2 R k) (ix3 (⟨R.val / 8, by omega⟩ : Fin 32) (⟨R.val % 8, by omega⟩ : Fin 8) k) (by
      rw [Shape.rowMajor_val_three, Shape.rowMajor_val_two]
      show (R.val / 8 * 8 + R.val % 8) * 64 + k.val = R.val * 64 + k.val
      omega),
    absf_apply,
    shapeCast_apply _ _ (ix3 (⟨R.val / 8, by omega⟩ : Fin 32) (⟨R.val % 8, by omega⟩ : Fin 8) k)
      (ix4 (⟨R.val / 8, by omega⟩ : Fin 32) (0 : Fin 1) (⟨R.val % 8, by omega⟩ : Fin 8) k) (by
      rw [Shape.rowMajor_val_four, Shape.rowMajor_val_three]
      show ((R.val / 8 * 1 + 0) * 8 + R.val % 8) * 64 + k.val = (R.val / 8 * 8 + R.val % 8) * 64 + k.val
      omega)]

/-- The same with two rows to a block: lane `l` of row `R` is 1 when the absolute values of row `R % 2` of block
    row `R / 2` sum to zero, else 0. -/
theorem pay48_apply (v : Vec Ideal S32x1x2x64 .f32) (R : Fin 64) (l : Fin 128) :
    k0_pay48 (F := Ideal) (k0_pay6 (F := Ideal)) v (ix2 R l)
      = (((Ideal.cmp .oeq (∑ k : Fin 64, max (v (ix4 (⟨R.val / 2, by omega⟩ : Fin 32) (0 : Fin 1) (⟨R.val % 2, by omega⟩ : Fin 2) k))
            (-(v (ix4 (⟨R.val / 2, by omega⟩ : Fin 32) (0 : Fin 1) (⟨R.val % 2, by omega⟩ : Fin 2) k)))) 0).toNat : ℝ) : EReal) := by
  unfold k0_pay48
  simp only [sitofp_apply, extui_apply, cmpf_apply, broadcast_apply]
  rw [matmul64_apply, sitofp_extui_bit, Ideal.cmpf_def]
  have hz : (FloatOps.ofBits (F := Ideal) FTy.f32 0x00000000#32 : Ideal .f32) = (0 : EReal) := Ideal.ofBits_zero_f32
  rw [hz]
  refine congrArg (fun s : EReal => (((Ideal.cmp .oeq s 0).toNat : ℝ) : EReal)) (Finset.sum_congr rfl fun k _ => ?_)
  rw [pay6_apply, mul_one,
    shapeCast_apply _ _ (ix2 R k) (ix3 (⟨R.val / 2, by omega⟩ : Fin 32) (⟨R.val % 2, by omega⟩ : Fin 2) k) (by
      rw [Shape.rowMajor_val_three, Shape.rowMajor_val_two]
      show (R.val / 2 * 2 + R.val % 2) * 64 + k.val = R.val * 64 + k.val
      omega),
    absf_apply,
    shapeCast_apply _ _ (ix3 (⟨R.val / 2, by omega⟩ : Fin 32) (⟨R.val % 2, by omega⟩ : Fin 2) k)
      (ix4 (⟨R.val / 2, by omega⟩ : Fin 32) (0 : Fin 1) (⟨R.val % 2, by omega⟩ : Fin 2) k) (by
      rw [Shape.rowMajor_val_four, Shape.rowMajor_val_three]
      show ((R.val / 2 * 1 + 0) * 2 + R.val % 2) * 64 + k.val = (R.val / 2 * 2 + R.val % 2) * 64 + k.val
      omega)]

/-! ## Lane 0 of the slabs, gathered -/

/-- One slab: element (b, r) of its lane-0 column, viewed eight rows to a block, is row `8 b + r` at lane 0. -/
theorem lane0_8_apply {α : Type} (v : S1x2048x128.Idx → α) (b : Fin 256) (r : Fin 8) :
    shapeCast S256x8 (extractStridedSlice S256x8x1 ![0, 0, 0]
        (shapeCast S256x8x128 (shapeCast S2048x128 v shapeCasts_S1x2048x128_S2048x128) shapeCasts_S2048x128_S256x8x128)
        slices_S256x8x128_o0_0_0_S256x8x1) shapeCasts_S256x8x1_S256x8 (ix2 b r)
      = v (ix3 (0 : Fin 1) (⟨8 * b.val + r.val, by omega⟩ : Fin 2048) (0 : Fin 128)) := by
  rw [shapeCast_apply _ _ (ix2 b r) (ix3 b r (0 : Fin 1)) (by
      rw [Shape.rowMajor_val_three, Shape.rowMajor_val_two]
      show (b.val * 8 + r.val) * 1 + 0 = b.val * 8 + r.val
      omega),
    extractStridedSlice_apply _ _ _ (ix3 b r (0 : Fin 1)) (ix3 b r (0 : Fin 128)) (fun a => by
      match a with
      | ⟨0, _⟩ => show b.val = 0 + b.val; omega
      | ⟨1, _⟩ => show r.val = 0 + r.val; omega
      | ⟨2, _⟩ => show 0 = 0 + 0; omega),
    shapeCast_apply _ _ (ix3 b r (0 : Fin 128)) (ix2 (⟨8 * b.val + r.val, by omega⟩ : Fin 2048) (0 : Fin 128)) (by
      rw [Shape.rowMajor_val_three, Shape.rowMajor_val_two]
      show (8 * b.val + r.val) * 128 + 0 = (b.val * 8 + r.val) * 128 + 0
      omega),
    shapeCast_apply _ _ (ix2 (⟨8 * b.val + r.val, by omega⟩ : Fin 2048) (0 : Fin 128))
      (ix3 (0 : Fin 1) (⟨8 * b.val + r.val, by omega⟩ : Fin 2048) (0 : Fin 128)) (by
      rw [Shape.rowMajor_val_three, Shape.rowMajor_val_two]
      show (0 * 2048 + (8 * b.val + r.val)) * 128 + 0 = (8 * b.val + r.val) * 128 + 0
      omega)]

/-- The short slab: element (b, r) of its lane-0 column, viewed two rows to a block, is row `2 b + r` at lane 0. -/
theorem lane0_2_apply {α : Type} (v : S1x512x128.Idx → α) (b : Fin 256) (r : Fin 2) :
    shapeCast S256x2 (extractStridedSlice S256x2x1 ![0, 0, 0]
        (shapeCast S256x2x128 (shapeCast S512x128 v shapeCasts_S1x512x128_S512x128) shapeCasts_S512x128_S256x2x128)
        slices_S256x2x128_o0_0_0_S256x2x1) shapeCasts_S256x2x1_S256x2 (ix2 b r)
      = v (ix3 (0 : Fin 1) (⟨2 * b.val + r.val, by omega⟩ : Fin 512) (0 : Fin 128)) := by
  rw [shapeCast_apply _ _ (ix2 b r) (ix3 b r (0 : Fin 1)) (by
      rw [Shape.rowMajor_val_three, Shape.rowMajor_val_two]
      show (b.val * 2 + r.val) * 1 + 0 = b.val * 2 + r.val
      omega),
    extractStridedSlice_apply _ _ _ (ix3 b r (0 : Fin 1)) (ix3 b r (0 : Fin 128)) (fun a => by
      match a with
      | ⟨0, _⟩ => show b.val = 0 + b.val; omega
      | ⟨1, _⟩ => show r.val = 0 + r.val; omega
      | ⟨2, _⟩ => show 0 = 0 + 0; omega),
    shapeCast_apply _ _ (ix3 b r (0 : Fin 128)) (ix2 (⟨2 * b.val + r.val, by omega⟩ : Fin 512) (0 : Fin 128)) (by
      rw [Shape.rowMajor_val_three, Shape.rowMajor_val_two]
      show (2 * b.val + r.val) * 128 + 0 = (b.val * 2 + r.val) * 128 + 0
      omega),
    shapeCast_apply _ _ (ix2 (⟨2 * b.val + r.val, by omega⟩ : Fin 512) (0 : Fin 128))
      (ix3 (0 : Fin 1) (⟨2 * b.val + r.val, by omega⟩ : Fin 512) (0 : Fin 128)) (by
      rw [Shape.rowMajor_val_three, Shape.rowMajor_val_two]
      show (0 * 512 + (2 * b.val + r.val)) * 128 + 0 = (2 * b.val + r.val) * 128 + 0
      omega)]

variable {F : FTy → Type} [FloatOps F]

/-- Column `8 s + r` of the gathered tile (s = 0 … 5, r < 8) is lane 0 of slab `s` at row `8 b + r`; the last two
    columns, `48 + r` (r < 2), are lane 0 of the short slab at row `2 b + r`. One statement per slab. -/
theorem pay5_apply_0 (v0 v1 v2 v3 v4 v5 : Vec F S1x2048x128 .f32) (v6 : Vec F S1x512x128 .f32) (b : Fin 256) (r : Fin 8) :
    k0_pay5 v0 v1 v2 v3 v4 v5 v6 (ix2 b (⟨8 * 0 + r.val, by omega⟩ : Fin 50))
      = v0 (ix3 (0 : Fin 1) (⟨8 * b.val + r.val, by omega⟩ : Fin 2048) (0 : Fin 128)) := by
  unfold k0_pay5
  refine (concatenate_apply_piece (1 : Fin 2) _ _ (ix2 b (⟨8 * 0 + r.val, by omega⟩ : Fin 50)) 0 (by show (0 : ℕ) < 7; omega)
    S256x8 _ rfl rfl (8 * 0) (by rfl) (ix2 b r) (fun a ha => ?_) rfl).trans (lane0_8_apply v0 b r)
  match a with
  | ⟨0, _⟩ => rfl
  | ⟨1, _⟩ => exact absurd rfl ha

theorem pay5_apply_1 (v0 v1 v2 v3 v4 v5 : Vec F S1x2048x128 .f32) (v6 : Vec F S1x512x128 .f32) (b : Fin 256) (r : Fin 8) :
    k0_pay5 v0 v1 v2 v3 v4 v5 v6 (ix2 b (⟨8 * 1 + r.val, by omega⟩ : Fin 50))
      = v1 (ix3 (0 : Fin 1) (⟨8 * b.val + r.val, by omega⟩ : Fin 2048) (0 : Fin 128)) := by
  unfold k0_pay5
  refine (concatenate_apply_piece (1 : Fin 2) _ _ (ix2 b (⟨8 * 1 + r.val, by omega⟩ : Fin 50)) 1 (by show (1 : ℕ) < 7; omega)
    S256x8 _ rfl rfl (8 * 1) (by rfl) (ix2 b r) (fun a ha => ?_) rfl).trans (lane0_8_apply v1 b r)
  match a with
  | ⟨0, _⟩ => rfl
  | ⟨1, _⟩ => exact absurd rfl ha

theorem pay5_apply_2 (v0 v1 v2 v3 v4 v5 : Vec F S1x2048x128 .f32) (v6 : Vec F S1x512x128 .f32) (b : Fin 256) (r : Fin 8) :
    k0_pay5 v0 v1 v2 v3 v4 v5 v6 (ix2 b (⟨8 * 2 + r.val, by omega⟩ : Fin 50))
      = v2 (ix3 (0 : Fin 1) (⟨8 * b.val + r.val, by omega⟩ : Fin 2048) (0 : Fin 128)) := by
  unfold k0_pay5
  refine (concatenate_apply_piece (1 : Fin 2) _ _ (ix2 b (⟨8 * 2 + r.val, by omega⟩ : Fin 50)) 2 (by show (2 : ℕ) < 7; omega)
    S256x8 _ rfl rfl (8 * 2) (by rfl) (ix2 b r) (fun a ha => ?_) rfl).trans (lane0_8_apply v2 b r)
  match a with
  | ⟨0, _⟩ => rfl
  | ⟨1, _⟩ => exact absurd rfl ha

theorem pay5_apply_3 (v0 v1 v2 v3 v4 v5 : Vec F S1x2048x128 .f32) (v6 : Vec F S1x512x128 .f32) (b : Fin 256) (r : Fin 8) :
    k0_pay5 v0 v1 v2 v3 v4 v5 v6 (ix2 b (⟨8 * 3 + r.val, by omega⟩ : Fin 50))
      = v3 (ix3 (0 : Fin 1) (⟨8 * b.val + r.val, by omega⟩ : Fin 2048) (0 : Fin 128)) := by
  unfold k0_pay5
  refine (concatenate_apply_piece (1 : Fin 2) _ _ (ix2 b (⟨8 * 3 + r.val, by omega⟩ : Fin 50)) 3 (by show (3 : ℕ) < 7; omega)
    S256x8 _ rfl rfl (8 * 3) (by rfl) (ix2 b r) (fun a ha => ?_) rfl).trans (lane0_8_apply v3 b r)
  match a with
  | ⟨0, _⟩ => rfl
  | ⟨1, _⟩ => exact absurd rfl ha

theorem pay5_apply_4 (v0 v1 v2 v3 v4 v5 : Vec F S1x2048x128 .f32) (v6 : Vec F S1x512x128 .f32) (b : Fin 256) (r : Fin 8) :
    k0_pay5 v0 v1 v2 v3 v4 v5 v6 (ix2 b (⟨8 * 4 + r.val, by omega⟩ : Fin 50))
      = v4 (ix3 (0 : Fin 1) (⟨8 * b.val + r.val, by omega⟩ : Fin 2048) (0 : Fin 128)) := by
  unfold k0_pay5
  refine (concatenate_apply_piece (1 : Fin 2) _ _ (ix2 b (⟨8 * 4 + r.val, by omega⟩ : Fin 50)) 4 (by show (4 : ℕ) < 7; omega)
    S256x8 _ rfl rfl (8 * 4) (by rfl) (ix2 b r) (fun a ha => ?_) rfl).trans (lane0_8_apply v4 b r)
  match a with
  | ⟨0, _⟩ => rfl
  | ⟨1, _⟩ => exact absurd rfl ha

theorem pay5_apply_5 (v0 v1 v2 v3 v4 v5 : Vec F S1x2048x128 .f32) (v6 : Vec F S1x512x128 .f32) (b : Fin 256) (r : Fin 8) :
    k0_pay5 v0 v1 v2 v3 v4 v5 v6 (ix2 b (⟨8 * 5 + r.val, by omega⟩ : Fin 50))
      = v5 (ix3 (0 : Fin 1) (⟨8 * b.val + r.val, by omega⟩ : Fin 2048) (0 : Fin 128)) := by
  unfold k0_pay5
  refine (concatenate_apply_piece (1 : Fin 2) _ _ (ix2 b (⟨8 * 5 + r.val, by omega⟩ : Fin 50)) 5 (by show (5 : ℕ) < 7; omega)
    S256x8 _ rfl rfl (8 * 5) (by rfl) (ix2 b r) (fun a ha => ?_) rfl).trans (lane0_8_apply v5 b r)
  match a with
  | ⟨0, _⟩ => rfl
  | ⟨1, _⟩ => exact absurd rfl ha

theorem pay5_apply_6 (v0 v1 v2 v3 v4 v5 : Vec F S1x2048x128 .f32) (v6 : Vec F S1x512x128 .f32) (b : Fin 256) (r : Fin 2) :
    k0_pay5 v0 v1 v2 v3 v4 v5 v6 (ix2 b (⟨48 + r.val, by omega⟩ : Fin 50))
      = v6 (ix3 (0 : Fin 1) (⟨2 * b.val + r.val, by omega⟩ : Fin 512) (0 : Fin 128)) := by
  unfold k0_pay5
  refine (concatenate_apply_piece (1 : Fin 2) _ _ (ix2 b (⟨48 + r.val, by omega⟩ : Fin 50)) 6 (by show (6 : ℕ) < 7; omega)
    S256x2 _ rfl rfl 48 (by rfl) (ix2 b r) (fun a ha => ?_) rfl).trans (lane0_2_apply v6 b r)
  match a with
  | ⟨0, _⟩ => rfl
  | ⟨1, _⟩ => exact absurd rfl ha

end Cert.KernelIdeal.TileMath
-- ==== Proof.KIValueMath.lean ====
/-
  The kernel's arithmetic read at an index, over the extended reals.

  The accumulator [7, 2048, 128] keeps, for input stream j, block row c and column h, one count at lane 0: in slab
  h / 8, row 256 j + 8 c + h % 8 when h < 48, and in slab 6, row 64 j + 2 c + (h - 48) for the last two columns.
  At that index the indicator of all tiles is the zero-row indicator of row (c, h) of channel 0 of stream j's block
  (1 when the sum over k of |x[c, 0, h, k]| is zero, else 0), and the output block of a last visit at
  (32 j + c, h) is the seen block there plus the accumulator's count there. Both are read off the tile lemmas by
  naming the coordinates: quotients and remainders of 256 j + 8 c + r by 256 and 8 (of 64 j + 2 c + r by 64 and 2).
-/
import proofs.«168630_g34205119545578_cont_sun_m_983_19_alg».proof.Proof.KICanon
import proofs.«168630_g34205119545578_cont_sun_m_983_19_alg».proof.Proof.KITile
import Idealize.ShloMosaic.Lib.ValueIdx
import Idealize.ShloMosaic.PureOps.Ideal.Laws

noncomputable section

namespace Cert.KernelIdeal.ValueMath

open Cert.KernelIdeal Cert.KernelIdeal.Gen Cert.KernelIdeal.Hand Cert.KernelIdeal.TileMath Idealize.ShloMosaic Idealize.ShloMosaic.ValueIdx

/-- The zero-row indicator of row (cc, h) of channel 0 of one block: 1 when the sum over k of |x[cc, 0, h, k]| is zero,
    else 0. -/
def ind (xj : Vec Ideal S32x2x50x64 .f32) (cc : Fin 32) (h : Fin 50) : EReal :=
  (((Ideal.cmp .oeq (∑ k : Fin 64, max (xj (ix4 cc (0 : Fin 2) h k)) (-(xj (ix4 cc (0 : Fin 2) h k)))) 0).toNat : ℝ) : EReal)

/-- Where the accumulator keeps the count of block row 32 j + cc, column h: slab h / 8, row 256 j + 8 cc + h % 8 for
    h < 48; slab 6, row 64 j + 2 cc + (h - 48) for the last two columns; lane 0. -/
def accIdx (j : Fin 8) (cc : Fin 32) (h : Fin 50) : S7x2048x128.Idx :=
  if hh : h.val < 48 then
    ix3 (⟨h.val / 8, by omega⟩ : Fin 7) (⟨256 * j.val + 8 * cc.val + h.val % 8, by omega⟩ : Fin 2048) (0 : Fin 128)
  else
    ix3 (6 : Fin 7) (⟨64 * j.val + 2 * cc.val + (h.val - 48), by omega⟩ : Fin 2048) (0 : Fin 128)

/-- A column below 48 is 8 s + r with s < 6, r < 8; the other two are 48 + r with r < 2. -/
theorem col_cases (h : Fin 50) :
    (∃ (s : Fin 6) (r : Fin 8), h.val = 8 * s.val + r.val) ∨ (∃ r : Fin 2, h.val = 48 + r.val) := by
  by_cases hh : h.val < 48
  · exact Or.inl ⟨⟨h.val / 8, by omega⟩, ⟨h.val % 8, by omega⟩, by show h.val = 8 * (h.val / 8) + h.val % 8; omega⟩
  · exact Or.inr ⟨⟨h.val - 48, by omega⟩, by show h.val = 48 + (h.val - 48); omega⟩

/-- The accumulator's index of column 8 s + r. -/
theorem accIdx_lt (j : Fin 8) (cc : Fin 32) (h : Fin 50) (s : Fin 6) (r : Fin 8) (hs : h.val = 8 * s.val + r.val) :
    accIdx j cc h = ix3 (⟨s.val, by omega⟩ : Fin 7) (⟨256 * j.val + 8 * cc.val + r.val, by omega⟩ : Fin 2048) (0 : Fin 128) := by
  have hs' := s.isLt
  have hr := r.isLt
  unfold accIdx
  rw [dif_pos (by omega : h.val < 48)]
  funext a
  apply Fin.ext
  match a with
  | ⟨0, _⟩ => show h.val / 8 = s.val; omega
  | ⟨1, _⟩ => show 256 * j.val + 8 * cc.val + h.val % 8 = 256 * j.val + 8 * cc.val + r.val; omega
  | ⟨2, _⟩ => rfl

/-- The accumulator's index of column 48 + r. -/
theorem accIdx_ge (j : Fin 8) (cc : Fin 32) (h : Fin 50) (r : Fin 2) (hs : h.val = 48 + r.val) :
    accIdx j cc h = ix3 (6 : Fin 7) (⟨64 * j.val + 2 * cc.val + r.val, by omega⟩ : Fin 2048) (0 : Fin 128) := by
  have hr := r.isLt
  unfold accIdx
  rw [dif_neg (by omega : ¬ h.val < 48)]
  funext a
  apply Fin.ext
  match a with
  | ⟨0, _⟩ => rfl
  | ⟨1, _⟩ => show 64 * j.val + 2 * cc.val + (h.val - 48) = 64 * j.val + 2 * cc.val + r.val; omega
  | ⟨2, _⟩ => rfl

theorem cov_accIdx (j : Fin 8) (cc : Fin 32) (h : Fin 50) : Cov (accIdx j cc h) := by
  have hj := j.isLt
  have hc := cc.isLt
  rcases col_cases h with ⟨s, r, hs⟩ | ⟨r, hs⟩
  · rw [accIdx_lt j cc h s r hs]
    exact Or.inl s.isLt
  · rw [accIdx_ge j cc h r hs]
    have hr := r.isLt
    refine Or.inr ?_
    show 64 * j.val + 2 * cc.val + r.val < 512
    omega

variable {F : FTy → Type} [FloatOps F]

/-- Row group t of a block at (c, 0, r, k) is the block at (c, 0, 8 t + r, k). -/
theorem in8_apply (xj : Vec F S32x2x50x64 .f32) (t : Fin 6) (c : Fin 32) (r : Fin 8) (k : Fin 64) :
    in8 xj t (ix4 c (0 : Fin 1) r k) = xj (ix4 c (0 : Fin 2) (⟨8 * t.val + r.val, by omega⟩ : Fin 50) k) := by
  show xj ((inRect8 t).idx (ix4 c (0 : Fin 1) r k)) = _
  congr 1
  funext a
  apply Fin.ext
  match a with
  | ⟨0, _⟩ => show 0 + 1 * c.val = c.val; omega
  | ⟨1, _⟩ => show 0 + 1 * 0 = 0; omega
  | ⟨2, _⟩ => show 8 * t.val + 1 * r.val = 8 * t.val + r.val; omega
  | ⟨3, _⟩ => show 0 + 1 * k.val = k.val; omega

/-- The last row group at (c, 0, r, k) is the block at (c, 0, 48 + r, k). -/
theorem in2_apply (xj : Vec F S32x2x50x64 .f32) (c : Fin 32) (r : Fin 2) (k : Fin 64) :
    in2 xj (ix4 c (0 : Fin 1) r k) = xj (ix4 c (0 : Fin 2) (⟨48 + r.val, by omega⟩ : Fin 50) k) := by
  show xj (inRect2.idx (ix4 c (0 : Fin 1) r k)) = _
  congr 1
  funext a
  apply Fin.ext
  match a with
  | ⟨0, _⟩ => show 0 + 1 * c.val = c.val; omega
  | ⟨1, _⟩ => show 0 + 1 * 0 = 0; omega
  | ⟨2, _⟩ => show 48 + 1 * r.val = 48 + r.val; omega
  | ⟨3, _⟩ => show 0 + 1 * k.val = k.val; omega

/-- Slab s of the accumulator at (0, R, l) is the accumulator at (s, R, l). -/
theorem ld_slab (A : Vec F S7x2048x128 .f32) (s : Fin 6) (R : Fin 2048) (l : Fin 128) :
    View.ld A (slabRect s) (ix3 (0 : Fin 1) R l) = A (ix3 (⟨s.val, by omega⟩ : Fin 7) R l) := by
  show A ((slabRect s).idx (ix3 (0 : Fin 1) R l)) = _
  congr 1
  funext a
  apply Fin.ext
  match a with
  | ⟨0, _⟩ => show s.val + 1 * 0 = s.val; omega
  | ⟨1, _⟩ => show 0 + 1 * R.val = R.val; omega
  | ⟨2, _⟩ => show 0 + 1 * l.val = l.val; omega

/-- The covered rows of slab 6 at (0, R, l) are the accumulator at (6, R, l). -/
theorem ld_slab6 (A : Vec F S7x2048x128 .f32) (R : Fin 512) (l : Fin 128) :
    View.ld A slabRect6 (ix3 (0 : Fin 1) R l) = A (ix3 (6 : Fin 7) (⟨R.val, by omega⟩ : Fin 2048) l) := by
  show A (slabRect6.idx (ix3 (0 : Fin 1) R l)) = _
  congr 1
  funext a
  apply Fin.ext
  match a with
  | ⟨0, _⟩ => show 6 + 1 * 0 = 6; omega
  | ⟨1, _⟩ => show 0 + 1 * R.val = R.val; omega
  | ⟨2, _⟩ => show 0 + 1 * l.val = l.val; omega

theorem acc_four (r0 r1 r2 r3 : EReal) : ((r0 + r1) + r2) + r3 = ∑ q : Fin 4, ![r0, r1, r2, r3] q :=
  by
  rw [Fin.sum_univ_four]
  rfl

/-- Two readings of one block entry through equal stream and index agree, and so do their absolute values. -/
theorem maxneg_congr (X : Fin 8 → Vec Ideal S32x2x50x64 .f32) {J' j : Fin 8} {I' I : S32x2x50x64.Idx} (hJ : J' = j) (hI : I' = I) :
    max (X J' I') (-(X J' I')) = max (X j I) (-(X j I)) := by
  subst hJ; subst hI; rfl

/-- The indicator of all tiles at the index of (stream j, block row c, column 8 t + r), any lane. -/
theorem rzAll_lt (X : Fin 8 → Vec Ideal S32x2x50x64 .f32) (j : Fin 8) (c : Fin 32) (t : Fin 6) (r : Fin 8) (l : Fin 128) :
    rzAll (F := Ideal) X (ix3 (⟨t.val, by omega⟩ : Fin 7) (⟨256 * j.val + 8 * c.val + r.val, by omega⟩ : Fin 2048) l)
      = ind (X j) c (⟨8 * t.val + r.val, by omega⟩ : Fin 50) := by
  have hj := j.isLt
  have hc := c.isLt
  have hr := r.isLt
  have ht := t.isLt
  unfold rzAll
  split
  · rw [pay7_apply]
    unfold ind
    congr 4
    refine Finset.sum_congr rfl fun k _ => ?_
    rw [in8_apply]
    refine maxneg_congr X (Fin.ext ?_) (funext fun a => Fin.ext ?_)
    · show (256 * j.val + 8 * c.val + r.val) / 256 = j.val
      omega
    · match a with
      | ⟨0, _⟩ => show (256 * j.val + 8 * c.val + r.val) % 256 / 8 = c.val; omega
      | ⟨1, _⟩ => rfl
      | ⟨2, _⟩ => show 8 * t.val + (256 * j.val + 8 * c.val + r.val) % 256 % 8 = 8 * t.val + r.val; omega
      | ⟨3, _⟩ => rfl
  · rename_i hn
    exact absurd (show t.val < 6 from ht) hn

/-- The indicator of all tiles at the index of (stream j, block row c, column 48 + r), any lane. -/
theorem rzAll_ge (X : Fin 8 → Vec Ideal S32x2x50x64 .f32) (j : Fin 8) (c : Fin 32) (r : Fin 2) (l : Fin 128) :
    rzAll (F := Ideal) X (ix3 (6 : Fin 7) (⟨64 * j.val + 2 * c.val + r.val, by omega⟩ : Fin 2048) l)
      = ind (X j) c (⟨48 + r.val, by omega⟩ : Fin 50) := by
  have hj := j.isLt
  have hc := c.isLt
  have hr := r.isLt
  unfold rzAll
  split
  · rename_i hn
    exact absurd (show (6 : Nat) < 6 from hn) (by omega)
  · rw [pay48_apply]
    unfold ind
    congr 4
    refine Finset.sum_congr rfl fun k _ => ?_
    rw [in2_apply]
    refine maxneg_congr X (Fin.ext ?_) (funext fun a => Fin.ext ?_)
    · show (64 * j.val + 2 * c.val + r.val) / 64 % 8 = j.val
      omega
    · match a with
      | ⟨0, _⟩ => show (64 * j.val + 2 * c.val + r.val) % 64 / 2 = c.val; omega
      | ⟨1, _⟩ => rfl
      | ⟨2, _⟩ => show 48 + (64 * j.val + 2 * c.val + r.val) % 64 % 2 = 48 + r.val; omega
      | ⟨3, _⟩ => rfl

/-- At the accumulator's index of (stream j, block row cc, column h) the indicator of all tiles is that row's. -/
theorem rzAll_accIdx (X : Fin 8 → Vec Ideal S32x2x50x64 .f32) (j : Fin 8) (cc : Fin 32) (h : Fin 50) :
    rzAll (F := Ideal) X (accIdx j cc h) = ind (X j) cc h := by
  rcases col_cases h with ⟨s, r, hs⟩ | ⟨r, hs⟩
  · rw [accIdx_lt j cc h s r hs, rzAll_lt X j cc s r 0]
    congr 1
    exact Fin.ext hs.symm
  · rw [accIdx_ge j cc h r hs, rzAll_ge X j cc r 0]
    congr 1
    exact Fin.ext hs.symm

/-- Column 8 s + r of the gathered tile, the seven operands being the accumulator read through its seven boxes, is the
    accumulator at (s, 8 b + r, 0). -/
theorem gather_lt (A : Vec F S7x2048x128 .f32) (b : Fin 256) (s : Fin 6) (r : Fin 8) :
    k0_pay5 (View.ld A (slabRect 0)) (View.ld A (slabRect 1)) (View.ld A (slabRect 2)) (View.ld A (slabRect 3))
        (View.ld A (slabRect 4)) (View.ld A (slabRect 5)) (View.ld A slabRect6) (ix2 b (⟨8 * s.val + r.val, by omega⟩ : Fin 50))
      = A (ix3 (⟨s.val, by omega⟩ : Fin 7) (⟨8 * b.val + r.val, by omega⟩ : Fin 2048) (0 : Fin 128)) := by
  fin_cases s
  · exact (pay5_apply_0 _ _ _ _ _ _ _ b r).trans (ld_slab A 0 _ 0)
  · exact (pay5_apply_1 _ _ _ _ _ _ _ b r).trans (ld_slab A 1 _ 0)
  · exact (pay5_apply_2 _ _ _ _ _ _ _ b r).trans (ld_slab A 2 _ 0)
  · exact (pay5_apply_3 _ _ _ _ _ _ _ b r).trans (ld_slab A 3 _ 0)
  · exact (pay5_apply_4 _ _ _ _ _ _ _ b r).trans (ld_slab A 4 _ 0)
  · exact (pay5_apply_5 _ _ _ _ _ _ _ b r).trans (ld_slab A 5 _ 0)

/-- Column 48 + r likewise is the accumulator at (6, 2 b + r, 0). -/
theorem gather_ge (A : Vec F S7x2048x128 .f32) (b : Fin 256) (r : Fin 2) :
    k0_pay5 (View.ld A (slabRect 0)) (View.ld A (slabRect 1)) (View.ld A (slabRect 2)) (View.ld A (slabRect 3))
        (View.ld A (slabRect 4)) (View.ld A (slabRect 5)) (View.ld A slabRect6) (ix2 b (⟨48 + r.val, by omega⟩ : Fin 50))
      = A (ix3 (6 : Fin 7) (⟨2 * b.val + r.val, by omega⟩ : Fin 2048) (0 : Fin 128)) :=
  (pay5_apply_6 _ _ _ _ _ _ _ b r).trans (ld_slab6 A _ 0)

/-- The output block of a last visit at (32 j + cc, h): the seen block there plus the accumulator's count. -/
theorem emitOf_apply (xs : Vec Ideal S256x50 .f32) (A : Vec Ideal S7x2048x128 .f32) (j : Fin 8) (cc : Fin 32) (h : Fin 50) :
    emitOf (F := Ideal) xs A (ix2 (⟨32 * j.val + cc.val, by omega⟩ : Fin 256) h)
      = xs (ix2 (⟨32 * j.val + cc.val, by omega⟩ : Fin 256) h) + A (accIdx j cc h) := by
  have hj := j.isLt
  have hc := cc.isLt
  unfold emitOf
  show addf (F := Ideal) (φ := .f32) xs _ _ = _
  rw [addf_apply]
  congr 1
  rcases col_cases h with ⟨s, r, hs⟩ | ⟨r, hs⟩
  · rw [show h = (⟨8 * s.val + r.val, by omega⟩ : Fin 50) from Fin.ext hs, accIdx_lt j cc _ s r rfl, gather_lt]
    refine congrArg A (funext fun a => Fin.ext ?_)
    match a with
    | ⟨0, _⟩ => rfl
    | ⟨1, _⟩ => show 8 * (32 * j.val + cc.val) + r.val = 256 * j.val + 8 * cc.val + r.val; omega
    | ⟨2, _⟩ => rfl
  · rw [show h = (⟨48 + r.val, by omega⟩ : Fin 50) from Fin.ext hs, accIdx_ge j cc _ r rfl, gather_ge]
    refine congrArg A (funext fun a => Fin.ext ?_)
    match a with
    | ⟨0, _⟩ => rfl
    | ⟨1, _⟩ => show 2 * (32 * j.val + cc.val) + r.val = 64 * j.val + 2 * cc.val + r.val; omega
    | ⟨2, _⟩ => rfl

end Cert.KernelIdeal.ValueMath

end
-- ==== Proof.Spec.lean ====
/-
  The function both programs compute, stated once over the extended reals.

  For an array x of shape [4096, 2, 50, 64] and a table seen of shape [1024, 50]: row (n, h) of channel 0 of x is
  "all zero" when the sum over k of |x[n, 0, h, k]| is zero (a sum of non-negative extended reals is zero exactly
  when every term is). The result at (b, h) is seen[b, h] plus the number of the four rows n = b, b + 1024,
  b + 2048, b + 3072 (the rows congruent to b modulo 1024) whose row (n, h) is all zero.
-/
import Idealize.ShloMosaic.Lib.ValueIdx
import Idealize.ShloMosaic.PureOps.Ideal.Laws

noncomputable section

namespace Cert.Probe

open Idealize.ShloMosaic Idealize.ShloMosaic.ValueIdx

abbrev SX : Shape := ⟨4, ![4096, 2, 50, 64]⟩
abbrev SS : Shape := ⟨2, ![1024, 50]⟩

/-- The sum over k of |x[n, 0, h, k]|, the absolute value read as max(a, -a). -/
def absRowSum (x : SX.Idx → EReal) (n : Fin 4096) (h : Fin 50) : EReal :=
  ∑ k : Fin 64, max (x (ix4 n (0 : Fin 2) h k)) (-(x (ix4 n (0 : Fin 2) h k)))

/-- 1 when that sum is zero, else 0: the one-bit comparison read as an unsigned integer, then as a real. -/
def rowZero (x : SX.Idx → EReal) (n : Fin 4096) (h : Fin 50) : EReal :=
  (((Ideal.cmp .oeq (absRowSum x n h) 0).toNat : ℝ) : EReal)

/-- The q-th row congruent to b modulo 1024. -/
def rowOf (b : Fin 1024) (q : Fin 4) : Fin 4096 := ⟨b.val + 1024 * q.val, by omega⟩

/-- The result at (b, h). -/
def Gat (x : SX.Idx → EReal) (seen : SS.Idx → EReal) (b : Fin 1024) (h : Fin 50) : EReal :=
  seen (ix2 b h) + ∑ q : Fin 4, rowZero x (rowOf b q) h

/-- The result as an array. -/
def G (x : SX.Idx → EReal) (seen : SS.Idx → EReal) : SS.Idx → EReal :=
  fun i => Gat x seen (i 0) (i 1)

theorem G_apply (x : SX.Idx → EReal) (seen : SS.Idx → EReal) (b : Fin 1024) (h : Fin 50) :
    G x seen (ix2 b h) = Gat x seen b h := rfl

end Cert.Probe

end
-- ==== Proof.KIFinal.lean ====
/-
  The result array after the run, as one function of the two argument arrays.

  The grid is 4 × 4: point t = 4 r + q visits output row block r for the q-th time, and its eight input blocks are
  rows 256 r + 1024 q + 32 j .. + 31 of the array x (stream j = 0..7). The accumulator after the four visits of row
  block r holds, at the index of (stream j, block row cc, column h), the sum over q of the zero-row indicator of row
  256 r + 32 j + cc + 1024 q: a first visit writes the indicator, each later visit adds one. The last visit stores the
  seen block plus those counts, which is the block of rows 256 r .. 256 r + 255 of the function `G`; the write-backs
  at the points 4 r + 3 cover the result array, so it ends holding `G`.
-/
import proofs.«168630_g34205119545578_cont_sun_m_983_19_alg».proof.Proof.KIData
import proofs.«168630_g34205119545578_cont_sun_m_983_19_alg».proof.Proof.KIBlocks
import proofs.«168630_g34205119545578_cont_sun_m_983_19_alg».proof.Proof.KIValueMath
import proofs.«168630_g34205119545578_cont_sun_m_983_19_alg».proof.Proof.Spec
import Idealize.ShloMosaic.Lib.Pipeline.Value
import Idealize.ShloMosaic.Lib.Pipeline.FrameBody
import Idealize.ShloMosaic.Lib.ValueIdx
import Idealize.ShloMosaic.PureOps.Ideal.Laws

set_option maxRecDepth 16384

noncomputable section

namespace Cert.KernelIdeal.Final

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Hand Cert.KernelIdeal.ValueMath
open Idealize.ShloMosaic.ValueIdx
open Cert.Probe (SX SS rowZero rowOf Gat G G_apply absRowSum)

variable (m : (ℓ : Loc nD τ sig) → Buf (Elt Ideal) ℓ)

/-- The two argument arrays as core `c` finds them. -/
abbrev xA (c : Dev nD) : SX.Idx → EReal := m ((c : Thread nD τ).loc main_arg0)
abbrev sA (c : Dev nD) : SS.Idx → EReal := m ((c : Thread nD τ).loc main_arg1)

theorem N16 : cfg0.N = 16 := N_0

/-- The output window's block index over the grid: row block t / 4, column block 0. -/
theorem out_index : ∀ t : Fin cfg0.N, win0_9.index t (0 : Fin 2) = t.val / 4 ∧ win0_9.index t (1 : Fin 2) = 0 :=
  (by decide +kernel : ∀ t : Fin grid0.N, win0_9.index t (0 : Fin 2) = t.val / 4 ∧ win0_9.index t (1 : Fin 2) = 0)

/-- The output window's blocks are never cut. -/
theorem out_xsize : ∀ t : Fin cfg0.N, win0_9.xsize (grid0.coords t) (0 : Fin 2) = 256 ∧ win0_9.xsize (grid0.coords t) (1 : Fin 2) = 50 :=
  (by decide +kernel : ∀ t : Fin grid0.N, win0_9.xsize (grid0.coords t) (0 : Fin 2) = 256 ∧ win0_9.xsize (grid0.coords t) (1 : Fin 2) = 50)

theorem last_lt (r : Fin 4) : 4 * r.val + 3 < cfg0.N := by rw [N16]; omega
theorem row_lt (j : Fin 8) (cc : Fin 32) : 32 * j.val + cc.val < 256 := by omega

/-- A later visit adds the indicator, at Ideal. -/
theorem accAt_step (c : Dev nD) (n : ℕ) (h : n + 1 < cfg0.N) (hn : ¬(n + 1) % 4 = 0) (y : S7x2048x128.Idx) :
    accAt (F := Ideal) m c (n + 1) h y = accAt m c n (Nat.lt_of_succ_lt h) y + rzAll (XB m c ⟨n + 1, h⟩) y := by
  rw [accAt_later m c ⟨n + 1, h⟩ hn]
  rfl

theorem accAt_step' (c : Dev nD) (n k : ℕ) (hk : k = n + 1) (h : k < cfg0.N) (hn : ¬k % 4 = 0) (y : S7x2048x128.Idx) :
    accAt (F := Ideal) m c k h y = accAt m c n (by omega) y + rzAll (XB m c ⟨k, h⟩) y := by
  subst hk; exact accAt_step m c n h hn y

/-- The indicator of stream j's block at point 4 r + q is the reference's zero-row indicator of row
    256 r + 32 j + cc + 1024 q of the array. -/
theorem ind_XB (c : Dev nD) (r q : Fin 4) (j : Fin 8) (cc : Fin 32) (h : Fin 50) :
    ind (XB m c ⟨4 * r.val + q.val, by rw [N16]; omega⟩ j) cc h
      = rowZero (xA m c) (rowOf ⟨256 * r.val + 32 * j.val + cc.val, by omega⟩ q) h := by
  have hr := r.isLt
  have hq := q.isLt
  unfold ind rowZero absRowSum
  simp only [XB_apply]
  have e : (⟨256 * ((4 * r.val + q.val) / 4) + 1024 * ((4 * r.val + q.val) % 4) + 32 * j.val + cc.val, by omega⟩ : Fin 4096)
      = rowOf ⟨256 * r.val + 32 * j.val + cc.val, by omega⟩ q := Fin.ext (by show 256 * ((4 * r.val + q.val) / 4) + 1024 * ((4 * r.val + q.val) % 4) + 32 * j.val + cc.val = 256 * r.val + 32 * j.val + cc.val + 1024 * q.val; omega)
  rw [e]

/-- The accumulator after the four visits of row block r, at the index of (stream j, block row cc, column h). -/
theorem accAt_four (c : Dev nD) (r : Fin 4) (j : Fin 8) (cc : Fin 32) (h : Fin 50) :
    accAt (F := Ideal) m c (4 * r.val + 3) (by rw [N16]; omega) (accIdx j cc h)
      = ∑ q : Fin 4, rowZero (xA m c) (rowOf ⟨256 * r.val + 32 * j.val + cc.val, by omega⟩ q) h := by
  have hr := r.isLt
  have hN := N16
  have s3 := accAt_step' m c (4 * r.val + 2) (4 * r.val + 3) rfl (by omega) (by omega) (accIdx j cc h)
  have s2 := accAt_step' m c (4 * r.val + 1) (4 * r.val + 2) rfl (by omega) (by omega) (accIdx j cc h)
  have s1 := accAt_step' m c (4 * r.val) (4 * r.val + 1) rfl (by omega) (by omega) (accIdx j cc h)
  have s0 := congrFun (accAt_first m c ⟨4 * r.val, by omega⟩ (by show 4 * r.val % 4 = 0; omega)) (accIdx j cc h)
  rw [s3, s2, s1]
  rw [show accAt (F := Ideal) m c (4 * r.val) (by omega) (accIdx j cc h) = _ from s0]
  rw [rzAll_accIdx, rzAll_accIdx, rzAll_accIdx, rzAll_accIdx, Fin.sum_univ_four]
  refine congrArg₂ (· + ·) (congrArg₂ (· + ·) (congrArg₂ (· + ·) ?_ ?_) ?_) ?_
  · exact ind_XB m c r 0 j cc h
  · exact ind_XB m c r 1 j cc h
  · exact ind_XB m c r 2 j cc h
  · exact ind_XB m c r 3 j cc h

/-- The output block of the last visit of row block r. -/
theorem out_block_r (c : Dev nD) (r : Fin 4) (j : Fin 8) (cc : Fin 32) (h : Fin 50) :
    emitOf (SB m c ⟨4 * r.val + 3, by rw [N16]; omega⟩) (accAt (F := Ideal) m c (4 * r.val + 3) (by rw [N16]; omega))
        (ix2 (⟨32 * j.val + cc.val, by omega⟩ : Fin 256) h)
      = Gat (xA m c) (sA m c) ⟨256 * r.val + 32 * j.val + cc.val, by omega⟩ h := by
  have hr := r.isLt
  rw [emitOf_apply, SB_apply, accAt_four m c r j cc h]
  unfold Gat
  refine congrArg₂ (· + ·) (congrArg (sA m c) (congrArg (fun b => ix2 b h) (Fin.ext ?_))) rfl
  show 256 * ((4 * r.val + 3) / 4) + (32 * j.val + cc.val) = 256 * r.val + 32 * j.val + cc.val
  omega

theorem out_block (c : Dev nD) (t : Fin cfg0.N) (ht : t.val % 4 = 3) (bl : Fin 256) (h : Fin 50) :
    emitOf (SB m c t) (accAt (F := Ideal) m c t.val t.isLt) (ix2 bl h)
      = Gat (xA m c) (sA m c) ⟨256 * (t.val / 4) + bl.val, by have := t.isLt; have hN : cfg0.N = 16 := N_0; omega⟩ h := by
  have hN := N16
  have ht' := t.isLt
  have hb := bl.isLt
  obtain ⟨r, rfl⟩ : ∃ r : Fin 4, t = ⟨4 * r.val + 3, last_lt r⟩ := ⟨⟨t.val / 4, by omega⟩, Fin.ext (by show t.val = 4 * (t.val / 4) + 3; omega)⟩
  obtain ⟨j, cc, rfl⟩ : ∃ (j : Fin 8) (cc : Fin 32), bl = ⟨32 * j.val + cc.val, row_lt j cc⟩ :=
    ⟨⟨bl.val / 32, by omega⟩, ⟨bl.val % 32, by omega⟩, Fin.ext (by show bl.val = 32 * (bl.val / 32) + bl.val % 32; omega)⟩
  have hr := r.isLt
  rw [out_block_r m c r j cc h]
  congr 1
  refine Fin.ext ?_
  show 256 * r.val + 32 * j.val + cc.val = 256 * ((4 * r.val + 3) / 4) + (32 * j.val + cc.val)
  omega

/-- What a last visit writes back is its block of the result. -/
theorem flushed_eq (c : Dev nD) (t : Fin cfg0.N) (hf : (cfg0.win 9).flush t = true) :
    (dats (F := Ideal) m 0 c).flushed 9 t = ((cfg0.win 9).blk t).view.read (Elt Ideal) (G (xA m c) (sA m c)) := by
  have hN := N16
  have ht' := t.isLt
  have ht : t.val % 4 = 3 := (flush0_9 t).mp hf
  obtain ⟨e0, e1⟩ := out_index t
  obtain ⟨x0, x1⟩ := out_xsize t
  show (cfg0.win 9).cut (grid0.coords t) ((dats (F := Ideal) m 0 c).after 9 t) = _
  rw [after_9]
  funext y
  have hy0 : (y 0).val < 256 := lt_of_lt_of_eq (show (y 0).val < win0_9.xsize (grid0.coords t) 0 from (y 0).isLt) x0
  have hy1 : (y 1).val < 50 := lt_of_lt_of_eq (show (y 1).val < win0_9.xsize (grid0.coords t) 1 from (y 1).isLt) x1
  rw [View.read_apply]
  show emitOf (SB m c t) (accAt (F := Ideal) m c t.val t.isLt) ((cfg0.win 9).xinj (grid0.coords t) y)
    = G (xA m c) (sA m c) (((cfg0.win 9).blk t).view.emb y)
  have el : (cfg0.win 9).xinj (grid0.coords t) y = ix2 (⟨(y 0).val, hy0⟩ : Fin 256) (⟨(y 1).val, hy1⟩ : Fin 50) :=
    funext fun a => Fin.ext (by match a with | ⟨0, _⟩ => rfl | ⟨1, _⟩ => rfl)
  have er : ((cfg0.win 9).blk t).view.emb y
      = ix2 (⟨256 * (t.val / 4) + (y 0).val, by omega⟩ : Fin 1024) (⟨(y 1).val, hy1⟩ : Fin 50) :=
    funext fun a => Fin.ext (by
      match a with
      | ⟨0, _⟩ => show win0_9.index t (0 : Fin 2) * 256 + 1 * (y 0).val = 256 * (t.val / 4) + (y 0).val; omega
      | ⟨1, _⟩ => show win0_9.index t (1 : Fin 2) * 50 + 1 * (y 1).val = (y 1).val; omega)
  rw [el, er, G_apply]
  exact out_block m c t ht ⟨(y 0).val, hy0⟩ ⟨(y 1).val, hy1⟩

/-- An index of the result is in point t's block iff each coordinate is in the block's range. -/
theorem mem_blk (t : Fin cfg0.N) (i : SS.Idx) :
    i ∈ ((cfg0.win 9).blk t).view.set ↔ ∀ a : Fin 2, win0_9.index t a * S256x50.size a ≤ (i a).val ∧ (i a).val < win0_9.index t a * S256x50.size a + win0_9.xsize (grid0.coords t) a := by
  show i ∈ ((View.whole main_v0).slice (win0_9.rect t)).set ↔ _
  rw [View.set_slice_whole, Rect.mem_set_unit]
  exact Iff.rfl

/-- Row b of the result is written back at the last visit of row block b / 256. -/
theorem cover (i : SS.Idx) : ∃ t : Fin cfg0.N, (cfg0.win 9).flush t = true ∧ i ∈ ((cfg0.win 9).blk t).view.set := by
  have hi0 : (i 0).val < 1024 := (i 0).isLt
  have hi1 : (i 1).val < 50 := (i 1).isLt
  obtain ⟨t, ht⟩ : ∃ t : Fin cfg0.N, t.val = 4 * ((i 0).val / 256) + 3 := ⟨⟨4 * ((i 0).val / 256) + 3, by rw [N16]; omega⟩, rfl⟩
  obtain ⟨e0, e1⟩ := out_index t
  obtain ⟨x0, x1⟩ := out_xsize t
  refine ⟨t, (flush0_9 t).mpr (by omega), ?_⟩
  rw [mem_blk]
  intro a
  match a with
  | ⟨0, _⟩ => show win0_9.index t (0 : Fin 2) * 256 ≤ (i 0).val ∧ (i 0).val < win0_9.index t (0 : Fin 2) * 256 + win0_9.xsize (grid0.coords t) (0 : Fin 2); omega
  | ⟨1, _⟩ => show win0_9.index t (1 : Fin 2) * 50 ≤ (i 1).val ∧ (i 1).val < win0_9.index t (1 : Fin 2) * 50 + win0_9.xsize (grid0.coords t) (1 : Fin 2); omega

/-- The result array after the run. -/
theorem kernel_out (c : Dev nD) : (Cert.KernelIdeal.Hand.dats (F := Ideal) m 0 c).arrAt 9 cfg0.N
    = G (m ((c : Thread nD τ).loc main_arg0)) (m ((c : Thread nD τ).loc main_arg1)) :=
  (dats (F := Ideal) m 0 c).arrAt_eq_of_cover 9 (G (xA m c) (sA m c)) (fun t hf => flushed_eq m c t hf) (cover)

end Cert.KernelIdeal.Final

end
-- ==== Proof.KIValueRun.lean ====
/-
  The run of the kernel with its output array named.

  The pipeline's run ends with every window's array at what the proof data computes and every other buffer as it
  was. The output window's array after the last point is, by hypothesis, the function G of the two arguments as the
  region finds them; the two input windows' arrays are never written back, so they end as they began.
-/
import proofs.«168630_g34205119545578_cont_sun_m_983_19_alg».proof.Proof.KIData
import proofs.«168630_g34205119545578_cont_sun_m_983_19_alg».proof.Proof.Spec

set_option maxRecDepth 16384

noncomputable section

namespace Cert.KernelIdeal.Final

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- Given the output window's array after the last point as G of the arguments, every weakly fair execution of @main
    from the arguments `m` terminates with the result buffer at G of the arguments and the arguments unchanged. -/
theorem run_value_of
    (hout : ∀ (m : (ℓ : Loc nD τ sig) → Buf (Elt Ideal) ℓ) (c : Dev nD),
      (Cert.KernelIdeal.Hand.dats (F := Ideal) m 0 c).arrAt 9 cfg0.N
        = Cert.Probe.G (m ((c : Thread nD τ).loc main_arg0)) (m ((c : Thread nD τ).loc main_arg1)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = Cert.Probe.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ hr c => ⟨((hr c).1 9).trans (hout m c),
      ((hr c).1 0).trans (((Cert.KernelIdeal.Hand.dats m 0 c).arrAt_in 0 rfl _).trans (Cert.KernelIdeal.Hand.A_eq m c 0)),
      ((hr c).1 8).trans (((Cert.KernelIdeal.Hand.dats m 0 c).arrAt_in 8 rfl _).trans (Cert.KernelIdeal.Hand.A_eq m c 8))⟩)
    (Cert.KernelIdeal.Hand.run_main m ρ)

end Cert.KernelIdeal.Final
-- ==== Proof.RefRun.lean ====
/-
  The reference program's run, written out.

  @main is a straight line of host operations once its two module-local functions are substituted at their calls:
  remainder (which itself calls the select helper) contributes twenty-one operations between @main's tenth and
  eleventh. The list below is that line, forty-four operations in order; every weakly fair execution from any memory
  with zero counters terminates with the result buffer at the operations' composed term of the two arguments' launch
  contents, and the arguments unchanged. The integer chain that produces the scatter's row indices (an iota taken
  modulo 1024 as a floored remainder, then the negative-index normalisation, then the broadcast to a column) depends on
  neither argument; it is one named constant, idxChain.
-/
import proofs.«168630_g34205119545578_cont_sun_m_983_19_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty-four operations, in order, the calls substituted. -/
abbrev ops : List (HloOp τ sig (Elt F)) :=
  [ unary main_arg0 main_v0 ((extractStridedSlice S4096x1x50x64 ![0, 0, 0, 0] · slices_S4096x2x50x64_S4096x1x50x64_0_0_0_0) : (⟨S4096x2x50x64, .f32⟩ : BufTy).Contents (Elt F) → (⟨S4096x1x50x64, .f32⟩ : BufTy).Contents (Elt F)),
    reshape main_v0 main_v1 rfl shapeCasts_S4096x1x50x64_S4096x50x64,
    unary main_v1 main_v2 (Host.absf : (⟨S4096x50x64, .f32⟩ : BufTy).Contents (Elt F) → (⟨S4096x50x64, .f32⟩ : BufTy).Contents (Elt F)),
    nullary main_cst (constant S_ .f32 0x00000000#32),
    binary main_v2 main_cst main_v3 ((fun x v => Host.reduceAdd x v reducesTo_S4096x50x64_S4096x50_d2 h_S_) : (⟨S4096x50x64, .f32⟩ : BufTy).Contents (Elt F) → (⟨S_, .f32⟩ : BufTy).Contents (Elt F) → (⟨S4096x50, .f32⟩ : BufTy).Contents (Elt F)),
    nullary main_cst_0 (constant S_ .f32 0x00000000#32),
    unary main_cst_0 main_v4 (broadcastInDim S4096x50 ![] bcast_S_S4096x50 : (⟨S_, .f32⟩ : BufTy).Contents (Elt F) → (⟨S4096x50, .f32⟩ : BufTy).Contents (Elt F)),
    binary main_v3 main_v4 main_v5 (cmpf .oeq : (⟨S4096x50, .f32⟩ : BufTy).Contents (Elt F) → (⟨S4096x50, .f32⟩ : BufTy).Contents (Elt F) → (⟨S4096x50, .i1⟩ : BufTy).Contents (Elt F)),
    nullary main_v6 (iotaInDim S4096 32 0),
    nullary main_c (constantI S_ 32 1024#32),
    -- remainder(%6, %c)
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    -- its select helper
    TRef.ternary main_call0.v1 main_call0.c_0 main_call0.v0 main_call0.call0.v0 select,
    TRef.unary main_call0.call0.v0 main_call0.v3 (broadcastInDim S4096 ![] bcast_S_S4096),
    TRef.binary (.of main_v6) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    -- back in @main
    unary main_v5 main_v8 (uitofp .f32 : (⟨S4096x50, .i1⟩ : BufTy).Contents (Elt F) → (⟨S4096x50, .f32⟩ : BufTy).Contents (Elt F)),
    nullary main_cst_1 (constant S_ .f32 0x00000000#32),
    unary main_cst_1 main_v9 (broadcastInDim S1024x50 ![] bcast_S_S1024x50 : (⟨S_, .f32⟩ : BufTy).Contents (Elt F) → (⟨S1024x50, .f32⟩ : BufTy).Contents (Elt F)),
    nullary main_c_2 (constantI S_ 32 0#32),
    unary main_c_2 main_v10 (broadcastInDim S4096 ![] bcast_S_S4096 : (⟨S_, .i32⟩ : BufTy).Contents (Elt F) → (⟨S4096, .i32⟩ : BufTy).Contents (Elt F)),
    binary main_v7 main_v10 main_v11 (cmpi .slt : (⟨S4096, .i32⟩ : BufTy).Contents (Elt F) → (⟨S4096, .i32⟩ : BufTy).Contents (Elt F) → (⟨S4096, .i1⟩ : BufTy).Contents (Elt F)),
    nullary main_c_3 (constantI S_ 32 1024#32),
    unary main_c_3 main_v12 (broadcastInDim S4096 ![] bcast_S_S4096 : (⟨S_, .i32⟩ : BufTy).Contents (Elt F) → (⟨S4096, .i32⟩ : BufTy).Contents (Elt F)),
    binary main_v7 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_v7 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v15 (broadcastInDim S4096x1 ![0] bcast_S4096_S4096x1_0 : (⟨S4096, .i32⟩ : BufTy).Contents (Elt F) → (⟨S4096x1, .i32⟩ : BufTy).Contents (Elt F)),
    ternary main_v9 main_v15 main_v8 main_v16 ((fun x i u => Host.scatterAdd scatter_S1024x50_S4096x1_S4096x50_1_0_0_1 x i u) : (⟨S1024x50, .f32⟩ : BufTy).Contents (Elt F) → (⟨S4096x1, .i32⟩ : BufTy).Contents (Elt F) → (⟨S4096x50, .f32⟩ : BufTy).Contents (Elt F) → (⟨S1024x50, .f32⟩ : BufTy).Contents (Elt F)),
    binary main_arg1 main_v16 main_v17 (addf : (⟨S1024x50, .f32⟩ : BufTy).Contents (Elt F) → (⟨S1024x50, .f32⟩ : BufTy).Contents (Elt F) → (⟨S1024x50, .f32⟩ : BufTy).Contents (Elt F)) ]

set_option maxRecDepth 1024 in
/-- @main is that straight line: the two functions' definitions unfolded at their calls, the sequencing reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., nullary_bufs_sub .., binary_bufs_sub .., nullary_bufs_sub ..,
    unary_bufs_sub .., binary_bufs_sub .., nullary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    unary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    binary_bufs_sub ..⟩

/-! ## The composed term -/

/-- The divisor as remainder sees it: 1024, replaced by 1 were it 0 (it is not). -/
def divisor : IVec S_ 32 :=
  select (cmpi .eq (id (constantI S_ 32 1024#32)) (constantI S_ 32 0#32)) (constantI S_ 32 1#32) (id (constantI S_ 32 1024#32))

/-- The truncated remainder of the row number by the divisor. -/
def truncRem : IVec S4096 32 :=
  Host.remsi (iotaInDim S4096 32 0) (broadcastInDim S4096 ![] bcast_S_S4096 divisor)

/-- remainder's result: the truncated remainder, moved by the divisor where it is nonzero and its sign differs from
    the divisor's (the floored remainder). -/
def flooredRem : IVec S4096 32 :=
  select
    (andi
      (cmpi .ne (cmpi .slt truncRem (broadcastInDim S4096 ![] bcast_S_S4096 (constantI S_ 32 0#32)))
        (broadcastInDim S4096 ![] bcast_S_S4096 (cmpi .slt divisor (constantI S_ 32 0#32))))
      (cmpi .ne truncRem (broadcastInDim S4096 ![] bcast_S_S4096 (constantI S_ 32 0#32))))
    (addi truncRem (broadcastInDim S4096 ![] bcast_S_S4096 divisor))
    truncRem

/-- The scatter's row indices: the floored remainder, a negative one moved up by 1024, as a column. It depends on no
    argument. -/
def idxChain : IVec S4096x1 32 :=
  broadcastInDim S4096x1 ![0] bcast_S4096_S4096x1_0
    (select (cmpi .slt flooredRem (broadcastInDim S4096 ![] bcast_S_S4096 (constantI S_ 32 0#32)))
      (addi flooredRem (broadcastInDim S4096 ![] bcast_S_S4096 (constantI S_ 32 1024#32)))
      flooredRem)

/-- The scatter's updates: 1 where the sum over the last axis of |x[n, 0, h, k]| compares equal to 0, else 0. -/
def upd (x : FVec F S4096x2x50x64 .f32) : FVec F S4096x50 .f32 :=
  uitofp .f32
    (cmpf .oeq
      (Host.reduceAdd
        (Host.absf
          (fun i => shapeCast S4096x50x64
            (extractStridedSlice S4096x1x50x64 ![0, 0, 0, 0] x slices_S4096x2x50x64_S4096x1x50x64_0_0_0_0)
            shapeCasts_S4096x1x50x64_S4096x50x64 i))
        (constant S_ .f32 0x00000000#32) reducesTo_S4096x50x64_S4096x50_d2 h_S_)
      (broadcastInDim S4096x50 ![] bcast_S_S4096x50 (constant S_ .f32 0x00000000#32)))

/-- What the reference computes from its two arguments' contents: seen plus the scatter-add, into a table of zeros, of
    the updates at the row indices. -/
def out (x : FVec F S4096x2x50x64 .f32) (seen : FVec F S1024x50 .f32) : FVec F S1024x50 .f32 :=
  addf seen
    (Host.scatterAdd scatter_S1024x50_S4096x1_S4096x50_1_0_0_1
      (broadcastInDim S1024x50 ![] bcast_S_S1024x50 (constant S_ .f32 0x00000000#32)) idxChain (upd x))

attribute [local irreducible] Host.reduceAdd Host.scatterAdd Host.remsi in
set_option maxRecDepth 8192 in
/-- The fold of the forty-four operations at the result buffer is that term. -/
theorem after_v17 (V : Valuation τ sig (Elt F)) :
    after ops V (main_v17 : DevRef τ sig) = out (V (main_arg0 : DevRef τ sig)) (V (main_arg1 : DevRef τ sig)) := by
  after_results_simp
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

/-- On the one device, for any float values, from any memory with zero counters: every weakly fair execution of @main
    terminates with the result buffer at the composed term of the two arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (after_v17 _),
      (h c main_arg0).trans (after_arg0 _),
      (h c main_arg1).trans (after_arg1 _)⟩)
    (run_seq scopedRefs_eq scopedSems_eq defs main (fun _ => ops) main_eq (fun _ => ops_sub) m ρ)

end Cert.ReferenceIdeal.RefRun

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.RefValue.lean ====
/-
  The reference's composed term is the specification, index by index.

  At (b, h) the result is seen[b, h] plus the scatter-add, into zeros, of the updates at the row indices. The row index
  of edge e is e mod 1024: the iota's truncated remainder by 1024 is already the floored one (both operands are
  nonnegative), and the negative-index normalisation leaves a nonnegative word alone. So the edges that land in row b are
  b, b + 1024, b + 2048 and b + 3072, and the update of edge n at column h is the one-bit comparison "the sum over k of
  |x[n, 0, h, k]| equals 0" read as a number.
-/
import proofs.«168630_g34205119545578_cont_sun_m_983_19_alg».proof.Proof.RefRun
import proofs.«168630_g34205119545578_cont_sun_m_983_19_alg».proof.Proof.Spec
import proofs.«168630_g34205119545578_cont_sun_m_983_19_alg».proof.Proof.LibRowGatherScatter
import Idealize.ShloMosaic.Lib.IdealHost
import Idealize.ShloMosaic.Lib.Pipeline.Value
import Idealize.ShloMosaic.Lib.Affine

noncomputable section

namespace Cert.ReferenceIdeal.RefRun

open Cert.ReferenceIdeal Cert.ReferenceIdeal.Gen Idealize.ShloMosaic Idealize.ShloMosaic.ValueIdx

/-! ## The row indices -/

/-- The divisor is 1024. -/
theorem divisor_at (j : S_.Idx) : divisor j = 1024#32 := by
  rfl

/-- A word below 2³¹ does not test negative. -/
theorem slt_zero_of_small (r : BitVec 32) (hr : r.toNat < 2 ^ 31) : IntOp.cmpi .slt r 0#32 = 0#1 := by
  apply eq_zero_of_ne_one
  rw [IntOp.cmpi_slt, BitVec.toInt_eq_toNat_of_lt (by omega)]
  show ¬ ((r.toNat : Int) < 0)
  omega

/-- The truncated remainder at row e is e mod 1024. -/
theorem truncRem_at (e : Fin 4096) : (truncRem (ix1 e)).toNat = e.val % 1024 := by
  have he := e.isLt
  show (IntOp.remsi .host (BitVec.ofNat 32 e.val) (broadcastInDim S4096 ![] bcast_S_S4096 divisor (ix1 e))).toNat = _
  rw [broadcastInDim_scalar_apply, divisor_at]
  rw [IntOp.toNat_remsi .host (by rw [BitVec.toNat_ofNat]; omega) 1024 (by omega) (by omega)]
  rw [BitVec.toNat_ofNat]
  omega

/-- The floored remainder at row e is the truncated one: neither operand is negative. -/
theorem flooredRem_at (e : Fin 4096) : flooredRem (ix1 e) = truncRem (ix1 e) := by
  have hr := truncRem_at e
  have he := e.isLt
  show Scalar.select
      (IntOp.andi
        (IntOp.cmpi .ne (IntOp.cmpi .slt (truncRem (ix1 e)) (broadcastInDim S4096 ![] bcast_S_S4096 (constantI S_ 32 0#32) (ix1 e)))
          (broadcastInDim S4096 ![] bcast_S_S4096 (cmpi .slt divisor (constantI S_ 32 0#32)) (ix1 e)))
        (IntOp.cmpi .ne (truncRem (ix1 e)) (broadcastInDim S4096 ![] bcast_S_S4096 (constantI S_ 32 0#32) (ix1 e))))
      (IntOp.addi (truncRem (ix1 e)) (broadcastInDim S4096 ![] bcast_S_S4096 divisor (ix1 e)))
      (truncRem (ix1 e)) = _
  rw [broadcastInDim_scalar_apply, broadcastInDim_scalar_apply]
  show Scalar.select
      (IntOp.andi
        (IntOp.cmpi .ne (IntOp.cmpi .slt (truncRem (ix1 e)) 0#32) (IntOp.cmpi .slt (divisor ix0) 0#32))
        (IntOp.cmpi .ne (truncRem (ix1 e)) 0#32)) _ _ = _
  rw [divisor_at, slt_zero_of_small _ (by omega)]
  have hc : IntOp.cmpi .ne (0#1) (IntOp.cmpi .slt 1024#32 0#32) = 0#1 := by decide
  have ha : ∀ d : BitVec 1, IntOp.andi 0#1 d = 0#1 := by decide
  rw [hc, ha, select_zero]

/-- The scatter's row index of edge e, read signed, is e mod 1024. -/
theorem idx_at (e : Fin 4096) : (idxChain (ix2 e 0)).toInt = ((e.val % 1024 : Nat) : Int) := by
  have hr := truncRem_at e
  have he := e.isLt
  unfold idxChain
  rw [broadcastInDim_apply _ _ _ _ (ix1 e) (fun a => match a with | ⟨0, _⟩ => rfl)]
  show (Scalar.select (IntOp.cmpi .slt (flooredRem (ix1 e)) (broadcastInDim S4096 ![] bcast_S_S4096 (constantI S_ 32 0#32) (ix1 e)))
      (IntOp.addi (flooredRem (ix1 e)) (broadcastInDim S4096 ![] bcast_S_S4096 (constantI S_ 32 1024#32) (ix1 e)))
      (flooredRem (ix1 e))).toInt = _
  rw [broadcastInDim_scalar_apply]
  show BitVec.toInt (Scalar.select (IntOp.cmpi .slt (flooredRem (ix1 e)) 0#32) _ _) = _
  rw [flooredRem_at, slt_zero_of_small _ (by omega), select_zero, BitVec.toInt_eq_toNat_of_lt (by omega), hr]

/-! ## The edges that land in a row -/

/-- The sum over the 4096 edges of the terms whose edge is congruent to b modulo 1024 is the sum over the four such
    edges. -/
theorem sum_fibre (f : Fin 4096 → EReal) (b : Fin 1024) :
    (∑ e : Fin 4096, if ((e.val % 1024 : Nat) : Int) = (b.val : Int) then f e else 0)
      = ∑ q : Fin 4, f (Cert.Probe.rowOf b q) := by
  have hb := b.isLt
  rw [← Finset.sum_filter]
  have himg : (Finset.univ.filter fun e : Fin 4096 => ((e.val % 1024 : Nat) : Int) = (b.val : Int))
      = Finset.univ.image (Cert.Probe.rowOf b) := by
    ext e
    have he := e.isLt
    simp only [Finset.mem_filter, Finset.mem_univ, true_and, Finset.mem_image]
    constructor
    · intro h
      refine ⟨⟨e.val / 1024, by omega⟩, Fin.ext ?_⟩
      show b.val + 1024 * (e.val / 1024) = e.val
      omega
    · rintro ⟨q, rfl⟩
      have hq := q.isLt
      show (((b.val + 1024 * q.val) % 1024 : Nat) : Int) = (b.val : Int)
      omega
  rw [himg, Finset.sum_image]
  intro q _ q' _ h
  have h' : b.val + 1024 * q.val = b.val + 1024 * q'.val := congrArg Fin.val h
  exact Fin.ext (by omega)

/-! ## The updates -/

/-- At the ideal instance an unsigned conversion reads the word as a number. -/
theorem uitofp_apply_ideal {s : Shape} {w : Nat} (φ : FTy) (v : IVec s w) (i : s.Idx) :
    (uitofp φ v : FVec Ideal s φ) i = (((v i).toNat : ℝ) : EReal) := rfl

/-- The host's absolute value at an index, at the ideal instance: max(a, -a). -/
theorem hostAbsf_apply_ideal {s : Shape} {φ : FTy} (v : FVec Ideal s φ) (i : s.Idx) :
    Host.absf v i = max (v i) (-(v i)) := rfl

/-- The update of edge n at column h is the comparison "the sum over k of |x[n, 0, h, k]| equals 0", as a number. -/
theorem upd_at (x : FVec Ideal S4096x2x50x64 .f32) (n : Fin 4096) (h : Fin 50) :
    upd x (ix2 n h) = Cert.Probe.rowZero x n h := by
  have hR : Shape.Reduces S4096x50x64 [2] S4096x50 := by decide
  unfold upd Cert.Probe.rowZero Cert.Probe.absRowSum
  rw [uitofp_apply_ideal, cmpf_apply, Ideal.cmpf_def, hostReduceAdd_apply, Ideal.hostReduceAdd_single _ hR,
    broadcastInDim_scalar_apply, constant_apply, constant_apply, Ideal.ofBits_zero_f32, zero_add]
  congr 4
  refine Finset.sum_congr rfl fun (k : Fin 64) _ => ?_
  have hl : hR.lift (ix2 n h) k = ix3 n h k := by
    funext a
    match a with
    | ⟨0, _⟩ => rfl
    | ⟨1, _⟩ => rfl
    | ⟨2, _⟩ => rfl
  rw [hl, hostAbsf_apply_ideal]
  rw [shapeCast_apply _ _ (ix3 n h k) (ix4 n (0 : Fin 1) h k) (by
        rw [Shape.rowMajor_val_three, Shape.rowMajor_val_four]
        show ((n.val * 1 + 0) * 50 + h.val) * 64 + k.val = (n.val * 50 + h.val) * 64 + k.val
        omega),
    extractStridedSlice_apply _ _ _ (ix4 n (0 : Fin 1) h k) (ix4 n (0 : Fin 2) h k) (fun a => match a with
      | ⟨0, _⟩ => by show n.val = 0 + n.val; omega
      | ⟨1, _⟩ => rfl
      | ⟨2, _⟩ => by show h.val = 0 + h.val; omega
      | ⟨3, _⟩ => by show k.val = 0 + k.val; omega)]

/-! ## The result -/

/-- The scatter-add at (b, h): the operand there plus the updates (e, h) of the edges e whose row index is b. -/
theorem scatter_at (z : FVec Ideal S1024x50 .f32) (u : FVec Ideal S4096x50 .f32) (b : Fin 1024) (h : Fin 50) :
    Host.scatterAdd scatter_S1024x50_S4096x1_S4096x50_1_0_0_1 z idxChain u (ix2 b h)
      = z (ix2 b h) + ∑ e : Fin 4096, if (idxChain (ix2 e 0)).toInt = (b.val : Int) then u (ix2 e h) else 0 :=
  Cert.Lib.RowPass.sc_apply scatter_S1024x50_S4096x1_S4096x50_1_0_0_1_wf z idxChain u b h

/-- The reference's composed term is the specification. -/
theorem out_eq (x : FVec Ideal S4096x2x50x64 .f32) (seen : FVec Ideal S1024x50 .f32) :
    out x seen = Cert.Probe.G x seen := by
  funext j
  obtain ⟨b, h, rfl⟩ : ∃ (b : Fin 1024) (h : Fin 50), j = ix2 b h := ⟨j 0, j 1, eq_ix2 j⟩
  rw [Cert.Probe.G_apply]
  unfold out Cert.Probe.Gat
  rw [addf_apply, scatter_at, broadcastInDim_scalar_apply, constant_apply, Ideal.ofBits_zero_f32, zero_add]
  congr 1
  rw [← sum_fibre (fun e => Cert.Probe.rowZero x e h) b]
  refine Finset.sum_congr rfl fun e _ => ?_
  rw [idx_at, upd_at]

end Cert.ReferenceIdeal.RefRun

end
-- ==== Proof.lean ====
/-
  The certificate of the probe kernel against its reference.

  Both programs compute, for x of shape [4096, 2, 50, 64] and seen of shape [1024, 50], the table
  seen[b, h] + #{ n ≡ b (mod 1024) : Σ_k |x[n, 0, h, k]| = 0 }. The kernel visits each block of 256 output rows four
  times (grid 4 × 4), once per residue class of n / 1024: eight streams of 32 rows each are reduced over k by a
  product with a matrix of ones, compared with zero, and the 0/1 indicators are accumulated tile by tile in a
  scratch array carried between grid points; at the fourth visit lane 0 of the accumulated tiles is added to the
  seen block. The reference slices channel 0, sums |x| over k, compares with zero and scatter-adds the indicators at
  the row indices n mod 1024 into a zero table, then adds seen. Over the extended reals both are the same finite
  sum of indicators added to seen[b, h]; no finiteness of the inputs is used.

  The three frames: the two kernel programs by the same text at the two float instances (the whole-body run per
  visit kind, the accumulator's contents on its used part as the invariant, the launch for windows sharing an
  array), the reference by its run. The idealization rewrote nothing. The equality of results: the kernel's output
  array is `Cert.Probe.G` of the arguments (the four visits' indicators summed), and so is the reference's result.
-/
import proofs.«168630_g34205119545578_cont_sun_m_983_19_alg».proof.Defs
import proofs.«168630_g34205119545578_cont_sun_m_983_19_alg».proof.Proof.Gen.Kernel
import proofs.«168630_g34205119545578_cont_sun_m_983_19_alg».proof.Proof.Gen.KernelIdeal
import proofs.«168630_g34205119545578_cont_sun_m_983_19_alg».proof.Proof.Gen.ReferenceIdeal
import proofs.«168630_g34205119545578_cont_sun_m_983_19_alg».proof.Proof.Gen.Pre_finite_inputs
import proofs.«168630_g34205119545578_cont_sun_m_983_19_alg».proof.Proof.KBData
import proofs.«168630_g34205119545578_cont_sun_m_983_19_alg».proof.Proof.KIData
import proofs.«168630_g34205119545578_cont_sun_m_983_19_alg».proof.Proof.KIFinal
import proofs.«168630_g34205119545578_cont_sun_m_983_19_alg».proof.Proof.KIValueRun
import proofs.«168630_g34205119545578_cont_sun_m_983_19_alg».proof.Proof.RefRun
import proofs.«168630_g34205119545578_cont_sun_m_983_19_alg».proof.Proof.RefValue

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run (Cert.ReferenceIdeal.defs (F := Ideal)) _ _).mono (fun _ h c => ⟨(h c).2.1, (h c).2.2⟩)
    (Cert.ReferenceIdeal.RefRun.run (F := Ideal) m ρ)

/-- From memories agreeing on the arguments both programs end with the arguments unchanged and the second result
    at `Cert.Probe.G` of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Probe.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono (fun _ h c => ⟨(h c).2.1, (h c).1, (h c).2.1, (h c).2.2⟩)
      (Cert.KernelIdeal.Final.run_value_of Cert.KernelIdeal.Final.kernel_out m ρ)
  · refine (θ_run (Cert.ReferenceIdeal.defs (F := Ideal)) _ _).mono (fun _ h c => ⟨?_, ?_, (h c).2.1, (h c).2.2⟩)
      (Cert.ReferenceIdeal.RefRun.run (F := Ideal) m' ρ')
    · exact (h c).2.1.trans (hagree c).1
    · rw [(h c).1, Cert.ReferenceIdeal.RefRun.out_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
